-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S256x128 : Shape := ⟨2, ![256, 128]⟩
abbrev S256x1 : Shape := ⟨2, ![256, 1]⟩
abbrev S128 : Shape := ⟨1, ![128]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256x1 : S_.BroadcastsInDim S256x1 (![] : Fin 0 → Fin S256x1.rank)
  reducesTo_S256x1_S_d0_1 : S256x1.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S8192x256 .f32) (main_arg1 : IVec S8192x8192 32) (main_arg2 : FVec F S256x128 .f32) (main_arg3 : FVec F S256x1 .f32) (main_arg4 : FVec F S128 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256x1 .f32 := Host.absf main_arg3
  let main_cst_2 : FVec F S_ .f32 := constant S_ .f32 0x7F800000#32
  let main_v10 : FVec F S256x1 .f32 := broadcastInDim S256x1 ![] bcast_S_S256x1 main_cst_2
  let main_v11 : IVec S256x1 1 := cmpf .olt main_v9 main_v10
  let main_c_3 : IVec S_ 1 := constantI S_ 1 1#1
  let main_v12 : IVec S_ 1 := (fun x v => Host.reduce IntOp.andi x v reducesTo_S256x1_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S8192x256 : Shape := ⟨2, ![8192, 256]⟩
abbrev S8192x8192 : Shape := ⟨2, ![8192, 8192]⟩
abbrev S256x128 : Shape := ⟨2, ![256, 128]⟩
abbrev S256x1 : Shape := ⟨2, ![256, 1]⟩
abbrev S128 : Shape := ⟨1, ![128]⟩
abbrev S8192x128 : Shape := ⟨2, ![8192, 128]⟩
abbrev S1024x256 : Shape := ⟨2, ![1024, 256]⟩
abbrev S1024x128 : Shape := ⟨2, ![1024, 128]⟩
abbrev S128x1 : Shape := ⟨2, ![128, 1]⟩
abbrev S8192x1 : Shape := ⟨2, ![8192, 1]⟩
abbrev S1x8192 : Shape := ⟨2, ![1, 8192]⟩
abbrev S1x128 : Shape := ⟨2, ![1, 128]⟩
abbrev S512x2048 : Shape := ⟨2, ![512, 2048]⟩
abbrev S512x1 : Shape := ⟨2, ![512, 1]⟩
abbrev S1x2048 : Shape := ⟨2, ![1, 2048]⟩
abbrev S512x128 : Shape := ⟨2, ![512, 128]⟩
abbrev S512 : Shape := ⟨1, ![512]⟩
abbrev S2048x128 : Shape := ⟨2, ![2048, 128]⟩

abbrev nBuf : Space → Nat
  | .hbm => 14
  | .vmem => 20
  | .smem => 0
  | _ => 0

abbrev bufTy : (tb : Table) → Fin (tcTables nBuf tb) → BufTy
  | .hbm, ⟨0, _⟩ => ⟨S8192x256, .f32⟩
  | .hbm, ⟨1, _⟩ => ⟨S8192x8192, .i32⟩
  | .hbm, ⟨2, _⟩ => ⟨S256x128, .f32⟩
  | .hbm, ⟨3, _⟩ => ⟨S256x1, .f32⟩
  | .hbm, ⟨4, _⟩ => ⟨S128, .f32⟩
  | .hbm, ⟨5, _⟩ => ⟨S8192x128, .f32⟩
  | .hbm, ⟨6, _⟩ => ⟨S8192x128, .bf16⟩
  | .hbm, ⟨7, _⟩ => ⟨S128x1, .f32⟩
  | .hbm, ⟨8, _⟩ => ⟨S128x1, .f32⟩
  | .hbm, ⟨9, _⟩ => ⟨S8192x1, .f32⟩
  | .hbm, ⟨10, _⟩ => ⟨S8192x1, .f32⟩
  | .hbm, ⟨11, _⟩ => ⟨S1x8192, .f32⟩
  | .hbm, ⟨12, _⟩ => ⟨S1x128, .f32⟩
  | .hbm, ⟨13, _⟩ => ⟨S8192x128, .f32⟩
  | .local _ .vmem, ⟨0, _⟩ => ⟨S1024x256, .f32⟩
  | .local _ .vmem, ⟨1, _⟩ => ⟨S1024x256, .f32⟩
  | .local _ .vmem, ⟨2, _⟩ => ⟨S256x128, .f32⟩
  | .local _ .vmem, ⟨3, _⟩ => ⟨S1024x128, .f32⟩
  | .local _ .vmem, ⟨4, _⟩ => ⟨S1024x128, .f32⟩
  | .local _ .vmem, ⟨5, _⟩ => ⟨S1024x128, .bf16⟩
  | .local _ .vmem, ⟨6, _⟩ => ⟨S1024x128, .bf16⟩
  | .local _ .vmem, ⟨7, _⟩ => ⟨S512x2048, .i32⟩
  | .local _ .vmem, ⟨8, _⟩ => ⟨S512x2048, .i32⟩
  | .local _ .vmem, ⟨9, _⟩ => ⟨S8192x128, .bf16⟩
  | .local _ .vmem, ⟨10, _⟩ => ⟨S512x1, .f32⟩
  | .local _ .vmem, ⟨11, _⟩ => ⟨S512x1, .f32⟩
  | .local _ .vmem, ⟨12, _⟩ => ⟨S1x2048, .f32⟩
  | .local _ .vmem, ⟨13, _⟩ => ⟨S1x2048, .f32⟩
  | .local _ .vmem, ⟨14, _⟩ => ⟨S1x128, .f32⟩
  | .local _ .vmem, ⟨15, _⟩ => ⟨S512x128, .f32⟩
  | .local _ .vmem, ⟨16, _⟩ => ⟨S512x128, .f32⟩
  | .local _ .vmem, ⟨17, _⟩ => ⟨S512x1, .f32⟩
  | .local _ .vmem, ⟨18, _⟩ => ⟨S512x1, .f32⟩
  | .local _ .vmem, ⟨19, _⟩ => ⟨S512x128, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc1_scratch0 : Ref sig .tc := ⟨.vmem, 17, rfl⟩
abbrev cc1_scratch1 : Ref sig .tc := ⟨.vmem, 18, rfl⟩
abbrev cc1_scratch2 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![16, 4], ![false, false]⟩

def k1_mult1 (i : grid1.Coords) : BitVec 32 :=
  let arg1 : BitVec 32 := BitVec.ofNat 32 (i 1).val
  let c2048_i32 : BitVec 32 := 2048#32
  let v37 : BitVec 32 := Scalar.muli arg1 c2048_i32
  v37
def k1_off1 (i : grid1.Coords) : Fin 2 → Nat :=
  let arg1 : BitVec 32 := BitVec.ofNat 32 (i 1).val
  let c2048_i32 : BitVec 32 := 2048#32
  let v37 : BitVec 32 := Scalar.muli arg1 c2048_i32
  let v38 : BitVec 32 := v37
  let v39 : Index := Scalar.indexCast v38
  let c0_17 : Index := 0#32
  ![v39.toNat, 0]
def k1_cond2 (i : grid1.Coords) : BitVec 1 :=
  let arg1 : BitVec 32 := BitVec.ofNat 32 (i 1).val
  let c3_i32 : BitVec 32 := 3#32
  let v54 : BitVec 1 := Scalar.cmpi .eq arg1 c3_i32
  let v55 : BitVec 32 := Scalar.extui v54
  let c0_i32_25 : BitVec 32 := 0#32
  let v56 : BitVec 1 := Scalar.cmpi .ne v55 c0_i32_25
  v56

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x2048 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8192x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S512x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1024x128_S1024x128_0_0 : ∀ a, (![0, 0] : Fin 2 → Nat) a + S1024x128.size a ≤ S1024x128.size a
  h_S1024x128 : 0 < S1024x128.numel
  packedbf16_S1024x128_S1024x128_0_0 : (Rect.unit (s := S1024x128) ![0, 0] S1024x128.size inb_S1024x128_S1024x128_0_0).PackedRows (EltTy.packing .bf16)
  slices_S256x1_S128x1_0_0 : S256x1.Slices ![0, 0] S128x1
  slices_S256x1_S128x1_128_0 : S256x1.Slices ![128, 0] S128x1
  shapeCasts_S8192x1_S1x8192 : S8192x1.ShapeCasts S1x8192
  shapeCasts_S128_S1x128 : S128.ShapeCasts S1x128
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S512x1_S512x2048 : S512x1.Broadcasts S512x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  reduces_S512x2048_S512 : S512x2048.Reduces [1] S512
  shapeCasts_S512_S512x1 : S512.ShapeCasts S512x1
  h_S2048x128 : 0 < S2048x128.numel
  shapeCasts_S2048x128_S2048x128 : S2048x128.ShapeCasts S2048x128
  broadcasts_S512x1_S512x128 : S512x1.Broadcasts S512x128
  reduces_S512x128_S512 : S512x128.Reduces [1] S512
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  dot_S1024x256_S256x128_S1024x128_1_0_0_1_n_n_wf : DotDims.WF S1024x256 S256x128 S1024x128 [1] [0] [0] [1] [] []
  dot_S8192x128_S128x1_S8192x1_1_0_0_1_n_n_wf : DotDims.WF S8192x128 S128x1 S8192x1 [1] [0] [0] [1] [] []
  dot_S512x2048_S2048x128_S512x128_1_0_0_1_n_n_wf : DotDims.WF S512x2048 S2048x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .f32 = 32 ∨ (Rect.block (s := S8192x128) S1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S8192x128.size a
  hwx0_3 : ∀ i : grid0.Coords, EltTy.bits .bf16 = 32 ∨ (Rect.block (s := S8192x128) S1024x128.size (cc0_transform_3 i) (hinb0_3 i)).WholeWords (EltTy.packing .bf16)
  hrank1 : 0 < grid1.rank
  k1_mult1_dvd : ∀ i : grid1.Coords, 16 ∣ (k1_mult1 i).toNat
  k1_off1_inb : ∀ i : grid1.Coords, ∀ a, (k1_off1 i) a + S2048x128.size a ≤ S8192x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S8192x8192.size a
  hwx1_0 : ∀ i : grid1.Coords, EltTy.bits .i32 = 32 ∨ (Rect.block (s := S8192x8192) S512x2048.size (cc1_transform_0 i) (hinb1_0 i)).WholeWords (EltTy.packing .i32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x128.size a ≤ S8192x128.size a
  hwx1_1 : ∀ i : grid1.Coords, EltTy.bits .bf16 = 32 ∨ (Rect.block (s := S8192x128) S8192x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S8192x1.size a
  hwx1_2 : ∀ i : grid1.Coords, EltTy.bits .f32 = 32 ∨ (Rect.block (s := S8192x1) S512x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048.size a ≤ S1x8192.size a
  hwx1_3 : ∀ i : grid1.Coords, EltTy.bits .f32 = 32 ∨ (Rect.block (s := S1x8192) S1x2048.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x128.size a ≤ S8192x128.size a
  hwx1_5 : ∀ i : grid1.Coords, EltTy.bits .f32 = 32 ∨ (Rect.block (s := S8192x128) S512x128.size (cc1_transform_5 i) (hinb1_5 i)).WholeWords (EltTy.packing .f32)

variable [Facts₀]

def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1024x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S8192x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S512x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S8192x256 : Shape := ⟨2, ![8192, 256]⟩
abbrev S8192x8192 : Shape := ⟨2, ![8192, 8192]⟩
abbrev S256x128 : Shape := ⟨2, ![256, 128]⟩
abbrev S256x1 : Shape := ⟨2, ![256, 1]⟩
abbrev S128 : Shape := ⟨1, ![128]⟩
abbrev S8192x128 : Shape := ⟨2, ![8192, 128]⟩
abbrev S128x1 : Shape := ⟨2, ![128, 1]⟩
abbrev S8192x1 : Shape := ⟨2, ![8192, 1]⟩
abbrev S1x8192 : Shape := ⟨2, ![1, 8192]⟩
abbrev S_ : Shape := ⟨0, ![]⟩
abbrev S8192 : Shape := ⟨1, ![8192]⟩
abbrev S1x128 : Shape := ⟨2, ![1, 128]⟩

abbrev nBuf : Space → Nat
  | .hbm => 63
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x8192, .i32⟩
  | .hbm, ⟨2, _⟩ => ⟨S256x128, .f32⟩
  | .hbm, ⟨3, _⟩ => ⟨S256x1, .f32⟩
  | .hbm, ⟨4, _⟩ => ⟨S128, .f32⟩
  | .hbm, ⟨5, _⟩ => ⟨S8192x128, .f32⟩
  | .hbm, ⟨6, _⟩ => ⟨S128x1, .f32⟩
  | .hbm, ⟨7, _⟩ => ⟨S8192x1, .f32⟩
  | .hbm, ⟨8, _⟩ => ⟨S128x1, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .i1⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S_, .i32⟩
  | .hbm, ⟨22, _⟩ => ⟨S8192x8192, .i32⟩
  | .hbm, ⟨23, _⟩ => ⟨S8192x8192, .i1⟩
  | .hbm, ⟨24, _⟩ => ⟨S_, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S8192x1, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x8192, .f32⟩
  | .hbm, ⟨41, _⟩ => ⟨S8192x8192, .f32⟩
  | .hbm, ⟨42, _⟩ => ⟨S8192x128, .f32⟩
  | .hbm, ⟨43, _⟩ => ⟨S_, .f32⟩
  | .hbm, ⟨44, _⟩ => ⟨S8192x128, .f32⟩
  | .hbm, ⟨45, _⟩ => ⟨S8192x128, .i1⟩
  | .hbm, ⟨46, _⟩ => ⟨S_, .f32⟩
  | .hbm, ⟨47, _⟩ => ⟨S8192x128, .f32⟩
  | .hbm, ⟨48, _⟩ => ⟨S8192x128, .f32⟩
  | .hbm, ⟨49, _⟩ => ⟨S8192x128, .f32⟩
  | .hbm, ⟨50, _⟩ => ⟨S8192x128, .f32⟩
  | .hbm, ⟨51, _⟩ => ⟨S_, .f32⟩
  | .hbm, ⟨52, _⟩ => ⟨S8192, .f32⟩
  | .hbm, ⟨53, _⟩ => ⟨S8192x1, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S8192x128, .f32⟩
  | .hbm, ⟨59, _⟩ => ⟨S8192x128, .f32⟩
  | .hbm, ⟨60, _⟩ => ⟨S1x128, .f32⟩
  | .hbm, ⟨61, _⟩ => ⟨S8192x128, .f32⟩
  | .hbm, ⟨62, _⟩ => ⟨S8192x128, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_call1_v0 : Ref sig .tc := ⟨.hbm, 25, rfl⟩
abbrev main_call1_v1 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_call3_v0 : Ref sig .tc := ⟨.hbm, 50, rfl⟩
abbrev main_call3_cst : Ref sig .tc := ⟨.hbm, 51, rfl⟩
abbrev main_call3_v1 : Ref sig .tc := ⟨.hbm, 52, rfl⟩
abbrev main_call3_v2 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩

abbrev nD : Nat := 1
abbrev τ : Topo := Topo.v7x

variable {F : FTy → Type} [FloatOps F]

class Facts₀ : Prop where
  slices_S256x1_S128x1_0_0 : S256x1.Slices ![0, 0] S128x1
  slices_S256x1_S128x1_128_0 : S256x1.Slices ![128, 0] S128x1
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S_S8192x128 : S_.BroadcastsInDim S8192x128 (![] : Fin 0 → Fin S8192x128.rank)
  reducesTo_S8192x128_S8192_d1 : S8192x128.ReducesTo [1] S8192
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  dot_S8192x256_S256x128_S8192x128_1_0_0_1_n_n_wf : DotDims.WF S8192x256 S256x128 S8192x128 [1] [0] [0] [1] [] []
  dot_S8192x128_S128x1_S8192x1_1_0_0_1_n_n_wf : DotDims.WF S8192x128 S128x1 S8192x1 [1] [0] [0] [1] [] []
  dot_S8192x8192_S8192x128_S8192x128_1_0_0_1_n_n_wf : DotDims.WF S8192x8192 S8192x128 S8192x128 [1] [0] [0] [1] [] []

variable [Facts₀]

def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.KiCommon.lean ====
/- What the two kernel launches share: each window's block at a grid point read off the array as the launch finds
   it, the fact that an input window's staging buffer holds that block whether or not the point fetches it, the two
   branch conditions of the attention kernel decided over its 16 x 4 grid (first column tile: reset of the running
   maximum, denominator and accumulator; last column tile: the normalising epilogue and the only store of the output
   block), where the output window is idle, and the launch invariant with the three scratch buffers named. -/
import proofs.«407537_j39470749450706_3_alg».proof.Proof.Gen.KernelIdeal.Launch
import proofs.«407537_j39470749450706_3_alg».proof.Proof.Gen.KernelIdeal.Skeleton
import proofs.«407537_j39470749450706_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The projection kernel (call 0): x and weight in, h out twice -/

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 of call 0: its current staging buffer holds its block at every point, fetched there or not
    (where the point does not fetch it the block index has not moved), for any proof data whose array is the entry
    contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 of call 0: its current staging buffer holds its block at every point, fetched there or not
    (where the point does not fetch it the block index has not moved), for any proof data whose array is the entry
    contents and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The attention kernel (call 1): adjacency tile, h (whole), the two score vectors' blocks, bias in; output rows out -/

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 of call 1: its current staging buffer holds its block at every point, fetched there or not
    (where the point does not fetch it the block index has not moved), for any proof data whose array is the entry
    contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 of call 1: its current staging buffer holds its block at every point, fetched there or not
    (where the point does not fetch it the block index has not moved), for any proof data whose array is the entry
    contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 of call 1: its current staging buffer holds its block at every point, fetched there or not
    (where the point does not fetch it the block index has not moved), for any proof data whose array is the entry
    contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 of call 1: its current staging buffer holds its block at every point, fetched there or not
    (where the point does not fetch it the block index has not moved), for any proof data whose array is the entry
    contents and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4 of call 1: its current staging buffer holds its block at every point, fetched there or not
    (where the point does not fetch it the block index has not moved), for any proof data whose array is the entry
    contents and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Regions

/-! ## The attention kernel's two branches, over the grid (point t = 4 * row tile + column tile) -/

/-- First column tile of a row tile: the running maximum, denominator and accumulator are reset. -/
abbrev condA (i : grid1.Coords) : Prop := (Scalar.cmpi .ne (Scalar.extui (Scalar.cmpi .eq (BitVec.ofNat 32 (i 1).val) 0#32)) 0#32) = 1#1
theorem hcondA : ∀ t : Fin cfg1.N, condA (grid1.coords t) ↔ t.val % 4 = 0 :=
  (by decide +kernel : ∀ t : Fin grid1.N, condA (grid1.coords t) ↔ t.val % 4 = 0)

/-- Last column tile of a row tile: the epilogue runs and stores the output block. -/
abbrev condC (i : grid1.Coords) : Prop := k1_cond2 i = 1#1
theorem hcondC : ∀ t : Fin cfg1.N, condC (grid1.coords t) ↔ t.val % 4 = 3 :=
  (by decide +kernel : ∀ t : Fin grid1.N, condC (grid1.coords t) ↔ t.val % 4 = 3)

/-- The inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Away from the last column tile the output window is idle and is not written back. -/
theorem idleAt1_5 : ∀ t : Fin cfg1.N, ¬condC (grid1.coords t) → cfg1.idle 5 (grid1.coords t) = true := by decide +kernel
theorem noFlush1_5 : ∀ t : Fin cfg1.N, ¬condC (grid1.coords t) → (cfg1.win 5).flush t = false := by decide +kernel
/-- At the last column tile it is live. -/
theorem liveAt1_5 : ∀ t : Fin cfg1.N, condC (grid1.coords t) → cfg1.idle 5 (grid1.coords t) = false := by decide +kernel

/-! ## The memrefs the attention kernel is called with -/

abbrev ms1_0 (t : Fin cfg1.N) : Memref sig .tc .vmem S512x2048 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x2048 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x128 .f32 := win1_5.stage (cfg1.slots t 5)
abbrev hs1_5 (t : Fin cfg1.N) : (ms1_5 t).IsWhole := hstage1_5 ((cfg1.slots t 5).cast nbuf1_5)
/-- The running maximum, the running denominator and the accumulator: whole scoped buffers of the kernel's own. -/
abbrev scM : Memref sig .tc .vmem S512x1 .f32 := Memref.whole cc1_scratch0
abbrev scL : Memref sig .tc .vmem S512x1 .f32 := Memref.whole cc1_scratch1
abbrev scA : Memref sig .tc .vmem S512x128 .f32 := Memref.whole cc1_scratch2

/-- A scoped buffer whole at some contents. -/
abbrev anyBuf (c : Dev nD) (b : Ref sig .tc) : sProp 𝕄 :=
  iprop(∃ f : Buf (Elt F) ((c : Thread nD τ).loc b), ((c : Thread nD τ).loc b) ↦{fullShare} f)

/-- The projection kernel's staging buffers, which the attention kernel never touches. -/
abbrev others1 (c : Dev nD) : sProp 𝕄 :=
  iprop(anyBuf (F := F) c cc0_stg0_0 ∗ anyBuf (F := F) c cc0_stg0_1 ∗ anyBuf (F := F) c cc0_stg1_0 ∗ anyBuf (F := F) c cc0_stg2_0 ∗ anyBuf (F := F) c cc0_stg2_1 ∗ anyBuf (F := F) c cc0_stg3_0 ∗ anyBuf (F := F) c cc0_stg3_1)

/-- The launch invariant of the attention kernel with its three scratch buffers as memrefs owned at some contents. -/
theorem PhiA1_eq (c : Dev nD) :
    (Pipeline.ΦA spec1 c : sProp 𝕄)
      = iprop(iprop(anyBuf (F := F) c cc0_stg0_0 ∗ anyBuf (F := F) c cc0_stg0_1 ∗ anyBuf (F := F) c cc0_stg1_0 ∗ anyBuf (F := F) c cc0_stg2_0 ∗ anyBuf (F := F) c cc0_stg2_1 ∗ anyBuf (F := F) c cc0_stg3_0 ∗ anyBuf (F := F) c cc0_stg3_1
          ∗ (∃ d, owns (c : Thread nD τ) scM fullShare d) ∗ (∃ d, owns (c : Thread nD τ) scL fullShare d) ∗ (∃ d, owns (c : Thread nD τ) scA fullShare d)) ∗ (∃ r, prngReg c r)) := by
  unfold Pipeline.ΦA; rw [scopedRest1_eq]; simp only [scM, scL, scA, owns_whole]; try rfl

end Cert.KernelIdeal.Flash

end
-- ==== Proof.KiRegion0.lean ====
/- The projection kernel (call 0) at any float instance: one grid point loads a 1024 x 256 block of x and the whole
   weight, multiplies them on the matrix unit into a zero accumulator, and stores the product twice, once as f32 and
   once narrowed to bf16. Stated here: what each output staging buffer holds after the body as a function of the two
   input blocks, the body's triple, the launch's proof data (arrays as found, blocks after the body, nothing owed) and
   the body obligation at every point. -/
import proofs.«407537_j39470749450706_3_alg».proof.Proof.KiCommon

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The body's accesses: each buffer whole -/

abbrev rX : Rect S1024x256 := Rect.unit (s := S1024x256) ![0, 0] S1024x256.size inb_S1024x256_S1024x256_0_0
abbrev rW : Rect S256x128 := Rect.unit (s := S256x128) ![0, 0] S256x128.size inb_S256x128_S256x128_0_0
abbrev rH : Rect S1024x128 := Rect.unit (s := S1024x128) ![0, 0] S1024x128.size inb_S1024x128_S1024x128_0_0

/-! ## What the body leaves in the two output buffers -/

/-- The f32 product block: the one store's value over the loaded x block and weight. -/
def hOut (x0 : Vec F S1024x256 .f32) (x1 : Vec F S256x128 .f32) : Vec F S1024x128 .f32 :=
  View.canon [⟨rH, k0_pay1 (View.ld x0 rX) (View.ld x1 rW)⟩]

/-- The same product narrowed to bf16. -/
def hOutB (x0 : Vec F S1024x256 .f32) (x1 : Vec F S256x128 .f32) : Vec F S1024x128 .bf16 :=
  View.canon [⟨rH, k0_pay2 (View.ld x0 rX) (View.ld x1 rW)⟩]

/-- One whole-buffer store covers the buffer. -/
theorem coverH {φ : EltTy} (p0 : Vec F S1024x128 φ) (y : S1024x128.Idx) :
    ∃ pc ∈ ([⟨rH, p0⟩] : List (View.Piece (Elt F) S1024x128 φ)), y ∈ pc.1.set :=
  View.cover_of_tiled [⟨rH, p0⟩] S1024x128.size (by rfl) y

/-! ## The body's triple -/

set_option maxHeartbeats 1000000 in
/-- On whole staging memrefs, the inputs' at their contents and the outputs' at anything, the body runs to the
    continuation holding the inputs as they were and the outputs at the product block and its narrowing. -/
theorem sound_kernel0 (c : Dev nD) (E : Set ℕ) (i : grid0.Coords)
    (arg1 : Memref sig .tc .vmem S1024x256 .f32) (harg1 : arg1.IsWhole) (arg2 : Memref sig .tc .vmem S256x128 .f32) (harg2 : arg2.IsWhole)
    (arg3 : Memref sig .tc .vmem S1024x128 .f32) (harg3 : arg3.IsWhole) (arg4 : Memref sig .tc .vmem S1024x128 .bf16) (harg4 : arg4.IsWhole)
    (x0 : Vec F S1024x256 .f32) (x1 : Vec F S256x128 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (hOut x0 x1) ∗ owns (c : Thread nD τ) arg4 fullShare (hOutB x0 x1)) -∗ K ⟨⟩))
      ⊢ wp frame (wpE (defs₀ (F := F)) Variants.none c none) E (cc0__h_kernel i arg1 harg1 arg2 harg2 arg3 harg3 arg4 harg4) K := by
  simp only [cc0__h_kernel_eq_skeleton]; unfold cc0__h_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverH _)
  iexists _; isplitr
  swap; · iexact H3
  ipureintro
  exact View.read_writes_eq_canon _ _ _ (coverH _)

/-! ## The launch's proof data -/

/-- Arrays as the launch finds them; after the body at point `t` each input's buffer at its block and the two
    outputs' at the product of the point's blocks; the class invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => hOut (iblk0 V c 0 t) (iblk0 V c 1 t)
    | ⟨3, _⟩ => hOutB (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = hOut (iblk0 V c 0 t) (iblk0 V c 1 t) := by dsimp only [dat0]
theorem after0_3 (c : Dev nD) (t : Fin cfg0.N) : (dat0 V c).after 3 t = hOutB (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Regions

end Cert.KernelIdeal.Flash

end
-- ==== Proof.KiViews.lean ====
/- The views through which the attention kernel's scratch and output contents are stated, and the 2048-row slab of h
   a grid point's column tile reads. -/
import proofs.«407537_j39470749450706_3_alg».proof.Proof.KiCommon

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The running reference point's, denominator's and weighted sum's buffers, and one staging buffer of the output
    window, as views. -/
abbrev VM : View sig .tc .vmem S512x1 .f32 := scM.view
abbrev VL : View sig .tc .vmem S512x1 .f32 := scL.view
abbrev VA : View sig .tc .vmem S512x128 .f32 := scA.view
abbrev VO : View sig .tc .vmem S512x128 .f32 := (Memref.whole cc1_stg5_0 : Memref sig .tc .vmem S512x128 .f32).view

/-- Rows 2048 * (column tile) … of h: the slab the point's column tile multiplies by. -/
abbrev hSlab (i : grid1.Coords) (x1 : Vec F S8192x128 .bf16) : Vec F S2048x128 .bf16 :=
  View.ld x1 (Rect.unit (s := S8192x128) (k1_off1 i) S2048x128.size (k1_off1_inb i))

end Cert.KernelIdeal.Flash

end
-- ==== Proof.KiRunA.lean ====
/- The attention kernel's body run at the first column tile of a row tile: the running maximum, denominator and
   weighted sum are first reset (to minus infinity, zero, zero) and then updated from the reset values, so each scratch
   buffer is stored twice; no epilogue, the output's buffer is not touched. The run's witness is, per scratch buffer,
   the list of pieces its stores leave; below it, that each list covers its buffer and what it reads back as, in terms
   of the body's payloads. -/
import proofs.«407537_j39470749450706_3_alg».proof.Proof.KiViews
import Idealize.ShloMosaic.Lib.Pipeline.Value

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the three scratch buffers, as pieces (last first), at a point where the reset is
    taken and the epilogue is not, WITH the proof that on whole memrefs (the five inputs' at their contents, the
    output's at contents `xo`, the scratch buffers' at anything) the body runs to the continuation holding the inputs'
    and the output's as they were and each scratch buffer with its pieces written. -/
noncomputable def kernelRun1_A (c : Dev nD) (i : grid1.Coords) (arg2 : Memref sig .tc .vmem S512x2048 .i32) (harg2 : arg2.IsWhole) (arg3 : Memref sig .tc .vmem S8192x128 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x128 .f32) (harg10 : arg10.IsWhole) (hcA : condA i) (hcC : ¬condC i)
    (x0 : Vec F S512x2048 .i32) (x1 : Vec F S8192x128 .bf16) (x2 : Vec F S512x1 .f32) (x3 : Vec F S1x2048 .f32) (x4 : Vec F S1x128 .f32) (xo : Vec F S512x128 .f32) :
    Σ' (LM LL : List (View.Piece (Elt F) S512x1 .f32)), { LA : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare xo
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ owns (c : Thread nD τ) arg7 fullShare xo
                ∗ (∃ f, arg8.view.loc (c : Thread nD τ) ↦[arg8.view.set]{fullShare} arg8.view.writes (Elt F) f LM)
                ∗ (∃ f, arg9.view.loc (c : Thread nD τ) ↦[arg9.view.set]{fullShare} arg9.view.writes (Elt F) f LL)
                ∗ (∃ f, arg10.view.loc (c : Thread nD τ) ↦[arg10.view.set]{fullShare} arg10.view.writes (Elt F) f LA)) -∗ K ⟨⟩))
          ⊢ wp frame (wpE (defs₀ (F := F)) Variants.none c none) E (cc1__flash_kernel i arg2 harg2 arg3 harg3 arg4 harg4 arg5 harg5 arg6 harg6 arg7 harg7 arg8 harg8 arg9 harg9 arg10 harg10) K } := by
  refine ⟨?_, ?_, ?_, fun E K => ?run⟩
  case run =>
    rw [cc1__flash_kernel_eq_skeleton]; unfold cc1__flash_kernel_skel
    rw [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hcA | exact hcC)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

/-- The pieces this case leaves in the running maximum's buffer cover it. -/
theorem coverA_M (c : Dev nD) (i : grid1.Coords) (arg2 : Memref sig .tc .vmem S512x2048 .i32) (harg2 : arg2.IsWhole) (arg3 : Memref sig .tc .vmem S8192x128 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x128 .f32) (harg10 : arg10.IsWhole) (hcA : condA i) (hcC : ¬condC i)
    (x0 : Vec F S512x2048 .i32) (x1 : Vec F S8192x128 .bf16) (x2 : Vec F S512x1 .f32) (x3 : Vec F S1x2048 .f32) (x4 : Vec F S1x128 .f32) (xo : Vec F S512x128 .f32) (y : S512x1.Idx) :
    ∃ pc ∈ (kernelRun1_A c i arg2 harg2 arg3 harg3 arg4 harg4 arg5 harg5 arg6 harg6 arg7 harg7 arg8 harg8 arg9 harg9 arg10 harg10 hcA hcC x0 x1 x2 x3 x4 xo).1, y ∈ pc.1.set :=
  View.cover_of_tiledL (kernelRun1_A c i arg2 harg2 arg3 harg3 arg4 harg4 arg5 harg5 arg6 harg6 arg7 harg7 arg8 harg8 arg9 harg9 arg10 harg10 hcA hcC x0 x1 x2 x3 x4 xo).1 S512x1.size (by sl_kernel_rfl) y

/-- The pieces this case leaves in the running denominator's buffer cover it. -/
theorem coverA_L (c : Dev nD) (i : grid1.Coords) (arg2 : Memref sig .tc .vmem S512x2048 .i32) (harg2 : arg2.IsWhole) (arg3 : Memref sig .tc .vmem S8192x128 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x128 .f32) (harg10 : arg10.IsWhole) (hcA : condA i) (hcC : ¬condC i)
    (x0 : Vec F S512x2048 .i32) (x1 : Vec F S8192x128 .bf16) (x2 : Vec F S512x1 .f32) (x3 : Vec F S1x2048 .f32) (x4 : Vec F S1x128 .f32) (xo : Vec F S512x128 .f32) (y : S512x1.Idx) :
    ∃ pc ∈ (kernelRun1_A c i arg2 harg2 arg3 harg3 arg4 harg4 arg5 harg5 arg6 harg6 arg7 harg7 arg8 harg8 arg9 harg9 arg10 harg10 hcA hcC x0 x1 x2 x3 x4 xo).2.1, y ∈ pc.1.set :=
  View.cover_of_tiledL (kernelRun1_A c i arg2 harg2 arg3 harg3 arg4 harg4 arg5 harg5 arg6 harg6 arg7 harg7 arg8 harg8 arg9 harg9 arg10 harg10 hcA hcC x0 x1 x2 x3 x4 xo).2.1 S512x1.size (by sl_kernel_rfl) y

/-- The pieces this case leaves in the weighted sum's buffer cover it. -/
theorem coverA_A (c : Dev nD) (i : grid1.Coords) (arg2 : Memref sig .tc .vmem S512x2048 .i32) (harg2 : arg2.IsWhole) (arg3 : Memref sig .tc .vmem S8192x128 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x128 .f32) (harg10 : arg10.IsWhole) (hcA : condA i) (hcC : ¬condC i)
    (x0 : Vec F S512x2048 .i32) (x1 : Vec F S8192x128 .bf16) (x2 : Vec F S512x1 .f32) (x3 : Vec F S1x2048 .f32) (x4 : Vec F S1x128 .f32) (xo : Vec F S512x128 .f32) (y : S512x128.Idx) :
    ∃ pc ∈ (kernelRun1_A c i arg2 harg2 arg3 harg3 arg4 harg4 arg5 harg5 arg6 harg6 arg7 harg7 arg8 harg8 arg9 harg9 arg10 harg10 hcA hcC x0 x1 x2 x3 x4 xo).2.2.1, y ∈ pc.1.set :=
  View.cover_of_tiledL (kernelRun1_A c i arg2 harg2 arg3 harg3 arg4 harg4 arg5 harg5 arg6 harg6 arg7 harg7 arg8 harg8 arg9 harg9 arg10 harg10 hcA hcC x0 x1 x2 x3 x4 xo).2.2.1 S512x128.size (by sl_kernel_rfl) y

private theorem hz : (![0, 0] : Fin 2 → Nat) = fun _ => 0 := funext fun a => by fin_cases a <;> rfl

/-- What this case leaves in the running maximum's buffer: the maximum of minus infinity (the reset value, read back)
    and the row maxima of this tile's masked scores. -/
theorem runA_M (c : Dev nD) (i : grid1.Coords) (arg2 : Memref sig .tc .vmem S512x2048 .i32) (harg2 : arg2.IsWhole) (arg3 : Memref sig .tc .vmem S8192x128 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x128 .f32) (harg10 : arg10.IsWhole) (hcA : condA i) (hcC : ¬condC i)
    (x0 : Vec F S512x2048 .i32) (x1 : Vec F S8192x128 .bf16) (x2 : Vec F S512x1 .f32) (x3 : Vec F S1x2048 .f32) (x4 : Vec F S1x128 .f32) (xo : Vec F S512x128 .f32) :
    VM.read (Elt F) (VM.writes (Elt F) VM.junk (kernelRun1_A c i arg2 harg2 arg3 harg3 arg4 harg4 arg5 harg5 arg6 harg6 arg7 harg7 arg8 harg8 arg9 harg9 arg10 harg10 hcA hcC x0 x1 x2 x3 x4 xo).1) = k1_pay2 (k1_pay8 x2 x3 x0 k1_pay4) := by
  rw [View.read_writes_eq_canon _ _ _ (coverA_M c i arg2 harg2 arg3 harg3 arg4 harg4 arg5 harg5 arg6 harg6 arg7 harg7 arg8 harg8 arg9 harg9 arg10 harg10 hcA hcC x0 x1 x2 x3 x4 xo)]
  unfold kernelRun1_A
  dsimp only
  sl_unfold_run_names
  rw [View.canon_cons_unit_zero (S := S512x1) hz]
  simp only [View.readAt_eq_ld, View.readCov_unit_zero (S := S512x1) _ hz,
    harg2.read_unread, harg4.read_unread, harg5.read_unread,
    View.ld_unit_zero (S := S512x1) hz, View.ld_unit_zero (S := S1x2048) hz, View.ld_unit_zero (S := S512x2048) hz]

/-- What this case leaves in the running denominator's buffer: zero (the reset value, read back) rescaled, plus the
    row sums of this tile's exponentials taken relative to the new maximum. -/
theorem runA_L (c : Dev nD) (i : grid1.Coords) (arg2 : Memref sig .tc .vmem S512x2048 .i32) (harg2 : arg2.IsWhole) (arg3 : Memref sig .tc .vmem S8192x128 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x128 .f32) (harg10 : arg10.IsWhole) (hcA : condA i) (hcC : ¬condC i)
    (x0 : Vec F S512x2048 .i32) (x1 : Vec F S8192x128 .bf16) (x2 : Vec F S512x1 .f32) (x3 : Vec F S1x2048 .f32) (x4 : Vec F S1x128 .f32) (xo : Vec F S512x128 .f32) :
    VL.read (Elt F) (VL.writes (Elt F) VL.junk (kernelRun1_A c i arg2 harg2 arg3 harg3 arg4 harg4 arg5 harg5 arg6 harg6 arg7 harg7 arg8 harg8 arg9 harg9 arg10 harg10 hcA hcC x0 x1 x2 x3 x4 xo).2.1) = k1_pay11 x2 x3 x0 k1_pay4 k1_pay5 := by
  rw [View.read_writes_eq_canon _ _ _ (coverA_L c i arg2 harg2 arg3 harg3 arg4 harg4 arg5 harg5 arg6 harg6 arg7 harg7 arg8 harg8 arg9 harg9 arg10 harg10 hcA hcC x0 x1 x2 x3 x4 xo)]
  unfold kernelRun1_A
  dsimp only
  sl_unfold_run_names
  rw [View.canon_cons_unit_zero (S := S512x1) hz]
  simp only [View.readAt_eq_ld, View.readCov_unit_zero (S := S512x1) _ hz,
    harg2.read_unread, harg4.read_unread, harg5.read_unread,
    View.ld_unit_zero (S := S512x1) hz, View.ld_unit_zero (S := S1x2048) hz, View.ld_unit_zero (S := S512x2048) hz]

/-- What this case leaves in the weighted sum's buffer: zero (the reset value, read back) rescaled, plus this tile's
    exponentials times its slab of h. -/
theorem runA_A (c : Dev nD) (i : grid1.Coords) (arg2 : Memref sig .tc .vmem S512x2048 .i32) (harg2 : arg2.IsWhole) (arg3 : Memref sig .tc .vmem S8192x128 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x128 .f32) (harg10 : arg10.IsWhole) (hcA : condA i) (hcC : ¬condC i)
    (x0 : Vec F S512x2048 .i32) (x1 : Vec F S8192x128 .bf16) (x2 : Vec F S512x1 .f32) (x3 : Vec F S1x2048 .f32) (x4 : Vec F S1x128 .f32) (xo : Vec F S512x128 .f32) :
    VA.read (Elt F) (VA.writes (Elt F) VA.junk (kernelRun1_A c i arg2 harg2 arg3 harg3 arg4 harg4 arg5 harg5 arg6 harg6 arg7 harg7 arg8 harg8 arg9 harg9 arg10 harg10 hcA hcC x0 x1 x2 x3 x4 xo).2.2.1)
      = k1_pay1 (k1_pay9 x2 x3 x0 k1_pay4) (k1_pay10 x2 x3 x0 k1_pay4) (hSlab i x1) k1_pay6 := by
  rw [View.read_writes_eq_canon _ _ _ (coverA_A c i arg2 harg2 arg3 harg3 arg4 harg4 arg5 harg5 arg6 harg6 arg7 harg7 arg8 harg8 arg9 harg9 arg10 harg10 hcA hcC x0 x1 x2 x3 x4 xo)]
  unfold kernelRun1_A
  dsimp only
  sl_unfold_run_names
  rw [View.canon_cons_unit_zero (S := S512x128) hz]
  simp only [View.readAt_eq_ld, View.readCov_unit_zero (S := S512x1) _ hz, View.readCov_unit_zero (S := S512x128) _ hz,
    harg2.read_unread, harg3.read_unread, harg4.read_unread, harg5.read_unread,
    View.ld_unit_zero (S := S512x1) hz, View.ld_unit_zero (S := S1x2048) hz, View.ld_unit_zero (S := S512x2048) hz]

end Cert.KernelIdeal.Flash

end
-- ==== Proof.KiRunB.lean ====
/- The attention kernel's body run at a grid point that is neither the first nor the last column tile of its row
   tile: no reset, no epilogue. The running maximum, denominator and weighted sum come in at the contents the point
   before left and each is stored once; the output's buffer is not touched. The run's witness is, per scratch
   buffer, the list of pieces its stores leave; below it, that each list covers its buffer and what it reads back
   as, in terms of the body's payloads. -/
import proofs.«407537_j39470749450706_3_alg».proof.Proof.KiViews
import Idealize.ShloMosaic.Lib.Pipeline.Value

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the three scratch buffers, as pieces (last first), at a point with neither
    branch taken, WITH the proof that on whole memrefs (the five inputs' at their contents, the output's at contents
    `xo`, the scratch buffers' at the contents `xs·` the point before left) the body runs to the continuation
    holding the inputs' and the output's as they were and each scratch buffer with its pieces written. -/
noncomputable def kernelRun1_B (c : Dev nD) (i : grid1.Coords) (arg2 : Memref sig .tc .vmem S512x2048 .i32) (harg2 : arg2.IsWhole) (arg3 : Memref sig .tc .vmem S8192x128 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x128 .f32) (harg10 : arg10.IsWhole) (hcA : ¬condA i) (hcC : ¬condC i)
    (x0 : Vec F S512x2048 .i32) (x1 : Vec F S8192x128 .bf16) (x2 : Vec F S512x1 .f32) (x3 : Vec F S1x2048 .f32) (x4 : Vec F S1x128 .f32) (xo : Vec F S512x128 .f32) (xs0 xs1 : Vec F S512x1 .f32) (xs2 : Vec F S512x128 .f32) :
    Σ' (LM LL : List (View.Piece (Elt F) S512x1 .f32)), { LA : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare xo
            ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ owns (c : Thread nD τ) arg7 fullShare xo
                ∗ (∃ f, arg8.view.loc (c : Thread nD τ) ↦[arg8.view.set]{fullShare} arg8.view.writes (Elt F) f LM)
                ∗ (∃ f, arg9.view.loc (c : Thread nD τ) ↦[arg9.view.set]{fullShare} arg9.view.writes (Elt F) f LL)
                ∗ (∃ f, arg10.view.loc (c : Thread nD τ) ↦[arg10.view.set]{fullShare} arg10.view.writes (Elt F) f LA)) -∗ K ⟨⟩))
          ⊢ wp frame (wpE (defs₀ (F := F)) Variants.none c none) E (cc1__flash_kernel i arg2 harg2 arg3 harg3 arg4 harg4 arg5 harg5 arg6 harg6 arg7 harg7 arg8 harg8 arg9 harg9 arg10 harg10) K } := by
  refine ⟨?_, ?_, ?_, fun E K => ?run⟩
  case run =>
    rw [cc1__flash_kernel_eq_skeleton]; unfold cc1__flash_kernel_skel
    rw [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs0; obtain rfl := harg9.eq_unread hfs1; obtain rfl := harg10.eq_unread hfs2
    sl_exec (disch := first | exact hcA | exact hcC)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

/-- The pieces this case leaves in the running maximum's buffer cover it. -/
theorem coverB_M (c : Dev nD) (i : grid1.Coords) (arg2 : Memref sig .tc .vmem S512x2048 .i32) (harg2 : arg2.IsWhole) (arg3 : Memref sig .tc .vmem S8192x128 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x128 .f32) (harg10 : arg10.IsWhole) (hcA : ¬condA i) (hcC : ¬condC i)
    (x0 : Vec F S512x2048 .i32) (x1 : Vec F S8192x128 .bf16) (x2 : Vec F S512x1 .f32) (x3 : Vec F S1x2048 .f32) (x4 : Vec F S1x128 .f32) (xo : Vec F S512x128 .f32) (xs0 xs1 : Vec F S512x1 .f32) (xs2 : Vec F S512x128 .f32) (y : S512x1.Idx) :
    ∃ pc ∈ (kernelRun1_B c i arg2 harg2 arg3 harg3 arg4 harg4 arg5 harg5 arg6 harg6 arg7 harg7 arg8 harg8 arg9 harg9 arg10 harg10 hcA hcC x0 x1 x2 x3 x4 xo xs0 xs1 xs2).1, y ∈ pc.1.set :=
  View.cover_of_tiledL (kernelRun1_B c i arg2 harg2 arg3 harg3 arg4 harg4 arg5 harg5 arg6 harg6 arg7 harg7 arg8 harg8 arg9 harg9 arg10 harg10 hcA hcC x0 x1 x2 x3 x4 xo xs0 xs1 xs2).1 S512x1.size (by sl_kernel_rfl) y

/-- The pieces this case leaves in the running denominator's buffer cover it. -/
theorem coverB_L (c : Dev nD) (i : grid1.Coords) (arg2 : Memref sig .tc .vmem S512x2048 .i32) (harg2 : arg2.IsWhole) (arg3 : Memref sig .tc .vmem S8192x128 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x128 .f32) (harg10 : arg10.IsWhole) (hcA : ¬condA i) (hcC : ¬condC i)
    (x0 : Vec F S512x2048 .i32) (x1 : Vec F S8192x128 .bf16) (x2 : Vec F S512x1 .f32) (x3 : Vec F S1x2048 .f32) (x4 : Vec F S1x128 .f32) (xo : Vec F S512x128 .f32) (xs0 xs1 : Vec F S512x1 .f32) (xs2 : Vec F S512x128 .f32) (y : S512x1.Idx) :
    ∃ pc ∈ (kernelRun1_B c i arg2 harg2 arg3 harg3 arg4 harg4 arg5 harg5 arg6 harg6 arg7 harg7 arg8 harg8 arg9 harg9 arg10 harg10 hcA hcC x0 x1 x2 x3 x4 xo xs0 xs1 xs2).2.1, y ∈ pc.1.set :=
  View.cover_of_tiledL (kernelRun1_B c i arg2 harg2 arg3 harg3 arg4 harg4 arg5 harg5 arg6 harg6 arg7 harg7 arg8 harg8 arg9 harg9 arg10 harg10 hcA hcC x0 x1 x2 x3 x4 xo xs0 xs1 xs2).2.1 S512x1.size (by sl_kernel_rfl) y

/-- The pieces this case leaves in the weighted sum's buffer cover it. -/
theorem coverB_A (c : Dev nD) (i : grid1.Coords) (arg2 : Memref sig .tc .vmem S512x2048 .i32) (harg2 : arg2.IsWhole) (arg3 : Memref sig .tc .vmem S8192x128 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x128 .f32) (harg10 : arg10.IsWhole) (hcA : ¬condA i) (hcC : ¬condC i)
    (x0 : Vec F S512x2048 .i32) (x1 : Vec F S8192x128 .bf16) (x2 : Vec F S512x1 .f32) (x3 : Vec F S1x2048 .f32) (x4 : Vec F S1x128 .f32) (xo : Vec F S512x128 .f32) (xs0 xs1 : Vec F S512x1 .f32) (xs2 : Vec F S512x128 .f32) (y : S512x128.Idx) :
    ∃ pc ∈ (kernelRun1_B c i arg2 harg2 arg3 harg3 arg4 harg4 arg5 harg5 arg6 harg6 arg7 harg7 arg8 harg8 arg9 harg9 arg10 harg10 hcA hcC x0 x1 x2 x3 x4 xo xs0 xs1 xs2).2.2.1, y ∈ pc.1.set :=
  View.cover_of_tiledL (kernelRun1_B c i arg2 harg2 arg3 harg3 arg4 harg4 arg5 harg5 arg6 harg6 arg7 harg7 arg8 harg8 arg9 harg9 arg10 harg10 hcA hcC x0 x1 x2 x3 x4 xo xs0 xs1 xs2).2.2.1 S512x128.size (by sl_kernel_rfl) y

private theorem hz : (![0, 0] : Fin 2 → Nat) = fun _ => 0 := funext fun a => by fin_cases a <;> rfl

/-- What this case leaves in the running maximum's buffer: the maximum of the maximum the point before left and
    the row maxima of this tile's masked scores. -/
theorem runB_M (c : Dev nD) (i : grid1.Coords) (arg2 : Memref sig .tc .vmem S512x2048 .i32) (harg2 : arg2.IsWhole) (arg3 : Memref sig .tc .vmem S8192x128 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x128 .f32) (harg10 : arg10.IsWhole) (hcA : ¬condA i) (hcC : ¬condC i)
    (x0 : Vec F S512x2048 .i32) (x1 : Vec F S8192x128 .bf16) (x2 : Vec F S512x1 .f32) (x3 : Vec F S1x2048 .f32) (x4 : Vec F S1x128 .f32) (xo : Vec F S512x128 .f32) (xs0 xs1 : Vec F S512x1 .f32) (xs2 : Vec F S512x128 .f32) :
    VM.read (Elt F) (VM.writes (Elt F) VM.junk (kernelRun1_B c i arg2 harg2 arg3 harg3 arg4 harg4 arg5 harg5 arg6 harg6 arg7 harg7 arg8 harg8 arg9 harg9 arg10 harg10 hcA hcC x0 x1 x2 x3 x4 xo xs0 xs1 xs2).1) = k1_pay2 (k1_pay8 x2 x3 x0 xs0) := by
  rw [View.read_writes_eq_canon _ _ _ (coverB_M c i arg2 harg2 arg3 harg3 arg4 harg4 arg5 harg5 arg6 harg6 arg7 harg7 arg8 harg8 arg9 harg9 arg10 harg10 hcA hcC x0 x1 x2 x3 x4 xo xs0 xs1 xs2)]
  unfold kernelRun1_B
  dsimp only
  sl_unfold_run_names
  rw [View.canon_unit_zero hz]
  simp only [View.readAt_eq_ld, harg2.read_unread, harg4.read_unread, harg5.read_unread, harg8.read_unread,
    View.ld_unit_zero (S := S512x1) hz, View.ld_unit_zero (S := S1x2048) hz, View.ld_unit_zero (S := S512x2048) hz]

/-- What this case leaves in the running denominator's buffer: the denominator the point before left, rescaled from
    the old maximum to the new one, plus the row sums of this tile's exponentials. -/
theorem runB_L (c : Dev nD) (i : grid1.Coords) (arg2 : Memref sig .tc .vmem S512x2048 .i32) (harg2 : arg2.IsWhole) (arg3 : Memref sig .tc .vmem S8192x128 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x128 .f32) (harg10 : arg10.IsWhole) (hcA : ¬condA i) (hcC : ¬condC i)
    (x0 : Vec F S512x2048 .i32) (x1 : Vec F S8192x128 .bf16) (x2 : Vec F S512x1 .f32) (x3 : Vec F S1x2048 .f32) (x4 : Vec F S1x128 .f32) (xo : Vec F S512x128 .f32) (xs0 xs1 : Vec F S512x1 .f32) (xs2 : Vec F S512x128 .f32) :
    VL.read (Elt F) (VL.writes (Elt F) VL.junk (kernelRun1_B c i arg2 harg2 arg3 harg3 arg4 harg4 arg5 harg5 arg6 harg6 arg7 harg7 arg8 harg8 arg9 harg9 arg10 harg10 hcA hcC x0 x1 x2 x3 x4 xo xs0 xs1 xs2).2.1) = k1_pay11 x2 x3 x0 xs0 xs1 := by
  rw [View.read_writes_eq_canon _ _ _ (coverB_L c i arg2 harg2 arg3 harg3 arg4 harg4 arg5 harg5 arg6 harg6 arg7 harg7 arg8 harg8 arg9 harg9 arg10 harg10 hcA hcC x0 x1 x2 x3 x4 xo xs0 xs1 xs2)]
  unfold kernelRun1_B
  dsimp only
  sl_unfold_run_names
  rw [View.canon_unit_zero hz]
  simp only [View.readAt_eq_ld, harg2.read_unread, harg4.read_unread, harg5.read_unread, harg8.read_unread,
    harg9.read_unread,
    View.ld_unit_zero (S := S512x1) hz, View.ld_unit_zero (S := S1x2048) hz, View.ld_unit_zero (S := S512x2048) hz]

/-- What this case leaves in the weighted sum's buffer: the weighted sum the point before left, rescaled from the old
    maximum to the new one, plus this tile's exponentials times its slab of h. -/
theorem runB_A (c : Dev nD) (i : grid1.Coords) (arg2 : Memref sig .tc .vmem S512x2048 .i32) (harg2 : arg2.IsWhole) (arg3 : Memref sig .tc .vmem S8192x128 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x128 .f32) (harg10 : arg10.IsWhole) (hcA : ¬condA i) (hcC : ¬condC i)
    (x0 : Vec F S512x2048 .i32) (x1 : Vec F S8192x128 .bf16) (x2 : Vec F S512x1 .f32) (x3 : Vec F S1x2048 .f32) (x4 : Vec F S1x128 .f32) (xo : Vec F S512x128 .f32) (xs0 xs1 : Vec F S512x1 .f32) (xs2 : Vec F S512x128 .f32) :
    VA.read (Elt F) (VA.writes (Elt F) VA.junk (kernelRun1_B c i arg2 harg2 arg3 harg3 arg4 harg4 arg5 harg5 arg6 harg6 arg7 harg7 arg8 harg8 arg9 harg9 arg10 harg10 hcA hcC x0 x1 x2 x3 x4 xo xs0 xs1 xs2).2.2.1)
      = k1_pay1 (k1_pay9 x2 x3 x0 xs0) (k1_pay10 x2 x3 x0 xs0) (hSlab i x1) xs2 := by
  rw [View.read_writes_eq_canon _ _ _ (coverB_A c i arg2 harg2 arg3 harg3 arg4 harg4 arg5 harg5 arg6 harg6 arg7 harg7 arg8 harg8 arg9 harg9 arg10 harg10 hcA hcC x0 x1 x2 x3 x4 xo xs0 xs1 xs2)]
  unfold kernelRun1_B
  dsimp only
  sl_unfold_run_names
  rw [View.canon_unit_zero hz]
  simp only [View.readAt_eq_ld, harg2.read_unread, harg3.read_unread, harg4.read_unread, harg5.read_unread,
    harg8.read_unread, harg10.read_unread,
    View.ld_unit_zero (S := S512x1) hz, View.ld_unit_zero (S := S1x2048) hz, View.ld_unit_zero (S := S512x2048) hz,
    View.ld_unit_zero (S := S512x128) hz]

end Cert.KernelIdeal.Flash

end
-- ==== Proof.KiRunC.lean ====
/- The attention kernel's body run at the last column tile of a row tile: no reset; the running maximum, denominator
   and weighted sum come in at the contents the point before left and each is stored once; then the epilogue reads the
   new weighted sum and denominator back, normalises, and stores the output block. The run's witness is the list of
   pieces the stores leave in the output's buffer and in each scratch buffer; below it, that each list covers its
   buffer and what it reads back as, in terms of the body's payloads. -/
import proofs.«407537_j39470749450706_3_alg».proof.Proof.KiViews
import Idealize.ShloMosaic.Lib.Pipeline.Value

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's buffer and in the three scratch buffers, as pieces (last first), at a
    point where the reset is not taken and the epilogue is, WITH the proof that on whole memrefs (the five inputs' at
    their contents, the output's at anything, the scratch buffers' at the contents `xs·` the point before left) the
    body runs to the continuation holding the inputs' as they were and the output's and each scratch buffer with its
    pieces written. -/
noncomputable def kernelRun1_C (c : Dev nD) (i : grid1.Coords) (arg2 : Memref sig .tc .vmem S512x2048 .i32) (harg2 : arg2.IsWhole) (arg3 : Memref sig .tc .vmem S8192x128 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x128 .f32) (harg10 : arg10.IsWhole) (hcA : ¬condA i) (hcC : condC i)
    (x0 : Vec F S512x2048 .i32) (x1 : Vec F S8192x128 .bf16) (x2 : Vec F S512x1 .f32) (x3 : Vec F S1x2048 .f32) (x4 : Vec F S1x128 .f32) (xs0 xs1 : Vec F S512x1 .f32) (xs2 : Vec F S512x128 .f32) :
    Σ' (LO : List (View.Piece (Elt F) S512x128 .f32)) (LM LL : List (View.Piece (Elt F) S512x1 .f32)), { LA : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d)
            ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f LO)
                ∗ (∃ f, arg8.view.loc (c : Thread nD τ) ↦[arg8.view.set]{fullShare} arg8.view.writes (Elt F) f LM)
                ∗ (∃ f, arg9.view.loc (c : Thread nD τ) ↦[arg9.view.set]{fullShare} arg9.view.writes (Elt F) f LL)
                ∗ (∃ f, arg10.view.loc (c : Thread nD τ) ↦[arg10.view.set]{fullShare} arg10.view.writes (Elt F) f LA)) -∗ K ⟨⟩))
          ⊢ wp frame (wpE (defs₀ (F := F)) Variants.none c none) E (cc1__flash_kernel i arg2 harg2 arg3 harg3 arg4 harg4 arg5 harg5 arg6 harg6 arg7 harg7 arg8 harg8 arg9 harg9 arg10 harg10) K } := by
  refine ⟨?_, ?_, ?_, ?_, fun E K => ?run⟩
  case run =>
    rw [cc1__flash_kernel_eq_skeleton]; unfold cc1__flash_kernel_skel
    rw [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hfs0; obtain rfl := harg9.eq_unread hfs1; obtain rfl := harg10.eq_unread hfs2
    sl_exec (disch := first | exact hcA | exact hcC)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    isplitl [HS1]; · iexists _; iexact HS1
    iexists _; iexact HS2

/-- The pieces this case leaves in the output's buffer cover it. -/
theorem coverC_O (c : Dev nD) (i : grid1.Coords) (arg2 : Memref sig .tc .vmem S512x2048 .i32) (harg2 : arg2.IsWhole) (arg3 : Memref sig .tc .vmem S8192x128 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x128 .f32) (harg10 : arg10.IsWhole) (hcA : ¬condA i) (hcC : condC i)
    (x0 : Vec F S512x2048 .i32) (x1 : Vec F S8192x128 .bf16) (x2 : Vec F S512x1 .f32) (x3 : Vec F S1x2048 .f32) (x4 : Vec F S1x128 .f32) (xs0 xs1 : Vec F S512x1 .f32) (xs2 : Vec F S512x128 .f32) (y : S512x128.Idx) :
    ∃ pc ∈ (kernelRun1_C c i arg2 harg2 arg3 harg3 arg4 harg4 arg5 harg5 arg6 harg6 arg7 harg7 arg8 harg8 arg9 harg9 arg10 harg10 hcA hcC x0 x1 x2 x3 x4 xs0 xs1 xs2).1, y ∈ pc.1.set :=
  View.cover_of_tiledL (kernelRun1_C c i arg2 harg2 arg3 harg3 arg4 harg4 arg5 harg5 arg6 harg6 arg7 harg7 arg8 harg8 arg9 harg9 arg10 harg10 hcA hcC x0 x1 x2 x3 x4 xs0 xs1 xs2).1 S512x128.size (by sl_kernel_rfl) y

/-- The pieces this case leaves in the running maximum's buffer cover it. -/
theorem coverC_M (c : Dev nD) (i : grid1.Coords) (arg2 : Memref sig .tc .vmem S512x2048 .i32) (harg2 : arg2.IsWhole) (arg3 : Memref sig .tc .vmem S8192x128 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x128 .f32) (harg10 : arg10.IsWhole) (hcA : ¬condA i) (hcC : condC i)
    (x0 : Vec F S512x2048 .i32) (x1 : Vec F S8192x128 .bf16) (x2 : Vec F S512x1 .f32) (x3 : Vec F S1x2048 .f32) (x4 : Vec F S1x128 .f32) (xs0 xs1 : Vec F S512x1 .f32) (xs2 : Vec F S512x128 .f32) (y : S512x1.Idx) :
    ∃ pc ∈ (kernelRun1_C c i arg2 harg2 arg3 harg3 arg4 harg4 arg5 harg5 arg6 harg6 arg7 harg7 arg8 harg8 arg9 harg9 arg10 harg10 hcA hcC x0 x1 x2 x3 x4 xs0 xs1 xs2).2.1, y ∈ pc.1.set :=
  View.cover_of_tiledL (kernelRun1_C c i arg2 harg2 arg3 harg3 arg4 harg4 arg5 harg5 arg6 harg6 arg7 harg7 arg8 harg8 arg9 harg9 arg10 harg10 hcA hcC x0 x1 x2 x3 x4 xs0 xs1 xs2).2.1 S512x1.size (by sl_kernel_rfl) y

/-- The pieces this case leaves in the running denominator's buffer cover it. -/
theorem coverC_L (c : Dev nD) (i : grid1.Coords) (arg2 : Memref sig .tc .vmem S512x2048 .i32) (harg2 : arg2.IsWhole) (arg3 : Memref sig .tc .vmem S8192x128 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x128 .f32) (harg10 : arg10.IsWhole) (hcA : ¬condA i) (hcC : condC i)
    (x0 : Vec F S512x2048 .i32) (x1 : Vec F S8192x128 .bf16) (x2 : Vec F S512x1 .f32) (x3 : Vec F S1x2048 .f32) (x4 : Vec F S1x128 .f32) (xs0 xs1 : Vec F S512x1 .f32) (xs2 : Vec F S512x128 .f32) (y : S512x1.Idx) :
    ∃ pc ∈ (kernelRun1_C c i arg2 harg2 arg3 harg3 arg4 harg4 arg5 harg5 arg6 harg6 arg7 harg7 arg8 harg8 arg9 harg9 arg10 harg10 hcA hcC x0 x1 x2 x3 x4 xs0 xs1 xs2).2.2.1, y ∈ pc.1.set :=
  View.cover_of_tiledL (kernelRun1_C c i arg2 harg2 arg3 harg3 arg4 harg4 arg5 harg5 arg6 harg6 arg7 harg7 arg8 harg8 arg9 harg9 arg10 harg10 hcA hcC x0 x1 x2 x3 x4 xs0 xs1 xs2).2.2.1 S512x1.size (by sl_kernel_rfl) y

/-- The pieces this case leaves in the weighted sum's buffer cover it. -/
theorem coverC_A (c : Dev nD) (i : grid1.Coords) (arg2 : Memref sig .tc .vmem S512x2048 .i32) (harg2 : arg2.IsWhole) (arg3 : Memref sig .tc .vmem S8192x128 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x128 .f32) (harg10 : arg10.IsWhole) (hcA : ¬condA i) (hcC : condC i)
    (x0 : Vec F S512x2048 .i32) (x1 : Vec F S8192x128 .bf16) (x2 : Vec F S512x1 .f32) (x3 : Vec F S1x2048 .f32) (x4 : Vec F S1x128 .f32) (xs0 xs1 : Vec F S512x1 .f32) (xs2 : Vec F S512x128 .f32) (y : S512x128.Idx) :
    ∃ pc ∈ (kernelRun1_C c i arg2 harg2 arg3 harg3 arg4 harg4 arg5 harg5 arg6 harg6 arg7 harg7 arg8 harg8 arg9 harg9 arg10 harg10 hcA hcC x0 x1 x2 x3 x4 xs0 xs1 xs2).2.2.2.1, y ∈ pc.1.set :=
  View.cover_of_tiledL (kernelRun1_C c i arg2 harg2 arg3 harg3 arg4 harg4 arg5 harg5 arg6 harg6 arg7 harg7 arg8 harg8 arg9 harg9 arg10 harg10 hcA hcC x0 x1 x2 x3 x4 xs0 xs1 xs2).2.2.2.1 S512x128.size (by sl_kernel_rfl) y

private theorem hz : (![0, 0] : Fin 2 → Nat) = fun _ => 0 := funext fun a => by fin_cases a <;> rfl

/-- What this case leaves in the output's buffer: the epilogue's payload of the NEW weighted sum and the NEW
    denominator (each read back from what this same run stored) and the bias. -/
theorem runC_O (c : Dev nD) (i : grid1.Coords) (arg2 : Memref sig .tc .vmem S512x2048 .i32) (harg2 : arg2.IsWhole) (arg3 : Memref sig .tc .vmem S8192x128 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x128 .f32) (harg10 : arg10.IsWhole) (hcA : ¬condA i) (hcC : condC i)
    (x0 : Vec F S512x2048 .i32) (x1 : Vec F S8192x128 .bf16) (x2 : Vec F S512x1 .f32) (x3 : Vec F S1x2048 .f32) (x4 : Vec F S1x128 .f32) (xs0 xs1 : Vec F S512x1 .f32) (xs2 : Vec F S512x128 .f32) :
    VO.read (Elt F) (VO.writes (Elt F) VO.junk (kernelRun1_C c i arg2 harg2 arg3 harg3 arg4 harg4 arg5 harg5 arg6 harg6 arg7 harg7 arg8 harg8 arg9 harg9 arg10 harg10 hcA hcC x0 x1 x2 x3 x4 xs0 xs1 xs2).1)
      = k1_pay3 (k1_pay1 (k1_pay9 x2 x3 x0 xs0) (k1_pay10 x2 x3 x0 xs0) (hSlab i x1) xs2) (k1_pay11 x2 x3 x0 xs0 xs1) x4 := by
  rw [View.read_writes_eq_canon _ _ _ (coverC_O c i arg2 harg2 arg3 harg3 arg4 harg4 arg5 harg5 arg6 harg6 arg7 harg7 arg8 harg8 arg9 harg9 arg10 harg10 hcA hcC x0 x1 x2 x3 x4 xs0 xs1 xs2)]
  unfold kernelRun1_C
  dsimp only
  sl_unfold_run_names
  rw [View.canon_unit_zero hz]
  simp only [View.readAt_eq_ld, View.readCov_unit_zero (S := S512x1) _ hz, View.readCov_unit_zero (S := S512x128) _ hz,
    harg2.read_unread, harg3.read_unread, harg4.read_unread, harg5.read_unread, harg6.read_unread,
    harg8.read_unread, harg9.read_unread, harg10.read_unread,
    View.ld_unit_zero (S := S512x1) hz, View.ld_unit_zero (S := S1x2048) hz, View.ld_unit_zero (S := S512x2048) hz, View.ld_unit_zero (S := S512x128) hz, View.ld_unit_zero (S := S1x128) hz]

/-- What this case leaves in the running maximum's buffer: the maximum of the maximum the point before left and
    the row maxima of this tile's masked scores. -/
theorem runC_M (c : Dev nD) (i : grid1.Coords) (arg2 : Memref sig .tc .vmem S512x2048 .i32) (harg2 : arg2.IsWhole) (arg3 : Memref sig .tc .vmem S8192x128 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x128 .f32) (harg10 : arg10.IsWhole) (hcA : ¬condA i) (hcC : condC i)
    (x0 : Vec F S512x2048 .i32) (x1 : Vec F S8192x128 .bf16) (x2 : Vec F S512x1 .f32) (x3 : Vec F S1x2048 .f32) (x4 : Vec F S1x128 .f32) (xs0 xs1 : Vec F S512x1 .f32) (xs2 : Vec F S512x128 .f32) :
    VM.read (Elt F) (VM.writes (Elt F) VM.junk (kernelRun1_C c i arg2 harg2 arg3 harg3 arg4 harg4 arg5 harg5 arg6 harg6 arg7 harg7 arg8 harg8 arg9 harg9 arg10 harg10 hcA hcC x0 x1 x2 x3 x4 xs0 xs1 xs2).2.1) = k1_pay2 (k1_pay8 x2 x3 x0 xs0) := by
  rw [View.read_writes_eq_canon _ _ _ (coverC_M c i arg2 harg2 arg3 harg3 arg4 harg4 arg5 harg5 arg6 harg6 arg7 harg7 arg8 harg8 arg9 harg9 arg10 harg10 hcA hcC x0 x1 x2 x3 x4 xs0 xs1 xs2)]
  unfold kernelRun1_C
  dsimp only
  sl_unfold_run_names
  rw [View.canon_unit_zero hz]
  simp only [View.readAt_eq_ld, harg2.read_unread, harg4.read_unread, harg5.read_unread, harg8.read_unread,
    View.ld_unit_zero (S := S512x1) hz, View.ld_unit_zero (S := S1x2048) hz, View.ld_unit_zero (S := S512x2048) hz]

/-- What this case leaves in the running denominator's buffer: the denominator the point before left, rescaled from
    the old maximum to the new one, plus the row sums of this tile's exponentials. -/
theorem runC_L (c : Dev nD) (i : grid1.Coords) (arg2 : Memref sig .tc .vmem S512x2048 .i32) (harg2 : arg2.IsWhole) (arg3 : Memref sig .tc .vmem S8192x128 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x128 .f32) (harg10 : arg10.IsWhole) (hcA : ¬condA i) (hcC : condC i)
    (x0 : Vec F S512x2048 .i32) (x1 : Vec F S8192x128 .bf16) (x2 : Vec F S512x1 .f32) (x3 : Vec F S1x2048 .f32) (x4 : Vec F S1x128 .f32) (xs0 xs1 : Vec F S512x1 .f32) (xs2 : Vec F S512x128 .f32) :
    VL.read (Elt F) (VL.writes (Elt F) VL.junk (kernelRun1_C c i arg2 harg2 arg3 harg3 arg4 harg4 arg5 harg5 arg6 harg6 arg7 harg7 arg8 harg8 arg9 harg9 arg10 harg10 hcA hcC x0 x1 x2 x3 x4 xs0 xs1 xs2).2.2.1) = k1_pay11 x2 x3 x0 xs0 xs1 := by
  rw [View.read_writes_eq_canon _ _ _ (coverC_L c i arg2 harg2 arg3 harg3 arg4 harg4 arg5 harg5 arg6 harg6 arg7 harg7 arg8 harg8 arg9 harg9 arg10 harg10 hcA hcC x0 x1 x2 x3 x4 xs0 xs1 xs2)]
  unfold kernelRun1_C
  dsimp only
  sl_unfold_run_names
  rw [View.canon_unit_zero hz]
  simp only [View.readAt_eq_ld, harg2.read_unread, harg4.read_unread, harg5.read_unread, harg8.read_unread,
    harg9.read_unread,
    View.ld_unit_zero (S := S512x1) hz, View.ld_unit_zero (S := S1x2048) hz, View.ld_unit_zero (S := S512x2048) hz]

/-- What this case leaves in the weighted sum's buffer: the weighted sum the point before left, rescaled from the old
    maximum to the new one, plus this tile's exponentials times its slab of h. -/
theorem runC_A (c : Dev nD) (i : grid1.Coords) (arg2 : Memref sig .tc .vmem S512x2048 .i32) (harg2 : arg2.IsWhole) (arg3 : Memref sig .tc .vmem S8192x128 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x128 .f32) (harg10 : arg10.IsWhole) (hcA : ¬condA i) (hcC : condC i)
    (x0 : Vec F S512x2048 .i32) (x1 : Vec F S8192x128 .bf16) (x2 : Vec F S512x1 .f32) (x3 : Vec F S1x2048 .f32) (x4 : Vec F S1x128 .f32) (xs0 xs1 : Vec F S512x1 .f32) (xs2 : Vec F S512x128 .f32) :
    VA.read (Elt F) (VA.writes (Elt F) VA.junk (kernelRun1_C c i arg2 harg2 arg3 harg3 arg4 harg4 arg5 harg5 arg6 harg6 arg7 harg7 arg8 harg8 arg9 harg9 arg10 harg10 hcA hcC x0 x1 x2 x3 x4 xs0 xs1 xs2).2.2.2.1)
      = k1_pay1 (k1_pay9 x2 x3 x0 xs0) (k1_pay10 x2 x3 x0 xs0) (hSlab i x1) xs2 := by
  rw [View.read_writes_eq_canon _ _ _ (coverC_A c i arg2 harg2 arg3 harg3 arg4 harg4 arg5 harg5 arg6 harg6 arg7 harg7 arg8 harg8 arg9 harg9 arg10 harg10 hcA hcC x0 x1 x2 x3 x4 xs0 xs1 xs2)]
  unfold kernelRun1_C
  dsimp only
  sl_unfold_run_names
  rw [View.canon_unit_zero hz]
  simp only [View.readAt_eq_ld, harg2.read_unread, harg3.read_unread, harg4.read_unread, harg5.read_unread,
    harg8.read_unread, harg10.read_unread,
    View.ld_unit_zero (S := S512x1) hz, View.ld_unit_zero (S := S1x2048) hz, View.ld_unit_zero (S := S512x2048) hz, View.ld_unit_zero (S := S512x128) hz]

end Cert.KernelIdeal.Flash

end
-- ==== Proof.KiRegion1.lean ====
/- The attention kernel (call 1) at any float instance. Grid point t = 4 * (row tile) + (column tile). The body keeps,
   in three scratch buffers, a running reference point m (512 x 1), a running denominator l (512 x 1) and a running
   weighted sum acc (512 x 128) of the current row tile: the first column tile resets them to (-inf, 0, 0); every point
   replaces (m, l, acc) by one step computed from the point's adjacency tile, the two score vectors' blocks and a
   2048-row slab of h; the last column tile also stores acc / l, passed through the leaky rectifier and normalised,
   plus bias, into the output block. Stated here: the state after each point by recursion on the point, the launch's
   proof data whose invariant holds the three scratch buffers at that state, and the body obligation by the three
   control cases. -/
import proofs.«407537_j39470749450706_3_alg».proof.Proof.KiRunA
import proofs.«407537_j39470749450706_3_alg».proof.Proof.KiRunB
import proofs.«407537_j39470749450706_3_alg».proof.Proof.KiRunC

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The point's input blocks at their literal types -/

abbrev adjB (c : Dev nD) (t : Fin cfg1.N) : Vec F S512x2048 .i32 := iblk1 V c 0 t
abbrev hB (c : Dev nD) (t : Fin cfg1.N) : Vec F S8192x128 .bf16 := iblk1 V c 1 t
abbrev w1B (c : Dev nD) (t : Fin cfg1.N) : Vec F S512x1 .f32 := iblk1 V c 2 t
abbrev w2B (c : Dev nD) (t : Fin cfg1.N) : Vec F S1x2048 .f32 := iblk1 V c 3 t
abbrev biasB (c : Dev nD) (t : Fin cfg1.N) : Vec F S1x128 .f32 := iblk1 V c 4 t

/-! ## One step of the running state -/

/-- The running state: reference point, denominator, weighted sum. -/
abbrev St (F : FTy → Type) : Type := Vec F S512x1 .f32 × Vec F S512x1 .f32 × Vec F S512x128 .f32

/-- The state a row tile starts from: (-inf, 0, 0). -/
def resetS : St F := (k1_pay4, k1_pay5, k1_pay6)

/-- One column tile: the new reference point is the larger of the old one and the tile's row maxima; the old
    denominator and weighted sum are rescaled by exp (old - new) and the tile's terms exp (score - new) are added. -/
def stepS (i : grid1.Coords) (x0 : Vec F S512x2048 .i32) (x1 : Vec F S8192x128 .bf16) (x2 : Vec F S512x1 .f32) (x3 : Vec F S1x2048 .f32) (s : St F) : St F :=
  (k1_pay2 (k1_pay8 x2 x3 x0 s.1), k1_pay11 x2 x3 x0 s.1 s.2.1,
    k1_pay1 (k1_pay9 x2 x3 x0 s.1) (k1_pay10 x2 x3 x0 s.1) (hSlab i x1) s.2.2)

/-- The state after point `n`: a step from the reset state at a first column tile, from the state after the point
    before otherwise. -/
def scAt1 (c : Dev nD) : (n : ℕ) → n < cfg1.N → St F
  | 0, hn => stepS (grid1.coords ⟨0, hn⟩) (adjB V c ⟨0, hn⟩) (hB V c ⟨0, hn⟩) (w1B V c ⟨0, hn⟩) (w2B V c ⟨0, hn⟩) resetS
  | n + 1, hn => stepS (grid1.coords ⟨n + 1, hn⟩) (adjB V c ⟨n + 1, hn⟩) (hB V c ⟨n + 1, hn⟩) (w1B V c ⟨n + 1, hn⟩) (w2B V c ⟨n + 1, hn⟩)
      (if (n + 1) % 4 = 0 then resetS else scAt1 c n (Nat.lt_of_succ_lt hn))

theorem scAt1_first (c : Dev nD) (t : Fin cfg1.N) (h0 : t.val % 4 = 0) :
    scAt1 V c t.val t.isLt = stepS (grid1.coords t) (adjB V c t) (hB V c t) (w1B V c t) (w2B V c t) resetS := by
  obtain ⟨n, hn⟩ := t
  cases n with
  | zero => rfl
  | succ n => exact congrArg _ (if_pos h0)

theorem scAt1_later (c : Dev nD) (t : Fin cfg1.N) (h0 : ¬t.val % 4 = 0) :
    scAt1 V c t.val t.isLt = stepS (grid1.coords t) (adjB V c t) (hB V c t) (w1B V c t) (w2B V c t)
      (scAt1 V c (t.val - 1) (Nat.lt_of_le_of_lt (Nat.sub_le _ _) t.isLt)) := by
  obtain ⟨n, hn⟩ := t
  cases n with
  | zero => exact absurd (Nat.zero_mod _) h0
  | succ n => exact congrArg _ (if_neg h0)

/-- The output block a last column tile stores: weighted sum over denominator, rectified, normalised, plus bias. -/
def outAt1 (c : Dev nD) (t : Fin cfg1.N) : Vec F S512x128 .f32 :=
  k1_pay3 (scAt1 V c t.val t.isLt).2.2 (scAt1 V c t.val t.isLt).2.1 (biasB V c t)

/-! ## The invariant: the three scratch buffers at the running state -/

/-- Before the first point the launch's invariant (every scratch at anything); before point `n + 1` the three scratch
    buffers at the state after point `n`, the other scoped buffers at anything, the generator register at some state. -/
def PhiS (c : Dev nD) : (n : ℕ) → n ≤ cfg1.N → sProp 𝕄
  | 0, _ => Pipeline.ΦA spec1 c
  | n + 1, hn => iprop(iprop(anyBuf (F := F) c cc0_stg0_0 ∗ anyBuf (F := F) c cc0_stg0_1 ∗ anyBuf (F := F) c cc0_stg1_0 ∗ anyBuf (F := F) c cc0_stg2_0 ∗ anyBuf (F := F) c cc0_stg2_1 ∗ anyBuf (F := F) c cc0_stg3_0 ∗ anyBuf (F := F) c cc0_stg3_1
      ∗ owns (c : Thread nD τ) scM fullShare (scAt1 V c n hn).1 ∗ owns (c : Thread nD τ) scL fullShare (scAt1 V c n hn).2.1 ∗ owns (c : Thread nD τ) scA fullShare (scAt1 V c n hn).2.2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(anyBuf (F := F) c cc0_stg0_0 ∗ anyBuf (F := F) c cc0_stg0_1 ∗ anyBuf (F := F) c cc0_stg1_0 ∗ anyBuf (F := F) c cc0_stg2_0 ∗ anyBuf (F := F) c cc0_stg2_1 ∗ anyBuf (F := F) c cc0_stg3_0 ∗ anyBuf (F := F) c cc0_stg3_1
      ∗ owns (c : Thread nD τ) scM fullShare (scAt1 V c n hn).1 ∗ owns (c : Thread nD τ) scL fullShare (scAt1 V c n hn).2.1 ∗ owns (c : Thread nD τ) scA fullShare (scAt1 V c n hn).2.2) ∗ (∃ r, prngReg c r)) := rfl

theorem PhiS_pos (c : Dev nD) (n : ℕ) (h : n ≤ cfg1.N) (hz : n ≠ 0) :
    PhiS V c n h = iprop(iprop(anyBuf (F := F) c cc0_stg0_0 ∗ anyBuf (F := F) c cc0_stg0_1 ∗ anyBuf (F := F) c cc0_stg1_0 ∗ anyBuf (F := F) c cc0_stg2_0 ∗ anyBuf (F := F) c cc0_stg2_1 ∗ anyBuf (F := F) c cc0_stg3_0 ∗ anyBuf (F := F) c cc0_stg3_1
      ∗ owns (c : Thread nD τ) scM fullShare (scAt1 V c (n - 1) (by omega)).1 ∗ owns (c : Thread nD τ) scL fullShare (scAt1 V c (n - 1) (by omega)).2.1 ∗ owns (c : Thread nD τ) scA fullShare (scAt1 V c (n - 1) (by omega)).2.2) ∗ (∃ r, prngReg c r)) := by
  cases n with
  | zero => exact absurd rfl hz
  | succ n => rfl

/-! ## The launch's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outAt1 V c t
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

set_option maxHeartbeats 4800000 in
/-- The body at any point. The inputs' memrefs hold their blocks; the closed forms of the two branch conditions say
    which case the point is in; the invariant hands the body the three scratch buffers at the state the point before
    left (at anything at the launch's first point, where the reset branch overwrites them) and takes them back at
    this point's state; away from the last column tile the output buffer is handed back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  have hN : t.val < 64 := lt_of_lt_of_eq t.isLt (show cfg1.N = 64 from N_1)
  by_cases h0 : t.val % 4 = 0
  · have hA : condA (grid1.coords t) := (hcondA t).mpr h0
    have hC : ¬condC (grid1.coords t) := fun h => by have := (hcondC t).mp h; omega
    rw [Dat.leavesExact_idle (dat1 V c) 5 t (idleAt1_5 t hC) (noFlush1_5 t hC)]
    rw [scAt1_first V c t h0]
    unfold stepS resetS; dsimp only
    by_cases hz : t.val = 0
    · rw [PhiS_castSucc V c t, PhiS_zero V c _ _ hz, PhiA1_eq]
      iintro ⟨⟨⟨Hb1, Hb2, Hb3, Hb4, Hb5, Hb6, Hb7, HM, HL, HA⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) scL (Memref.isWhole_whole _) scA (Memref.isWhole_whole _) hA hC (adjB V c t) (hB V c t) (w1B V c t) (w2B V c t) (biasB V c t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [HM]; · iexact HM
      isplitl [HL]; · iexact HL
      isplitl [HA]; · iexact HA
      iintro ⟨H0, H1, H2, H3, H4, H5, ⟨%fm, HM⟩, ⟨%fl, HL⟩, ⟨%fa, HA⟩⟩
      isplitl [Hb1 Hb2 Hb3 Hb4 Hb5 Hb6 Hb7 HM HL HA Hg]
      · isplitl [Hb1 Hb2 Hb3 Hb4 Hb5 Hb6 Hb7 HM HL HA]
        · isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          isplitl [Hb7]; · iexact Hb7
          isplitl [HM]
          · unfold owns; iexists _; isplitr
            swap; · iexact HM
            ipureintro
            exact (View.read_writes_of_cover _ _ _ _ _ (coverA_M c (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) scL (Memref.isWhole_whole _) scA (Memref.isWhole_whole _) hA hC (adjB V c t) (hB V c t) (w1B V c t) (w2B V c t) (biasB V c t) _)).trans (runA_M c (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) scL (Memref.isWhole_whole _) scA (Memref.isWhole_whole _) hA hC (adjB V c t) (hB V c t) (w1B V c t) (w2B V c t) (biasB V c t) _)
          isplitl [HL]
          · unfold owns; iexists _; isplitr
            swap; · iexact HL
            ipureintro
            exact (View.read_writes_of_cover _ _ _ _ _ (coverA_L c (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) scL (Memref.isWhole_whole _) scA (Memref.isWhole_whole _) hA hC (adjB V c t) (hB V c t) (w1B V c t) (w2B V c t) (biasB V c t) _)).trans (runA_L c (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) scL (Memref.isWhole_whole _) scA (Memref.isWhole_whole _) hA hC (adjB V c t) (hB V c t) (w1B V c t) (w2B V c t) (biasB V c t) _)
          unfold owns; iexists _; isplitr
          swap; · iexact HA
          ipureintro
          exact (View.read_writes_of_cover _ _ _ _ _ (coverA_A c (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) scL (Memref.isWhole_whole _) scA (Memref.isWhole_whole _) hA hC (adjB V c t) (hB V c t) (w1B V c t) (w2B V c t) (biasB V c t) _)).trans (runA_A c (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) scL (Memref.isWhole_whole _) scA (Memref.isWhole_whole _) hA hC (adjB V c t) (hB V c t) (w1B V c t) (w2B V c t) (biasB V c t) _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      iintro ⟨⟨⟨Hb1, Hb2, Hb3, Hb4, Hb5, Hb6, Hb7, HM, HL, HA⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) scL (Memref.isWhole_whole _) scA (Memref.isWhole_whole _) hA hC (adjB V c t) (hB V c t) (w1B V c t) (w2B V c t) (biasB V c t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [HM]; · iexists _; iexact HM
      isplitl [HL]; · iexists _; iexact HL
      isplitl [HA]; · iexists _; iexact HA
      iintro ⟨H0, H1, H2, H3, H4, H5, ⟨%fm, HM⟩, ⟨%fl, HL⟩, ⟨%fa, HA⟩⟩
      isplitl [Hb1 Hb2 Hb3 Hb4 Hb5 Hb6 Hb7 HM HL HA Hg]
      · isplitl [Hb1 Hb2 Hb3 Hb4 Hb5 Hb6 Hb7 HM HL HA]
        · isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          isplitl [Hb7]; · iexact Hb7
          isplitl [HM]
          · unfold owns; iexists _; isplitr
            swap; · iexact HM
            ipureintro
            exact (View.read_writes_of_cover _ _ _ _ _ (coverA_M c (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) scL (Memref.isWhole_whole _) scA (Memref.isWhole_whole _) hA hC (adjB V c t) (hB V c t) (w1B V c t) (w2B V c t) (biasB V c t) _)).trans (runA_M c (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) scL (Memref.isWhole_whole _) scA (Memref.isWhole_whole _) hA hC (adjB V c t) (hB V c t) (w1B V c t) (w2B V c t) (biasB V c t) _)
          isplitl [HL]
          · unfold owns; iexists _; isplitr
            swap; · iexact HL
            ipureintro
            exact (View.read_writes_of_cover _ _ _ _ _ (coverA_L c (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) scL (Memref.isWhole_whole _) scA (Memref.isWhole_whole _) hA hC (adjB V c t) (hB V c t) (w1B V c t) (w2B V c t) (biasB V c t) _)).trans (runA_L c (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) scL (Memref.isWhole_whole _) scA (Memref.isWhole_whole _) hA hC (adjB V c t) (hB V c t) (w1B V c t) (w2B V c t) (biasB V c t) _)
          unfold owns; iexists _; isplitr
          swap; · iexact HA
          ipureintro
          exact (View.read_writes_of_cover _ _ _ _ _ (coverA_A c (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) scL (Memref.isWhole_whole _) scA (Memref.isWhole_whole _) hA hC (adjB V c t) (hB V c t) (w1B V c t) (w2B V c t) (biasB V c t) _)).trans (runA_A c (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) scL (Memref.isWhole_whole _) scA (Memref.isWhole_whole _) hA hC (adjB V c t) (hB V c t) (w1B V c t) (w2B V c t) (biasB V c t) _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hA : ¬condA (grid1.coords t) := fun h => h0 ((hcondA t).mp h)
    have hz : t.val ≠ 0 := fun h => h0 (by rw [h])
    by_cases h3 : t.val % 4 = 3
    · have hC : condC (grid1.coords t) := (hcondC t).mpr h3
      rw [show (dat1 V c).leavesExact 5 t = owns (c : Thread nD τ) (ms1_5 t) fullShare ((dat1 V c).after 5 t) from by
        unfold Dat.leavesExact; rw [liveAt1_5 t hC], after1_5]
      unfold outAt1
      rw [scAt1_later V c t h0]
      unfold stepS; dsimp only
      rw [PhiS_castSucc V c t, PhiS_pos V c _ _ hz]
      iintro ⟨⟨⟨Hb1, Hb2, Hb3, Hb4, Hb5, Hb6, Hb7, HM, HL, HA⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) scL (Memref.isWhole_whole _) scA (Memref.isWhole_whole _) hA hC (adjB V c t) (hB V c t) (w1B V c t) (w2B V c t) (biasB V c t) (scAt1 V c (t.val - 1) (Nat.lt_of_le_of_lt (Nat.sub_le _ _) t.isLt)).1 (scAt1 V c (t.val - 1) (Nat.lt_of_le_of_lt (Nat.sub_le _ _) t.isLt)).2.1 (scAt1 V c (t.val - 1) (Nat.lt_of_le_of_lt (Nat.sub_le _ _) t.isLt)).2.2).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HM]; · iexact HM
      isplitl [HL]; · iexact HL
      isplitl [HA]; · iexact HA
      iintro ⟨H0, H1, H2, H3, H4, ⟨%fo, H5⟩, ⟨%fm, HM⟩, ⟨%fl, HL⟩, ⟨%fa, HA⟩⟩
      isplitl [Hb1 Hb2 Hb3 Hb4 Hb5 Hb6 Hb7 HM HL HA Hg]
      · isplitl [Hb1 Hb2 Hb3 Hb4 Hb5 Hb6 Hb7 HM HL HA]
        · isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          isplitl [Hb7]; · iexact Hb7
          isplitl [HM]
          · unfold owns; iexists _; isplitr
            swap; · iexact HM
            ipureintro
            exact (View.read_writes_of_cover _ _ _ _ _ (coverC_M c (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) scL (Memref.isWhole_whole _) scA (Memref.isWhole_whole _) hA hC (adjB V c t) (hB V c t) (w1B V c t) (w2B V c t) (biasB V c t) (scAt1 V c (t.val - 1) (Nat.lt_of_le_of_lt (Nat.sub_le _ _) t.isLt)).1 (scAt1 V c (t.val - 1) (Nat.lt_of_le_of_lt (Nat.sub_le _ _) t.isLt)).2.1 (scAt1 V c (t.val - 1) (Nat.lt_of_le_of_lt (Nat.sub_le _ _) t.isLt)).2.2)).trans (runC_M c (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) scL (Memref.isWhole_whole _) scA (Memref.isWhole_whole _) hA hC (adjB V c t) (hB V c t) (w1B V c t) (w2B V c t) (biasB V c t) (scAt1 V c (t.val - 1) (Nat.lt_of_le_of_lt (Nat.sub_le _ _) t.isLt)).1 (scAt1 V c (t.val - 1) (Nat.lt_of_le_of_lt (Nat.sub_le _ _) t.isLt)).2.1 (scAt1 V c (t.val - 1) (Nat.lt_of_le_of_lt (Nat.sub_le _ _) t.isLt)).2.2)
          isplitl [HL]
          · unfold owns; iexists _; isplitr
            swap; · iexact HL
            ipureintro
            exact (View.read_writes_of_cover _ _ _ _ _ (coverC_L c (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) scL (Memref.isWhole_whole _) scA (Memref.isWhole_whole _) hA hC (adjB V c t) (hB V c t) (w1B V c t) (w2B V c t) (biasB V c t) (scAt1 V c (t.val - 1) (Nat.lt_of_le_of_lt (Nat.sub_le _ _) t.isLt)).1 (scAt1 V c (t.val - 1) (Nat.lt_of_le_of_lt (Nat.sub_le _ _) t.isLt)).2.1 (scAt1 V c (t.val - 1) (Nat.lt_of_le_of_lt (Nat.sub_le _ _) t.isLt)).2.2)).trans (runC_L c (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) scL (Memref.isWhole_whole _) scA (Memref.isWhole_whole _) hA hC (adjB V c t) (hB V c t) (w1B V c t) (w2B V c t) (biasB V c t) (scAt1 V c (t.val - 1) (Nat.lt_of_le_of_lt (Nat.sub_le _ _) t.isLt)).1 (scAt1 V c (t.val - 1) (Nat.lt_of_le_of_lt (Nat.sub_le _ _) t.isLt)).2.1 (scAt1 V c (t.val - 1) (Nat.lt_of_le_of_lt (Nat.sub_le _ _) t.isLt)).2.2)
          unfold owns; iexists _; isplitr
          swap; · iexact HA
          ipureintro
          exact (View.read_writes_of_cover _ _ _ _ _ (coverC_A c (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) scL (Memref.isWhole_whole _) scA (Memref.isWhole_whole _) hA hC (adjB V c t) (hB V c t) (w1B V c t) (w2B V c t) (biasB V c t) (scAt1 V c (t.val - 1) (Nat.lt_of_le_of_lt (Nat.sub_le _ _) t.isLt)).1 (scAt1 V c (t.val - 1) (Nat.lt_of_le_of_lt (Nat.sub_le _ _) t.isLt)).2.1 (scAt1 V c (t.val - 1) (Nat.lt_of_le_of_lt (Nat.sub_le _ _) t.isLt)).2.2)).trans (runC_A c (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) scL (Memref.isWhole_whole _) scA (Memref.isWhole_whole _) hA hC (adjB V c t) (hB V c t) (w1B V c t) (w2B V c t) (biasB V c t) (scAt1 V c (t.val - 1) (Nat.lt_of_le_of_lt (Nat.sub_le _ _) t.isLt)).1 (scAt1 V c (t.val - 1) (Nat.lt_of_le_of_lt (Nat.sub_le _ _) t.isLt)).2.1 (scAt1 V c (t.val - 1) (Nat.lt_of_le_of_lt (Nat.sub_le _ _) t.isLt)).2.2)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro
      exact (View.read_writes_of_cover _ _ _ _ _ (coverC_O c (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) scL (Memref.isWhole_whole _) scA (Memref.isWhole_whole _) hA hC (adjB V c t) (hB V c t) (w1B V c t) (w2B V c t) (biasB V c t) (scAt1 V c (t.val - 1) (Nat.lt_of_le_of_lt (Nat.sub_le _ _) t.isLt)).1 (scAt1 V c (t.val - 1) (Nat.lt_of_le_of_lt (Nat.sub_le _ _) t.isLt)).2.1 (scAt1 V c (t.val - 1) (Nat.lt_of_le_of_lt (Nat.sub_le _ _) t.isLt)).2.2)).trans (runC_O c (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) scL (Memref.isWhole_whole _) scA (Memref.isWhole_whole _) hA hC (adjB V c t) (hB V c t) (w1B V c t) (w2B V c t) (biasB V c t) (scAt1 V c (t.val - 1) (Nat.lt_of_le_of_lt (Nat.sub_le _ _) t.isLt)).1 (scAt1 V c (t.val - 1) (Nat.lt_of_le_of_lt (Nat.sub_le _ _) t.isLt)).2.1 (scAt1 V c (t.val - 1) (Nat.lt_of_le_of_lt (Nat.sub_le _ _) t.isLt)).2.2)
    · have hC : ¬condC (grid1.coords t) := fun h => h3 ((hcondC t).mp h)
      rw [Dat.leavesExact_idle (dat1 V c) 5 t (idleAt1_5 t hC) (noFlush1_5 t hC)]
      rw [scAt1_later V c t h0]
      unfold stepS; dsimp only
      rw [PhiS_castSucc V c t, PhiS_pos V c _ _ hz]
      iintro ⟨⟨⟨Hb1, Hb2, Hb3, Hb4, Hb5, Hb6, Hb7, HM, HL, HA⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) scL (Memref.isWhole_whole _) scA (Memref.isWhole_whole _) hA hC (adjB V c t) (hB V c t) (w1B V c t) (w2B V c t) (biasB V c t) _ (scAt1 V c (t.val - 1) (Nat.lt_of_le_of_lt (Nat.sub_le _ _) t.isLt)).1 (scAt1 V c (t.val - 1) (Nat.lt_of_le_of_lt (Nat.sub_le _ _) t.isLt)).2.1 (scAt1 V c (t.val - 1) (Nat.lt_of_le_of_lt (Nat.sub_le _ _) t.isLt)).2.2).2.2.2 Set.univ _)
      isplitl [H0]; · iexact H0
      isplitl [H1]; · iexact H1
      isplitl [H2]; · iexact H2
      isplitl [H3]; · iexact H3
      isplitl [H4]; · iexact H4
      isplitl [H5]; · iexact H5
      isplitl [HM]; · iexact HM
      isplitl [HL]; · iexact HL
      isplitl [HA]; · iexact HA
      iintro ⟨H0, H1, H2, H3, H4, H5, ⟨%fm, HM⟩, ⟨%fl, HL⟩, ⟨%fa, HA⟩⟩
      isplitl [Hb1 Hb2 Hb3 Hb4 Hb5 Hb6 Hb7 HM HL HA Hg]
      · isplitl [Hb1 Hb2 Hb3 Hb4 Hb5 Hb6 Hb7 HM HL HA]
        · isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          isplitl [Hb7]; · iexact Hb7
          isplitl [HM]
          · unfold owns; iexists _; isplitr
            swap; · iexact HM
            ipureintro
            exact (View.read_writes_of_cover _ _ _ _ _ (coverB_M c (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) scL (Memref.isWhole_whole _) scA (Memref.isWhole_whole _) hA hC (adjB V c t) (hB V c t) (w1B V c t) (w2B V c t) (biasB V c t) _ (scAt1 V c (t.val - 1) (Nat.lt_of_le_of_lt (Nat.sub_le _ _) t.isLt)).1 (scAt1 V c (t.val - 1) (Nat.lt_of_le_of_lt (Nat.sub_le _ _) t.isLt)).2.1 (scAt1 V c (t.val - 1) (Nat.lt_of_le_of_lt (Nat.sub_le _ _) t.isLt)).2.2)).trans (runB_M c (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) scL (Memref.isWhole_whole _) scA (Memref.isWhole_whole _) hA hC (adjB V c t) (hB V c t) (w1B V c t) (w2B V c t) (biasB V c t) _ (scAt1 V c (t.val - 1) (Nat.lt_of_le_of_lt (Nat.sub_le _ _) t.isLt)).1 (scAt1 V c (t.val - 1) (Nat.lt_of_le_of_lt (Nat.sub_le _ _) t.isLt)).2.1 (scAt1 V c (t.val - 1) (Nat.lt_of_le_of_lt (Nat.sub_le _ _) t.isLt)).2.2)
          isplitl [HL]
          · unfold owns; iexists _; isplitr
            swap; · iexact HL
            ipureintro
            exact (View.read_writes_of_cover _ _ _ _ _ (coverB_L c (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) scL (Memref.isWhole_whole _) scA (Memref.isWhole_whole _) hA hC (adjB V c t) (hB V c t) (w1B V c t) (w2B V c t) (biasB V c t) _ (scAt1 V c (t.val - 1) (Nat.lt_of_le_of_lt (Nat.sub_le _ _) t.isLt)).1 (scAt1 V c (t.val - 1) (Nat.lt_of_le_of_lt (Nat.sub_le _ _) t.isLt)).2.1 (scAt1 V c (t.val - 1) (Nat.lt_of_le_of_lt (Nat.sub_le _ _) t.isLt)).2.2)).trans (runB_L c (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) scL (Memref.isWhole_whole _) scA (Memref.isWhole_whole _) hA hC (adjB V c t) (hB V c t) (w1B V c t) (w2B V c t) (biasB V c t) _ (scAt1 V c (t.val - 1) (Nat.lt_of_le_of_lt (Nat.sub_le _ _) t.isLt)).1 (scAt1 V c (t.val - 1) (Nat.lt_of_le_of_lt (Nat.sub_le _ _) t.isLt)).2.1 (scAt1 V c (t.val - 1) (Nat.lt_of_le_of_lt (Nat.sub_le _ _) t.isLt)).2.2)
          unfold owns; iexists _; isplitr
          swap; · iexact HA
          ipureintro
          exact (View.read_writes_of_cover _ _ _ _ _ (coverB_A c (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) scL (Memref.isWhole_whole _) scA (Memref.isWhole_whole _) hA hC (adjB V c t) (hB V c t) (w1B V c t) (w2B V c t) (biasB V c t) _ (scAt1 V c (t.val - 1) (Nat.lt_of_le_of_lt (Nat.sub_le _ _) t.isLt)).1 (scAt1 V c (t.val - 1) (Nat.lt_of_le_of_lt (Nat.sub_le _ _) t.isLt)).2.1 (scAt1 V c (t.val - 1) (Nat.lt_of_le_of_lt (Nat.sub_le _ _) t.isLt)).2.2)).trans (runB_A c (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) scL (Memref.isWhole_whole _) scA (Memref.isWhole_whole _) hA hC (adjB V c t) (hB V c t) (w1B V c t) (w2B V c t) (biasB V c t) _ (scAt1 V c (t.val - 1) (Nat.lt_of_le_of_lt (Nat.sub_le _ _) t.isLt)).1 (scAt1 V c (t.val - 1) (Nat.lt_of_le_of_lt (Nat.sub_le _ _) t.isLt)).2.1 (scAt1 V c (t.val - 1) (Nat.lt_of_le_of_lt (Nat.sub_le _ _) t.isLt)).2.2)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation1 (c : Dev nD) : BodyObligation (dat1 (F := F) V c) (defs₀ (F := F)) Variants.none () Set.univ := fun t => by
  rw [bigSep_W1, bigSep_W1]
  exact sound_body1 V c t

/-- What the launch hands the kernel is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point the invariant gives the launch's back: the scratch contents' names are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨Hb1, Hb2, Hb3, Hb4, Hb5, Hb6, Hb7, HM, HL, HA⟩, Hg⟩
  isplitl [Hb1 Hb2 Hb3 Hb4 Hb5 Hb6 Hb7 HM HL HA]
  · isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    isplitl [Hb7]; · iexact Hb7
    isplitl [HM]; · iexists _; iexact HM
    isplitl [HL]; · iexists _; iexact HL
    iexists _; iexact HA
  iexact Hg

theorem hout1 (c : Dev nD) : (dat1 V c).Φ (Fin.last cfg1.N) ⊢ Pipeline.ΦA spec1 c :=
  Phi_out1 V c _ (by rw [Fin.val_last]; have : cfg1.N = 64 := N_1; omega)

end Regions

end Cert.KernelIdeal.Flash

end
-- ==== Proof.KiRun.lean ====
/- The run of @main at any float instance: the projection kernel, six host operations (the two halves of the
   attention vector sliced out, the two score vectors as products with h, a reshape of the second into a row, the bias
   as a row), the attention kernel. Stated here: the contents of every unscoped buffer at each of the three
   boundaries as a fold from the launch memory, each kernel launch as a segment between two such boundaries, and the
   run: every weakly fair execution terminates with every unscoped buffer at the last boundary's contents. From it: the
   five arguments end as launched, and the result buffer ends at what the attention kernel's write-backs leave. -/
import proofs.«407537_j39470749450706_3_alg».proof.Proof.KiRegion0
import proofs.«407537_j39470749450706_3_alg».proof.Proof.KiRegion1

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev U0 : Dev nD → Valuation τ sig (Elt F) := fun c b => (s₀ m ρ).mem ((c : Dev nD), b)
abbrev E0 : (c : Dev nD) → (b : Ref sig .tc) → Buf (Elt F) ((c : Thread nD τ).loc b) := fun c b => U0 m ρ c b
/-- After the projection kernel: its arrays at what its write-backs leave, every other buffer as before. -/
def U1 (c : Dev nD) : Valuation τ sig (Elt F) :=
  Pipeline.withArrays spec0 c (U0 m ρ c) fun w => (dat0 (E0 m ρ) c).arrAt w cfg0.N
theorem U1_arr (c : Dev nD) (w : Fin cfg0.W) :
    U1 m ρ c (Proc.devRef .tc (Pipeline.arrRef spec0 w)) = (dat0 (E0 m ρ) c).arrAt w cfg0.N := by
  unfold U1; exact Pipeline.withArrays_arr spec0 launch0.win.arr_inj c _ _ w
theorem U1_of_ne (c : Dev nD) (b : Ref sig .tc) (hb : ∀ w, Pipeline.arrRef spec0 w ≠ b) :
    U1 m ρ c (Proc.devRef .tc b) = U0 m ρ c (Proc.devRef .tc b) := by
  unfold U1; exact Pipeline.withArrays_of_ne spec0 c _ _ b hb
abbrev E1 : (c : Dev nD) → (b : Ref sig .tc) → Buf (Elt F) ((c : Thread nD τ).loc b) := fun c b => U1 m ρ c b
theorem hF0 (c : Dev nD) (w : Fin cfg0.W) : (dat0 (E0 m ρ) c).arrAt w cfg0.N = E1 m ρ c (Pipeline.arrRef spec0 w) :=
  (U1_arr m ρ c w).symm
theorem hrest0 (c : Dev nD) : ∀ b, b ∉ Finset.univ.image (Pipeline.arrRef spec0) → E1 m ρ c b = E0 m ρ c b :=
  fun b hb => U1_of_ne m ρ c b fun w e => hb (Finset.mem_image.mpr ⟨w, Finset.mem_univ _, e⟩)

/-- After the six host operations. -/
abbrev U2 : Dev nD → Valuation τ sig (Elt F) := fun c => StableHlo.after hostOps1 (U1 m ρ c)
abbrev E2 : (c : Dev nD) → (b : Ref sig .tc) → Buf (Elt F) ((c : Thread nD τ).loc b) := fun c b => U2 m ρ c b
/-- After the attention kernel. -/
def U3 (c : Dev nD) : Valuation τ sig (Elt F) :=
  Pipeline.withArrays spec1 c (U2 m ρ c) fun w => (dat1 (E2 m ρ) c).arrAt w cfg1.N
theorem U3_arr (c : Dev nD) (w : Fin cfg1.W) :
    U3 m ρ c (Proc.devRef .tc (Pipeline.arrRef spec1 w)) = (dat1 (E2 m ρ) c).arrAt w cfg1.N := by
  unfold U3; exact Pipeline.withArrays_arr spec1 launch1.win.arr_inj c _ _ w
theorem U3_of_ne (c : Dev nD) (b : Ref sig .tc) (hb : ∀ w, Pipeline.arrRef spec1 w ≠ b) :
    U3 m ρ c (Proc.devRef .tc b) = U2 m ρ c (Proc.devRef .tc b) := by
  unfold U3; exact Pipeline.withArrays_of_ne spec1 c _ _ b hb
abbrev E3 : (c : Dev nD) → (b : Ref sig .tc) → Buf (Elt F) ((c : Thread nD τ).loc b) := fun c b => U3 m ρ c b
theorem hF1 (c : Dev nD) (w : Fin cfg1.W) : (dat1 (E2 m ρ) c).arrAt w cfg1.N = E3 m ρ c (Pipeline.arrRef spec1 w) :=
  (U3_arr m ρ c w).symm
theorem hrest1 (c : Dev nD) : ∀ b, b ∉ Finset.univ.image (Pipeline.arrRef spec1) → E3 m ρ c b = E2 m ρ c b :=
  fun b hb => U3_of_ne m ρ c b fun w e => hb (Finset.mem_image.mpr ⟨w, Finset.mem_univ _, e⟩)

/-! ### The arguments end as launched: no host operation writes one, a kernel reads one through an input window or
    bypasses it -/

theorem U3_main_arg0 (c : Dev nD) : U3 m ρ c (Proc.devRef .tc main_arg0) = m ((c : Thread nD τ).loc main_arg0) :=
  calc U3 m ρ c (Proc.devRef .tc main_arg0)
    _ = U2 m ρ c (Proc.devRef .tc main_arg0) := U3_of_ne m ρ c main_arg0 (by decide)
    _ = U1 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = U0 m ρ c (Proc.devRef .tc main_arg0) := (U1_arr m ρ c 0).trans (((dat0 (E0 m ρ) c).arrAt_in 0 rfl _).trans (A_eq0 (E0 m ρ) c 0))
    _ = m ((c : Thread nD τ).loc main_arg0) := rfl

theorem U3_main_arg1 (c : Dev nD) : U3 m ρ c (Proc.devRef .tc main_arg1) = m ((c : Thread nD τ).loc main_arg1) :=
  calc U3 m ρ c (Proc.devRef .tc main_arg1)
    _ = U2 m ρ c (Proc.devRef .tc main_arg1) := (U3_arr m ρ c 0).trans (((dat1 (E2 m ρ) c).arrAt_in 0 rfl _).trans (A_eq1 (E2 m ρ) c 0))
    _ = U1 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = U0 m ρ c (Proc.devRef .tc main_arg1) := U1_of_ne m ρ c main_arg1 (by decide)
    _ = m ((c : Thread nD τ).loc main_arg1) := rfl

theorem U3_main_arg2 (c : Dev nD) : U3 m ρ c (Proc.devRef .tc main_arg2) = m ((c : Thread nD τ).loc main_arg2) :=
  calc U3 m ρ c (Proc.devRef .tc main_arg2)
    _ = U2 m ρ c (Proc.devRef .tc main_arg2) := U3_of_ne m ρ c main_arg2 (by decide)
    _ = U1 m ρ c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = U0 m ρ c (Proc.devRef .tc main_arg2) := (U1_arr m ρ c 1).trans (((dat0 (E0 m ρ) c).arrAt_in 1 rfl _).trans (A_eq0 (E0 m ρ) c 1))
    _ = m ((c : Thread nD τ).loc main_arg2) := rfl

theorem U3_main_arg3 (c : Dev nD) : U3 m ρ c (Proc.devRef .tc main_arg3) = m ((c : Thread nD τ).loc main_arg3) :=
  calc U3 m ρ c (Proc.devRef .tc main_arg3)
    _ = U2 m ρ c (Proc.devRef .tc main_arg3) := U3_of_ne m ρ c main_arg3 (by decide)
    _ = U1 m ρ c (Proc.devRef .tc main_arg3) := StableHlo.after_of_forall_not_mem (b := Proc.devRef .tc main_arg3) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = U0 m ρ c (Proc.devRef .tc main_arg3) := U1_of_ne m ρ c main_arg3 (by decide)
    _ = m ((c : Thread nD τ).loc main_arg3) := rfl

theorem U3_main_arg4 (c : Dev nD) : U3 m ρ c (Proc.devRef .tc main_arg4) = m ((c : Thread nD τ).loc main_arg4) :=
  calc U3 m ρ c (Proc.devRef .tc main_arg4)
    _ = U2 m ρ c (Proc.devRef .tc main_arg4) := U3_of_ne m ρ c main_arg4 (by decide)
    _ = U1 m ρ c (Proc.devRef .tc main_arg4) := StableHlo.after_of_forall_not_mem (b := Proc.devRef .tc main_arg4) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = U0 m ρ c (Proc.devRef .tc main_arg4) := U1_of_ne m ρ c main_arg4 (by decide)
    _ = m ((c : Thread nD τ).loc main_arg4) := rfl

/-- The result buffer ends at what the attention kernel's write-backs leave in its output window's array. -/
theorem U3_main_v7 (c : Dev nD) : U3 m ρ c (Proc.devRef .tc main_v7) = (dat1 (E2 m ρ) c).arrAt 5 cfg1.N :=
  U3_arr m ρ c 5

/-! ## The proof data family and what rides beside the buffers -/

abbrev adm : (p : Fin 2) → (pcfgs (F := F) p).Adm := fun p => (cfgs p).toPCfg_adm
/-- Both launches' proof data, each at its launch's entry contents (a literal match on the launch's number). -/
def pdats : (p : Fin 2) → (c : Dev nD) → Dat τ (Elt F) Unit ℕ (UR sig nD τ) ℕ (Pipeline.pin (pcfgs (F := F)) adm p) c
  | ⟨0, _⟩ => fun c => dat0 (E0 m ρ) c
  | ⟨1, _⟩ => fun c => dat1 (E2 m ρ) c
abbrev 𝒱₀ : Variants := Variants.none
abbrev L : GSem nD τ sig → Finset Unit := fun _ => ∅
abbrev lv : GSem nD τ sig → Unit → ℕ := fun _ _ => 0
/-- The generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without the dues: every unscoped buffer at the last boundary's contents, the generator register. -/
abbrev Tₙ (c : Dev nD) : sProp 𝕄 := iprop(StableHlo.held (c : Thread nD τ) (Pipeline.ucRefs τ sig) (U3 m ρ c) ∗ ∃ r, prngReg c r)

/-! ## The launches as segments -/

-- a library lemma stated over the pinned configuration unifies with the printed one only when unification may unfold
-- plain definitions in a metavariable's type
set_option backward.isDefEq.respectTransparency.types false in
/-- Call 0 as a segment: entered from every unscoped buffer at the contents before it, left at the contents after
    it. Its arrays are split out of the unscoped buffers and put back at what the write-backs leave; the generator
    register goes into the invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (U0 m ρ c) ∗ R c)
  post c := iprop(StableHlo.held (c : Thread nD τ) (Pipeline.ucRefs τ sig) (U1 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (E1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Call 1 as a segment: entered from every unscoped buffer at the contents before it, left at the contents after
    it. Its arrays are split out of the unscoped buffers and put back at what the write-backs leave; the generator
    register goes into the invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m ρ) c).loose
  hwaits := Pipeline.hwaits_of_owed_zero _ _ _ _ L lv 1 fun _ _ => rfl
  pre c := iprop(StableHlo.held (c : Thread nD τ) (Pipeline.ucRefs τ sig) (U2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (E2 m ρ) c
    unfold Pipeline.ΦA at h
    rw [show (pdats m ρ 1 c).Φ 0 = (dat1 (E2 m ρ) c).Φ 0 from rfl]
    iintro ⟨Hp, -, Hr⟩
    iapply h
    isplitl [Hr]; · iexact Hr
    iexact Hp
  hout c := by
    rw [Pipeline.ownSems0_none]
    have h := hout1 (E2 m ρ) c
    unfold Pipeline.ΦA at h
    rw [show (pdats m ρ 1 c).Φ (Fin.last _) = (dat1 (E2 m ρ) c).Φ (Fin.last cfg1.N) from rfl]
    iintro HΦ
    ihave H := h $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E2 m ρ c) (E3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .region (reg0 m ρ),
    .host (hseg hostOps1 hostOps1_sub hostOps1_fresh' (U1 m ρ)),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting,
    and every final memory has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = U3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (U0 m ρ c)
        from Pipeline.unscopedBufs_held c (U0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U3 m ρ c b)
    (hfin := fun c s' => by
      iintro ⟨⟨Hh, -⟩, HSI⟩
      unfold StableHlo.held
      imodintro
      iapply (pointsTo_read_all (Pipeline.ucRefs τ sig) (fun b => (((c : Thread nD τ)).1, b)) (U3 m ρ c) s')
      isplitl [Hh] <;> iassumption)
    (hQ := fun s h c => h c)

/-- THE FRAME at any float instance: the five arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (U3_main_arg0 m ρ c),
     (h c _ (mem_uc main_arg1 (by decide))).trans (U3_main_arg1 m ρ c),
     (h c _ (mem_uc main_arg2 (by decide))).trans (U3_main_arg2 m ρ c),
     (h c _ (mem_uc main_arg3 (by decide))).trans (U3_main_arg3 m ρ c),
     (h c _ (mem_uc main_arg4 (by decide))).trans (U3_main_arg4 m ρ c)⟩) (run_all m ρ)

/-- The same run with the result buffer named: it ends at what the attention kernel's write-backs leave. -/
theorem run_value : θ_run defs (onTc (τ := τ) (main (F := F))) ⟨m, fun _ => 0, ρ⟩ (fun r => ∀ c : Dev nD,
      r.2.mem ((c.tc : Thread nD τ).loc main_v7) = (dat1 (E2 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v7 (by decide))).trans (U3_main_v7 m ρ c),
     (h c _ (mem_uc main_arg0 (by decide))).trans (U3_main_arg0 m ρ c),
     (h c _ (mem_uc main_arg1 (by decide))).trans (U3_main_arg1 m ρ c),
     (h c _ (mem_uc main_arg2 (by decide))).trans (U3_main_arg2 m ρ c),
     (h c _ (mem_uc main_arg3 (by decide))).trans (U3_main_arg3 m ρ c),
     (h c _ (mem_uc main_arg4 (by decide))).trans (U3_main_arg4 m ρ c)⟩) (run_all m ρ)

end Cert.KernelIdeal.Flash

end
-- ==== Proof.Spec.lean ====
/-
  The specification of the graph-attention layer, index by index on the extended reals.

  For N = 8192 nodes with 256 input features and 128 output features:
    h = x · w,  wh1 = h · a[0:128],  wh2 = h · a[128:256],
    e[r,k] = leaky (wh1[r] + wh2[k])  with  leaky z = z where z ≥ 0 and 0.2 · z elsewhere,
    score[r,k] = e[r,k] where adj[r,k] > 0 and −9e15 elsewhere,
    attention = the row softmax of score, as exp (score − rowmax) / ∑ exp (score − rowmax),
    hp = attention · h,  o = leaky hp,  result = o / max (‖o‖₂ of the row, 1e−12) + bias.
  Every float literal stays the pattern it is printed as; no program is imported.
-/
import Idealize.ShloMosaic.PureOps.Ideal
import Idealize.ShloMosaic.Lib.ValueIdx

noncomputable section

open scoped BigOperators

namespace Cert.Flash.Spec

open Idealize.ShloMosaic Idealize.ShloMosaic.ValueIdx

/-- The node features, 8192 × 256. -/
abbrev SX : Shape := ⟨2, ![8192, 256]⟩
/-- The adjacency words, 8192 × 8192. -/
abbrev SAdj : Shape := ⟨2, ![8192, 8192]⟩
/-- The weight, 256 × 128. -/
abbrev SW : Shape := ⟨2, ![256, 128]⟩
/-- The attention vector, 256 × 1: its first 128 rows act on the row node, its last 128 on the column node. -/
abbrev SAv : Shape := ⟨2, ![256, 1]⟩
/-- The bias, 128. -/
abbrev SB : Shape := ⟨1, ![128]⟩
/-- The result, 8192 × 128. -/
abbrev SO : Shape := ⟨2, ![8192, 128]⟩

/-- The projected features: h[k, d] = ∑ c, x[k, c] · w[c, d]. -/
def hMat (x : SX.Idx → EReal) (w : SW.Idx → EReal) (k : Fin 8192) (d : Fin 128) : EReal :=
  ∑ c : Fin 256, x (ix2 k c) * w (ix2 c d)

/-- The row node's half of the attention logit: wh1[r] = ∑ d, h[r, d] · a[d]. -/
def wh1 (x : SX.Idx → EReal) (w : SW.Idx → EReal) (a : SAv.Idx → EReal) (r : Fin 8192) : EReal :=
  ∑ d : Fin 128, hMat x w r d * a (ix2 (⟨d.val, by have := d.isLt; omega⟩ : Fin 256) (0 : Fin 1))

/-- The column node's half of the attention logit: wh2[k] = ∑ d, h[k, d] · a[128 + d]. -/
def wh2 (x : SX.Idx → EReal) (w : SW.Idx → EReal) (a : SAv.Idx → EReal) (k : Fin 8192) : EReal :=
  ∑ d : Fin 128, hMat x w k d * a (ix2 (⟨128 + d.val, by have := d.isLt; omega⟩ : Fin 256) (0 : Fin 1))

/-- The leaky rectifier of slope 0.2 (the f32 pattern 0x3E4CCCCD): z where z ≥ 0, the slope times z elsewhere. -/
def leaky (z : EReal) : EReal :=
  Scalar.select (Ideal.cmp .oge z (Ideal.ofBits .f32 0x00000000#32)) z (Ideal.ofBits .f32 0x3E4CCCCD#32 * z)

/-- The masked logit: the rectified sum of the two halves on an edge (adjacency word positive as a signed
    integer), the f32 pattern of −9e15 off it. -/
def score (x : SX.Idx → EReal) (adj : SAdj.Idx → BitVec 32) (w : SW.Idx → EReal) (a : SAv.Idx → EReal)
    (r k : Fin 8192) : EReal :=
  Scalar.select (IntOp.cmpi .sgt (adj (ix2 r k)) 0#32) (leaky (wh1 x w a r + wh2 x w a k))
    (Ideal.ofBits .f32 0xD9FFCB9E#32)

/-- The row's maximum: the larger of −∞ (the pattern 0xFF800000) and the maximum over the columns, folded from −∞. -/
def rowMax (x : SX.Idx → EReal) (adj : SAdj.Idx → BitVec 32) (w : SW.Idx → EReal) (a : SAv.Idx → EReal)
    (r : Fin 8192) : EReal :=
  max (Ideal.ofBits .f32 0xFF800000#32)
    ((Finset.univ : Finset (Fin 8192)).fold max (Ideal.ofBits .f32 0xFF800000#32) (fun k => score x adj w a r k))

/-- The shifted exponential: exp (score[r, k] − rowMax[r]). -/
def pExp (x : SX.Idx → EReal) (adj : SAdj.Idx → BitVec 32) (w : SW.Idx → EReal) (a : SAv.Idx → EReal)
    (r k : Fin 8192) : EReal :=
  Ideal.exp (score x adj w a r k - rowMax x adj w a r)

/-- The softmax denominator: the zero pattern plus the row's sum of shifted exponentials. -/
def denom (x : SX.Idx → EReal) (adj : SAdj.Idx → BitVec 32) (w : SW.Idx → EReal) (a : SAv.Idx → EReal)
    (r : Fin 8192) : EReal :=
  Ideal.ofBits .f32 0x00000000#32 + ∑ k : Fin 8192, pExp x adj w a r k

/-- The attention-weighted features: hp[r, d] = ∑ k, (pExp[r, k] / denom[r]) · h[k, d]. -/
def hPass (x : SX.Idx → EReal) (adj : SAdj.Idx → BitVec 32) (w : SW.Idx → EReal) (a : SAv.Idx → EReal)
    (r : Fin 8192) (d : Fin 128) : EReal :=
  ∑ k : Fin 8192, Ideal.div (pExp x adj w a r k) (denom x adj w a r) * hMat x w k d

/-- The epilogue of one row, as a function of the row's 128 attention-weighted features only: rectify, divide by
    the larger of the row's 2-norm and 1e−12 (the pattern 0x2B8CBCCC), add the bias. -/
def epi (hp : Fin 128 → EReal) (bias : Fin 128 → EReal) (d : Fin 128) : EReal :=
  Ideal.div (leaky (hp d))
    (max (Ideal.sqrt (Ideal.ofBits .f32 0x00000000#32 + ∑ d' : Fin 128, leaky (hp d') * leaky (hp d')))
      (Ideal.ofBits .f32 0x2B8CBCCC#32))
    + bias d

/-- The layer's result at an index (row, output feature). -/
def out (x : SX.Idx → EReal) (adj : SAdj.Idx → BitVec 32) (w : SW.Idx → EReal) (a : SAv.Idx → EReal)
    (b : SB.Idx → EReal) : SO.Idx → EReal :=
  fun i => epi (fun d => hPass x adj w a (i 0) d) (fun d => b (ix1 d)) (i 1)

end Cert.Flash.Spec

end
-- ==== Proof.KiValIn.lean ====
/-
  What the attention kernel is handed at a grid point, at the ideal values, in terms of the five arguments.

  The projection kernel leaves both of its result arrays at the projected features h = x · w (its narrowing to a
  shorter format is the identity on the extended reals); the host operations between the two kernels leave the two
  halves of the attention logit, the second laid out as a row, and the bias as a row. So at the grid point of row
  tile i and column tile j the attention kernel's five input blocks are: rows 512 i …, columns 2048 j … of the
  adjacency; the whole of h, of which it reads rows 2048 j …; entries 512 i … of the row half; entries 2048 j … of
  the column half; the bias.
-/
import proofs.«407537_j39470749450706_3_alg».proof.Proof.KiRun
import proofs.«407537_j39470749450706_3_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.FlashV

open Cert.KernelIdeal Cert.KernelIdeal.Gen Cert.KernelIdeal.Flash Cert.Flash.Spec
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg) (c : Dev nD)

/-- The five arguments as launched: node features, adjacency words, weight, attention vector, bias. -/
abbrev ax : SX.Idx → EReal := m ((c.tc : Thread nD τ).loc main_arg0)
abbrev aadj : SAdj.Idx → BitVec 32 := m ((c.tc : Thread nD τ).loc main_arg1)
abbrev aw : SW.Idx → EReal := m ((c.tc : Thread nD τ).loc main_arg2)
abbrev aa : SAv.Idx → EReal := m ((c.tc : Thread nD τ).loc main_arg3)
abbrev ab : SB.Idx → EReal := m ((c.tc : Thread nD τ).loc main_arg4)

/-! ## The buffers no kernel or host operation writes before the attention kernel -/

/-- No host operation writes an argument. -/
theorem U2_of_arg (b : Ref sig .tc) (hb : b = main_arg0 ∨ b = main_arg1 ∨ b = main_arg2 ∨ b = main_arg3 ∨ b = main_arg4) :
    U2 m ρ c (Proc.devRef .tc b) = U1 m ρ c (Proc.devRef .tc b) := by
  rcases hb with rfl | rfl | rfl | rfl | rfl <;>
  exact StableHlo.after_of_forall_not_mem _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The adjacency reaches the attention kernel as launched. -/
theorem E2_adj : E2 m ρ c main_arg1 = m ((c.tc : Thread nD τ).loc main_arg1) :=
  (U2_of_arg m ρ c main_arg1 (by simp)).trans (U1_of_ne m ρ c main_arg1 (by decide))

/-- The attention vector and the bias reach the host operations as launched. -/
theorem E1_a : E1 m ρ c main_arg3 = m ((c.tc : Thread nD τ).loc main_arg3) := U1_of_ne m ρ c main_arg3 (by decide)
theorem E1_b : E1 m ρ c main_arg4 = m ((c.tc : Thread nD τ).loc main_arg4) := U1_of_ne m ρ c main_arg4 (by decide)

/-- The six host operations' results, as terms of what they find. -/
theorem E2_v3 : (E2 m ρ c main_v3 : S8192x1.Idx → EReal)
    = Host.dotGeneral (F := Ideal) (φ₁ := .f32) (φ₂ := .f32) dot_S8192x128_S128x1_S8192x1_1_0_0_1_n_n (some .fp32) (E1 m ρ c main_v0_0 : S8192x128.Idx → EReal)
        (extractStridedSlice S128x1 ![0, 0] (E1 m ρ c main_arg3 : S256x1.Idx → EReal) slices_S256x1_S128x1_0_0) := by
  show StableHlo.after hostOps1 _ (Proc.devRef .tc main_v3) = _
  after_results
  try rfl

theorem E2_v5 : (E2 m ρ c main_v5 : S1x8192.Idx → EReal)
    = shapeCast S1x8192 (Host.dotGeneral (F := Ideal) (φ₁ := .f32) (φ₂ := .f32) dot_S8192x128_S128x1_S8192x1_1_0_0_1_n_n (some .fp32) (E1 m ρ c main_v0_0 : S8192x128.Idx → EReal)
        (extractStridedSlice S128x1 ![128, 0] (E1 m ρ c main_arg3 : S256x1.Idx → EReal) slices_S256x1_S128x1_128_0)) shapeCasts_S8192x1_S1x8192 := by
  show StableHlo.after hostOps1 _ (Proc.devRef .tc main_v5) = _
  after_results
  try rfl

theorem E2_v6 : (E2 m ρ c main_v6 : S1x128.Idx → EReal)
    = shapeCast S1x128 (E1 m ρ c main_arg4 : S128.Idx → EReal) shapeCasts_S128_S1x128 := by
  show StableHlo.after hostOps1 _ (Proc.devRef .tc main_v6) = _
  after_results
  try rfl

theorem E2_v0_1 : E2 m ρ c main_v0_1 = E1 m ρ c main_v0_1 := by
  show StableHlo.after hostOps1 _ (Proc.devRef .tc main_v0_1) = _
  after_results
  try rfl

/-! ## Block indices over the two grids -/

theorem idx1_0 : ∀ t : Fin cfg1.N, win1_0.index t (0 : Fin 2) = t.val / 4 ∧ win1_0.index t (1 : Fin 2) = t.val % 4 :=
  (by decide +kernel : ∀ t : Fin grid1.N, _)
theorem idx1_1 : ∀ t : Fin cfg1.N, win1_1.index t (0 : Fin 2) = 0 ∧ win1_1.index t (1 : Fin 2) = 0 :=
  (by decide +kernel : ∀ t : Fin grid1.N, _)
theorem idx1_2 : ∀ t : Fin cfg1.N, win1_2.index t (0 : Fin 2) = t.val / 4 ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = t.val % 4 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem off1 : ∀ t : Fin cfg1.N, k1_off1 (grid1.coords t) (0 : Fin 2) = 2048 * (t.val % 4) ∧ k1_off1 (grid1.coords t) (1 : Fin 2) = 0 :=
  (by decide +kernel : ∀ t : Fin grid1.N, _)
theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = 0 ∧ win0_1.index t (1 : Fin 2) = 0 :=
  (by decide +kernel : ∀ t : Fin grid0.N, _)
theorem idx0_2 : ∀ t : Fin cfg0.N, win0_2.index t (0 : Fin 2) = t.val ∧ win0_2.index t (1 : Fin 2) = 0 :=
  (by decide +kernel : ∀ t : Fin grid0.N, _)
theorem idx0_3 : ∀ t : Fin cfg0.N, win0_3.index t (0 : Fin 2) = t.val ∧ win0_3.index t (1 : Fin 2) = 0 :=
  (by decide +kernel : ∀ t : Fin grid0.N, _)

theorem row_lt (t : Fin cfg1.N) (p : Fin 512) : 512 * (t.val / 4) + p.val < 8192 := by
  have h := t.isLt; have hN : cfg1.N = 64 := N_1; have := p.isLt; omega
theorem col_lt (t : Fin cfg1.N) (k : Fin 2048) : 2048 * (t.val % 4) + k.val < 8192 := by
  have := k.isLt; omega

/-- The adjacency tile. -/
theorem adjB_eq (t : Fin cfg1.N) (p : Fin 512) (k : Fin 2048) :
    adjB (E2 m ρ) c t (ix2 p k) = aadj m c (ix2 (⟨512 * (t.val / 4) + p.val, row_lt t p⟩ : Fin 8192) (⟨2048 * (t.val % 4) + k.val, col_lt t k⟩ : Fin 8192)) := by
  obtain ⟨e0, e1⟩ := idx1_0 t
  show iblk1 (E2 m ρ) c 0 t (ix2 p k) = _
  unfold iblk1
  rw [View.read_apply]
  show E2 m ρ c main_arg1 _ = _
  rw [E2_adj]
  show m ((c.tc : Thread nD τ).loc main_arg1) _ = m ((c.tc : Thread nD τ).loc main_arg1) _
  congr 1
  funext a
  apply Fin.ext
  match a with
  | ⟨0, _⟩ => show win1_0.index t (0 : Fin 2) * 512 + 1 * p.val = 512 * (t.val / 4) + p.val; rw [e0]; omega
  | ⟨1, _⟩ => show win1_0.index t (1 : Fin 2) * 2048 + 1 * k.val = 2048 * (t.val % 4) + k.val; rw [e1]; omega

/-! ## The projection kernel's product at an index -/

theorem hz : (![0, 0] : Fin 2 → Nat) = fun _ => 0 := funext fun a => by fin_cases a <;> rfl

theorem lhs_k0_0 (i : S1024x128.Idx) (q : dot_S1024x256_S256x128_S1024x128_1_0_0_1_n_n.contr.Idx) :
    (dot_S1024x256_S256x128_S1024x128_1_0_0_1_n_n.lhsIdx i q 0).val = (i 0).val := by
  unfold DotDims.lhsIdx
  rw [dif_neg (show ¬(0 : Fin S1024x256.rank) ∈ dot_S1024x256_S256x128_S1024x128_1_0_0_1_n_n.lhsBatch by decide), dif_pos (show (0 : Fin S1024x256.rank) ∈ dot_S1024x256_S256x128_S1024x128_1_0_0_1_n_n.lhsNonContracting by decide)]
  rfl
theorem lhs_k0_1 (i : S1024x128.Idx) (q : dot_S1024x256_S256x128_S1024x128_1_0_0_1_n_n.contr.Idx) :
    (dot_S1024x256_S256x128_S1024x128_1_0_0_1_n_n.lhsIdx i q 1).val = (q ⟨0, by decide⟩).val :=
  dot_S1024x256_S256x128_S1024x128_1_0_0_1_n_n.lhsIdx_val_of_single rfl i q
theorem rhs_k0_0 (i : S1024x128.Idx) (q : dot_S1024x256_S256x128_S1024x128_1_0_0_1_n_n.contr.Idx) :
    (dot_S1024x256_S256x128_S1024x128_1_0_0_1_n_n.rhsIdx i q 0).val = (q ⟨0, by decide⟩).val :=
  dot_S1024x256_S256x128_S1024x128_1_0_0_1_n_n.rhsIdx_val_of_single rfl i q
theorem rhs_k0_1 (i : S1024x128.Idx) (q : dot_S1024x256_S256x128_S1024x128_1_0_0_1_n_n.contr.Idx) :
    (dot_S1024x256_S256x128_S1024x128_1_0_0_1_n_n.rhsIdx i q 1).val = (i 1).val := by
  unfold DotDims.rhsIdx
  rw [dif_neg (show ¬(1 : Fin S256x128.rank) ∈ dot_S1024x256_S256x128_S1024x128_1_0_0_1_n_n.rhsBatch by decide), dif_pos (show (1 : Fin S256x128.rank) ∈ dot_S1024x256_S256x128_S1024x128_1_0_0_1_n_n.rhsNonContracting by decide)]
  rfl

/-- On the extended reals the narrowings are the identity and the product into the zero accumulator is the plain sum over the 256 features. -/
theorem proj_pay1_apply (x0 : Vec Ideal S1024x256 .f32) (x1 : Vec Ideal S256x128 .f32) (p : Fin 1024) (d : Fin 128) :
    k0_pay1 (F := Ideal) x0 x1 (ix2 p d) = ∑ k : Fin 256, x0 (ix2 p k) * x1 (ix2 k d) := by
  show FloatOps.matmul (F := Ideal) dot_S1024x256_S256x128_S1024x128_1_0_0_1_n_n none (truncf (F := Ideal) .bf16 (x0 : FVec Ideal S1024x256 .f32) bitsLt_bf16_f32)
    (truncf (F := Ideal) .bf16 (x1 : FVec Ideal S256x128 .f32) bitsLt_bf16_f32) (constant (F := Ideal) S1024x128 .f32 0x00000000#32) (ix2 p d) = _
  rw [Ideal.matmul_constant_zero_apply, ← Equiv.sum_comp (ValueIdx.contrEquiv1 dot_S1024x256_S256x128_S1024x128_1_0_0_1_n_n 256 rfl rfl).symm]
  refine Finset.sum_congr rfl fun k _ => ?_
  have hk := ValueIdx.contrEquiv1_symm_val dot_S1024x256_S256x128_S1024x128_1_0_0_1_n_n 256 rfl rfl k
  have el : dot_S1024x256_S256x128_S1024x128_1_0_0_1_n_n.lhsIdx (ix2 p d) ((ValueIdx.contrEquiv1 dot_S1024x256_S256x128_S1024x128_1_0_0_1_n_n 256 rfl rfl).symm k) = ix2 p k := funext fun a => Fin.ext (by
    match a with
    | ⟨0, _⟩ => exact lhs_k0_0 _ _
    | ⟨1, _⟩ => exact (lhs_k0_1 _ _).trans hk)
  have er : dot_S1024x256_S256x128_S1024x128_1_0_0_1_n_n.rhsIdx (ix2 p d) ((ValueIdx.contrEquiv1 dot_S1024x256_S256x128_S1024x128_1_0_0_1_n_n 256 rfl rfl).symm k) = ix2 k d := funext fun a => Fin.ext (by
    match a with
    | ⟨0, _⟩ => exact (rhs_k0_0 _ _).trans hk
    | ⟨1, _⟩ => exact rhs_k0_1 _ _)
  rw [el, er]
  rfl

/-- The f32 output block of a point, at an index. -/
theorem hOut_apply (x0 : Vec Ideal S1024x256 .f32) (x1 : Vec Ideal S256x128 .f32) (p : Fin 1024) (d : Fin 128) :
    hOut x0 x1 (ix2 p d) = ∑ k : Fin 256, x0 (ix2 p k) * x1 (ix2 k d) := by
  unfold hOut
  rw [View.canon_unit_zero hz]
  simp only [View.ld_unit_zero (S := S1024x256) hz, View.ld_unit_zero (S := S256x128) hz]
  exact proj_pay1_apply x0 x1 p d

/-- The narrowed output block of a point, at an index: the same sum. -/
theorem hOutB_apply (x0 : Vec Ideal S1024x256 .f32) (x1 : Vec Ideal S256x128 .f32) (p : Fin 1024) (d : Fin 128) :
    hOutB x0 x1 (ix2 p d) = ∑ k : Fin 256, x0 (ix2 p k) * x1 (ix2 k d) := by
  unfold hOutB
  rw [View.canon_unit_zero hz]
  simp only [View.ld_unit_zero (S := S1024x256) hz, View.ld_unit_zero (S := S256x128) hz]
  exact proj_pay1_apply x0 x1 p d

/-! ## The projection kernel's input blocks and its two result arrays -/

theorem row0_lt (t : Fin cfg0.N) (p : Fin 1024) : 1024 * t.val + p.val < 8192 := by
  have h := t.isLt; have hN : cfg0.N = 8 := N_0; have := p.isLt; omega

/-- The x block of a point: rows 1024 t … of x. -/
theorem xblk_apply (t : Fin cfg0.N) (p : Fin 1024) (k : Fin 256) :
    (iblk0 (E0 m ρ) c 0 t : Vec Ideal S1024x256 .f32) (ix2 p k)
      = ax m c (ix2 (⟨1024 * t.val + p.val, row0_lt t p⟩ : Fin 8192) k) := by
  obtain ⟨e0, e1⟩ := idx0_0 t
  unfold iblk0
  rw [View.read_apply]
  show m ((c.tc : Thread nD τ).loc main_arg0) _ = m ((c.tc : Thread nD τ).loc main_arg0) _
  congr 1
  funext a
  apply Fin.ext
  match a with
  | ⟨0, _⟩ => show win0_0.index t (0 : Fin 2) * 1024 + 1 * p.val = 1024 * t.val + p.val; rw [e0]; omega
  | ⟨1, _⟩ => show win0_0.index t (1 : Fin 2) * 256 + 1 * k.val = k.val; rw [e1]; omega

/-- The weight block of a point: the whole weight. -/
theorem wblk_apply (t : Fin cfg0.N) (k : Fin 256) (d : Fin 128) :
    (iblk0 (E0 m ρ) c 1 t : Vec Ideal S256x128 .f32) (ix2 k d) = aw m c (ix2 k d) := by
  obtain ⟨e0, e1⟩ := idx0_1 t
  unfold iblk0
  rw [View.read_apply]
  show m ((c.tc : Thread nD τ).loc main_arg2) _ = m ((c.tc : Thread nD τ).loc main_arg2) _
  congr 1
  funext a
  apply Fin.ext
  match a with
  | ⟨0, _⟩ => show win0_1.index t (0 : Fin 2) * 256 + 1 * k.val = k.val; rw [e0]; omega
  | ⟨1, _⟩ => show win0_1.index t (1 : Fin 2) * 128 + 1 * d.val = d.val; rw [e1]; omega

/-- The projected features as one array. -/
abbrev hArr : S8192x128.Idx → EReal := fun i => hMat (ax m c) (aw m c) (i 0) (i 1)

/-- What a point writes back into the f32 result, at an index of its block. -/
theorem flushed2_pt (t : Fin cfg0.N) (j : S1024x128.Idx) :
    hOut (iblk0 (E0 m ρ) c 0 t) (iblk0 (E0 m ρ) c 1 t) j = hArr m c (((cfg0.win 2).blk t).view.emb j) := by
  obtain ⟨p, d, rfl⟩ : ∃ (p : Fin 1024) (d : Fin 128), j = ix2 p d := ⟨j 0, j 1, eq_ix2 j⟩
  obtain ⟨e0, e1⟩ := idx0_2 t
  rw [hOut_apply]
  simp only [xblk_apply, wblk_apply]
  have r0 : (((cfg0.win 2).blk t).view.emb (ix2 p d)) 0 = (⟨1024 * t.val + p.val, row0_lt t p⟩ : Fin 8192) :=
    Fin.ext (by show win0_2.index t (0 : Fin 2) * 1024 + 1 * p.val = 1024 * t.val + p.val; rw [e0]; omega)
  have r1 : (((cfg0.win 2).blk t).view.emb (ix2 p d)) 1 = d :=
    Fin.ext (by show win0_2.index t (1 : Fin 2) * 128 + 1 * d.val = d.val; rw [e1]; omega)
  show _ = hMat (ax m c) (aw m c) ((((cfg0.win 2).blk t).view.emb (ix2 p d)) 0) ((((cfg0.win 2).blk t).view.emb (ix2 p d)) 1)
  rw [r0, r1]
  rfl

/-- What a point writes back into the narrowed result, at an index of its block. -/
theorem flushed3_pt (t : Fin cfg0.N) (j : S1024x128.Idx) :
    hOutB (iblk0 (E0 m ρ) c 0 t) (iblk0 (E0 m ρ) c 1 t) j = hArr m c (((cfg0.win 3).blk t).view.emb j) := by
  obtain ⟨p, d, rfl⟩ : ∃ (p : Fin 1024) (d : Fin 128), j = ix2 p d := ⟨j 0, j 1, eq_ix2 j⟩
  obtain ⟨e0, e1⟩ := idx0_3 t
  rw [hOutB_apply]
  simp only [xblk_apply, wblk_apply]
  have r0 : (((cfg0.win 3).blk t).view.emb (ix2 p d)) 0 = (⟨1024 * t.val + p.val, row0_lt t p⟩ : Fin 8192) :=
    Fin.ext (by show win0_3.index t (0 : Fin 2) * 1024 + 1 * p.val = 1024 * t.val + p.val; rw [e0]; omega)
  have r1 : (((cfg0.win 3).blk t).view.emb (ix2 p d)) 1 = d :=
    Fin.ext (by show win0_3.index t (1 : Fin 2) * 128 + 1 * d.val = d.val; rw [e1]; omega)
  show _ = hMat (ax m c) (aw m c) ((((cfg0.win 3).blk t).view.emb (ix2 p d)) 0) ((((cfg0.win 3).blk t).view.emb (ix2 p d)) 1)
  rw [r0, r1]
  rfl

theorem flushed0_2 (t : Fin cfg0.N) :
    (dat0 (E0 m ρ) c).flushed 2 t = ((cfg0.win 2).blk t).view.read (Elt Ideal) (hArr m c) := by
  show (cfg0.win 2).cut (grid0.coords t) ((dat0 (E0 m ρ) c).after 2 t) = _
  rw [after0_2]
  funext j
  exact flushed2_pt m ρ c t j

theorem flushed0_3 (t : Fin cfg0.N) :
    (dat0 (E0 m ρ) c).flushed 3 t = ((cfg0.win 3).blk t).view.read (Elt Ideal) (hArr m c) := by
  show (cfg0.win 3).cut (grid0.coords t) ((dat0 (E0 m ρ) c).after 3 t) = _
  rw [after0_3]
  funext j
  exact flushed3_pt m ρ c t j

/-- Every row is in the block of the point 1024 rows wide that holds it. -/
theorem cover0_2 (i : S8192x128.Idx) :
    ∃ t : Fin cfg0.N, (cfg0.win 2).flush t = true ∧ i ∈ ((cfg0.win 2).blk t).view.set := by
  have hi0 : (i 0).val < 8192 := (i 0).isLt
  have hi1 : (i 1).val < 128 := (i 1).isLt
  have hN : cfg0.N = 8 := N_0
  obtain ⟨t, ht⟩ : ∃ t : Fin cfg0.N, t.val = (i 0).val / 1024 := ⟨⟨(i 0).val / 1024, by omega⟩, rfl⟩
  obtain ⟨e0, e1⟩ := idx0_2 t
  refine ⟨t, flush0_2 t, ?_⟩
  show i ∈ ((View.whole main_v0_0).slice (win0_2.rect t)).set
  rw [View.set_slice_whole, Rect.mem_set_unit]
  intro a
  match a with
  | ⟨0, _⟩ =>
    show win0_2.index t (0 : Fin 2) * 1024 ≤ (i 0).val ∧ (i 0).val < win0_2.index t (0 : Fin 2) * 1024 + 1024
    rw [e0, ht]; omega
  | ⟨1, _⟩ =>
    show win0_2.index t (1 : Fin 2) * 128 ≤ (i 1).val ∧ (i 1).val < win0_2.index t (1 : Fin 2) * 128 + 128
    rw [e1]; omega

theorem cover0_3 (i : S8192x128.Idx) :
    ∃ t : Fin cfg0.N, (cfg0.win 3).flush t = true ∧ i ∈ ((cfg0.win 3).blk t).view.set := by
  have hi0 : (i 0).val < 8192 := (i 0).isLt
  have hi1 : (i 1).val < 128 := (i 1).isLt
  have hN : cfg0.N = 8 := N_0
  obtain ⟨t, ht⟩ : ∃ t : Fin cfg0.N, t.val = (i 0).val / 1024 := ⟨⟨(i 0).val / 1024, by omega⟩, rfl⟩
  obtain ⟨e0, e1⟩ := idx0_3 t
  refine ⟨t, flush0_3 t, ?_⟩
  show i ∈ ((View.whole main_v0_1).slice (win0_3.rect t)).set
  rw [View.set_slice_whole, Rect.mem_set_unit]
  intro a
  match a with
  | ⟨0, _⟩ =>
    show win0_3.index t (0 : Fin 2) * 1024 ≤ (i 0).val ∧ (i 0).val < win0_3.index t (0 : Fin 2) * 1024 + 1024
    rw [e0, ht]; omega
  | ⟨1, _⟩ =>
    show win0_3.index t (1 : Fin 2) * 128 ≤ (i 1).val ∧ (i 1).val < win0_3.index t (1 : Fin 2) * 128 + 128
    rw [e1]; omega

/-- After the projection kernel its f32 result holds the projected features. -/
theorem E1_h : (E1 m ρ c main_v0_0 : S8192x128.Idx → EReal) = hArr m c :=
  (U1_arr m ρ c 2).trans ((dat0 (E0 m ρ) c).arrAt_eq_of_cover 2 (hArr m c) (fun t _ => flushed0_2 m ρ c t) (cover0_2))

/-- And so does its narrowed result. -/
theorem E1_hB : (E1 m ρ c main_v0_1 : S8192x128.Idx → EReal) = hArr m c :=
  (U1_arr m ρ c 3).trans ((dat0 (E0 m ρ) c).arrAt_eq_of_cover 3 (hArr m c) (fun t _ => flushed0_3 m ρ c t) (cover0_3))

/-- The host operations leave the narrowed result alone. -/
theorem E2_hB : (E2 m ρ c main_v0_1 : S8192x128.Idx → EReal) = hArr m c :=
  (E2_v0_1 m ρ c).trans (E1_hB m ρ c)

/-! ## The host operations at an index -/

theorem lhs_d_0 (i : S8192x1.Idx) (q : dot_S8192x128_S128x1_S8192x1_1_0_0_1_n_n.contr.Idx) :
    (dot_S8192x128_S128x1_S8192x1_1_0_0_1_n_n.lhsIdx i q 0).val = (i 0).val := by
  unfold DotDims.lhsIdx
  rw [dif_neg (show ¬(0 : Fin S8192x128.rank) ∈ dot_S8192x128_S128x1_S8192x1_1_0_0_1_n_n.lhsBatch by decide), dif_pos (show (0 : Fin S8192x128.rank) ∈ dot_S8192x128_S128x1_S8192x1_1_0_0_1_n_n.lhsNonContracting by decide)]
  rfl
theorem lhs_d_1 (i : S8192x1.Idx) (q : dot_S8192x128_S128x1_S8192x1_1_0_0_1_n_n.contr.Idx) :
    (dot_S8192x128_S128x1_S8192x1_1_0_0_1_n_n.lhsIdx i q 1).val = (q ⟨0, by decide⟩).val :=
  dot_S8192x128_S128x1_S8192x1_1_0_0_1_n_n.lhsIdx_val_of_single rfl i q
theorem rhs_d_0 (i : S8192x1.Idx) (q : dot_S8192x128_S128x1_S8192x1_1_0_0_1_n_n.contr.Idx) :
    (dot_S8192x128_S128x1_S8192x1_1_0_0_1_n_n.rhsIdx i q 0).val = (q ⟨0, by decide⟩).val :=
  dot_S8192x128_S128x1_S8192x1_1_0_0_1_n_n.rhsIdx_val_of_single rfl i q
theorem rhs_d_1 (i : S8192x1.Idx) (q : dot_S8192x128_S128x1_S8192x1_1_0_0_1_n_n.contr.Idx) :
    (dot_S8192x128_S128x1_S8192x1_1_0_0_1_n_n.rhsIdx i q 1).val = (i 1).val := by
  unfold DotDims.rhsIdx
  rw [dif_neg (show ¬(1 : Fin S128x1.rank) ∈ dot_S8192x128_S128x1_S8192x1_1_0_0_1_n_n.rhsBatch by decide), dif_pos (show (1 : Fin S128x1.rank) ∈ dot_S8192x128_S128x1_S8192x1_1_0_0_1_n_n.rhsNonContracting by decide)]
  rfl

/-- The host's product of an 8192 × 128 array with a 128 × 1 column, at an index: the sum over the 128 features. -/
theorem dotCol_apply (y0 : S8192x128.Idx → EReal) (y1 : S128x1.Idx → EReal) (j : S8192x1.Idx) :
    Host.dotGeneral (F := Ideal) (φ₁ := .f32) (φ₂ := .f32) dot_S8192x128_S128x1_S8192x1_1_0_0_1_n_n (some .fp32) y0 y1 j
      = ∑ k : Fin 128, y0 (ix2 (j 0 : Fin 8192) k) * y1 (ix2 k (j 1 : Fin 1)) := by
  simp only [Host.dotGeneral]
  rw [Ideal.dotGeneral_apply, ← Equiv.sum_comp (ValueIdx.contrEquiv1 dot_S8192x128_S128x1_S8192x1_1_0_0_1_n_n 128 rfl rfl).symm]
  refine Finset.sum_congr rfl fun k _ => ?_
  have hk := ValueIdx.contrEquiv1_symm_val dot_S8192x128_S128x1_S8192x1_1_0_0_1_n_n 128 rfl rfl k
  have el : dot_S8192x128_S128x1_S8192x1_1_0_0_1_n_n.lhsIdx j ((ValueIdx.contrEquiv1 dot_S8192x128_S128x1_S8192x1_1_0_0_1_n_n 128 rfl rfl).symm k) = ix2 (j 0 : Fin 8192) k := funext fun a => Fin.ext (by
    match a with
    | ⟨0, _⟩ => exact lhs_d_0 _ _
    | ⟨1, _⟩ => exact (lhs_d_1 _ _).trans hk)
  have er : dot_S8192x128_S128x1_S8192x1_1_0_0_1_n_n.rhsIdx j ((ValueIdx.contrEquiv1 dot_S8192x128_S128x1_S8192x1_1_0_0_1_n_n 128 rfl rfl).symm k) = ix2 k (j 1 : Fin 1) := funext fun a => Fin.ext (by
    match a with
    | ⟨0, _⟩ => exact (rhs_d_0 _ _).trans hk
    | ⟨1, _⟩ => exact rhs_d_1 _ _)
  rw [el, er]
  rfl

/-- The first 128 entries of the attention vector, through the slice. -/
theorem slice1_apply (y : S256x1.Idx → EReal) (k : Fin 128) (u : Fin 1) :
    extractStridedSlice S128x1 ![0, 0] y slices_S256x1_S128x1_0_0 (ix2 k u)
      = y (ix2 (⟨k.val, by have := k.isLt; omega⟩ : Fin 256) (0 : Fin 1)) :=
  extractStridedSlice_apply ![0, 0] y slices_S256x1_S128x1_0_0 (ix2 k u) _ (fun a => match a with
    | ⟨0, _⟩ => by show k.val = 0 + k.val; omega
    | ⟨1, _⟩ => by show (0 : ℕ) = 0 + u.val; have := u.isLt; omega)

/-- The last 128 entries, through the other slice. -/
theorem slice2_apply (y : S256x1.Idx → EReal) (k : Fin 128) (u : Fin 1) :
    extractStridedSlice S128x1 ![128, 0] y slices_S256x1_S128x1_128_0 (ix2 k u)
      = y (ix2 (⟨128 + k.val, by have := k.isLt; omega⟩ : Fin 256) (0 : Fin 1)) :=
  extractStridedSlice_apply ![128, 0] y slices_S256x1_S128x1_128_0 (ix2 k u) _ (fun a => match a with
    | ⟨0, _⟩ => by show 128 + k.val = 128 + k.val; omega
    | ⟨1, _⟩ => by show (0 : ℕ) = 0 + u.val; have := u.isLt; omega)

/-- A column of 8192 laid out as a row. -/
theorem castRow_apply (y : S8192x1.Idx → EReal) (j : S1x8192.Idx) :
    shapeCast S1x8192 y shapeCasts_S8192x1_S1x8192 j = y (ix2 (j 1 : Fin 8192) (0 : Fin 1)) :=
  shapeCast_apply y shapeCasts_S8192x1_S1x8192 j _ (by
    rw [Shape.rowMajor_val_two, Shape.rowMajor_val_two]
    show (j 1).val * 1 + 0 = (j 0).val * 8192 + (j 1).val
    have : (j 0).val < 1 := (j 0).isLt
    omega)

/-- The row half of the logit, after the host operations. -/
theorem E2_wh1 (j : S8192x1.Idx) :
    (E2 m ρ c main_v3 : S8192x1.Idx → EReal) j = wh1 (ax m c) (aw m c) (aa m c) (j 0) := by
  rw [E2_v3, dotCol_apply, E1_h, E1_a]
  show @Eq EReal _ _
  exact Finset.sum_congr rfl fun k _ => congrArg (hArr m c (ix2 (j 0 : Fin 8192) k) * ·) (slice1_apply _ k (j 1))

/-- The column half of the logit, as a row, after the host operations. -/
theorem E2_wh2 (j : S1x8192.Idx) :
    (E2 m ρ c main_v5 : S1x8192.Idx → EReal) j = wh2 (ax m c) (aw m c) (aa m c) (j 1) := by
  rw [E2_v5, castRow_apply, dotCol_apply, E1_h, E1_a]
  show @Eq EReal _ _
  exact Finset.sum_congr rfl fun k _ => congrArg (hArr m c (ix2 (j 1 : Fin 8192) k) * ·) (slice2_apply _ k (0 : Fin 1))

/-- The bias as a row, after the host operations. -/
theorem E2_bias (j : S1x128.Idx) : (E2 m ρ c main_v6 : S1x128.Idx → EReal) j = ab m c (ix1 (j 1 : Fin 128)) := by
  rw [E2_v6, E1_b, eq_ix2 j]
  exact shapeCast_a_1a_apply _ shapeCasts_S128_S1x128 _ _

/-! ## The attention kernel's input blocks at a grid point -/

/-- The row half's block: entries 512 i … . -/
theorem w1B_eq (t : Fin cfg1.N) (p : Fin 512) :
    w1B (E2 m ρ) c t (ix2 p (0 : Fin 1)) = wh1 (ax m c) (aw m c) (aa m c) ⟨512 * (t.val / 4) + p.val, row_lt t p⟩ := by
  obtain ⟨e0, e1⟩ := idx1_2 t
  show iblk1 (E2 m ρ) c 2 t (ix2 p (0 : Fin 1)) = _
  unfold iblk1
  rw [View.read_apply]
  show (E2 m ρ c main_v3 : S8192x1.Idx → EReal) (((cfg1.win 2).blk t).view.emb (ix2 p (0 : Fin 1))) = _
  rw [E2_wh1]
  congr 1
  apply Fin.ext
  show win1_2.index t (0 : Fin 2) * 512 + 1 * p.val = 512 * (t.val / 4) + p.val
  rw [e0]; omega

/-- The column half's block: entries 2048 j … . -/
theorem w2B_eq (t : Fin cfg1.N) (k : Fin 2048) :
    w2B (E2 m ρ) c t (ix2 (0 : Fin 1) k) = wh2 (ax m c) (aw m c) (aa m c) ⟨2048 * (t.val % 4) + k.val, col_lt t k⟩ := by
  obtain ⟨e0, e1⟩ := idx1_3 t
  show iblk1 (E2 m ρ) c 3 t (ix2 (0 : Fin 1) k) = _
  unfold iblk1
  rw [View.read_apply]
  show (E2 m ρ c main_v5 : S1x8192.Idx → EReal) (((cfg1.win 3).blk t).view.emb (ix2 (0 : Fin 1) k)) = _
  rw [E2_wh2]
  congr 1
  apply Fin.ext
  show win1_3.index t (1 : Fin 2) * 2048 + 1 * k.val = 2048 * (t.val % 4) + k.val
  rw [e1]; omega

/-- The bias block: the bias. -/
theorem biasB_eq (t : Fin cfg1.N) (d : Fin 128) :
    biasB (E2 m ρ) c t (ix2 (0 : Fin 1) d) = ab m c (ix1 d) := by
  obtain ⟨e0, e1⟩ := idx1_4 t
  show iblk1 (E2 m ρ) c 4 t (ix2 (0 : Fin 1) d) = _
  unfold iblk1
  rw [View.read_apply]
  show (E2 m ρ c main_v6 : S1x128.Idx → EReal) (((cfg1.win 4).blk t).view.emb (ix2 (0 : Fin 1) d)) = _
  rw [E2_bias]
  congr 2
  apply Fin.ext
  show win1_4.index t (1 : Fin 2) * 128 + 1 * d.val = d.val
  rw [e1]; omega

/-- The whole of h reaches every point. -/
theorem hB_apply (t : Fin cfg1.N) (i : S8192x128.Idx) :
    hB (E2 m ρ) c t i = hMat (ax m c) (aw m c) (i 0) (i 1) := by
  obtain ⟨e0, e1⟩ := idx1_1 t
  show iblk1 (E2 m ρ) c 1 t i = _
  unfold iblk1
  rw [View.read_apply]
  show (E2 m ρ c main_v0_1 : S8192x128.Idx → EReal) (((cfg1.win 1).blk t).view.emb i) = _
  rw [E2_hB]
  show hMat (ax m c) (aw m c) ((((cfg1.win 1).blk t).view.emb i) 0) ((((cfg1.win 1).blk t).view.emb i) 1) = _
  congr 1
  · apply Fin.ext
    show win1_1.index t (0 : Fin 2) * 8192 + 1 * (i 0).val = (i 0).val
    rw [e0]; omega
  · apply Fin.ext
    show win1_1.index t (1 : Fin 2) * 128 + 1 * (i 1).val = (i 1).val
    rw [e1]; omega

/-- The slab of h a point's column tile multiplies by: rows 2048 j … . -/
theorem hSlab_eq (t : Fin cfg1.N) (k : Fin 2048) (d : Fin 128) :
    hSlab (grid1.coords t) (hB (E2 m ρ) c t) (ix2 k d)
      = hMat (ax m c) (aw m c) ⟨2048 * (t.val % 4) + k.val, col_lt t k⟩ d := by
  obtain ⟨e0, e1⟩ := off1 t
  show hB (E2 m ρ) c t ((Rect.unit (s := S8192x128) (k1_off1 (grid1.coords t)) S2048x128.size (k1_off1_inb (grid1.coords t))).emb (ix2 k d)) = _
  rw [hB_apply]
  congr 1
  · apply Fin.ext
    show k1_off1 (grid1.coords t) (0 : Fin 2) + 1 * k.val = 2048 * (t.val % 4) + k.val
    rw [e0]; omega
  · apply Fin.ext
    show k1_off1 (grid1.coords t) (1 : Fin 2) + 1 * d.val = d.val
    rw [e1]; omega

end Cert.KernelIdeal.FlashV

end
-- ==== Proof.KiValStep.lean ====
/- One column tile's step of the attention kernel's running state, read at an index, at the exact extended reals.
   For the row p of the row tile: the masked score of column k of the tile is the leaky rectifier of the sum of the row
   node's and the column node's halves on an edge and the word of -9e15 off it; the new reference point is the larger
   of the old one and the tile's fold of max from -inf; the new denominator is exp (old - new) times the old one plus
   the tile's sum of exp (score - new); the reset state is (-inf, 0, 0). -/
import proofs.«407537_j39470749450706_3_alg».proof.Proof.KiRegion1
import proofs.«407537_j39470749450706_3_alg».proof.Proof.Spec
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.KernelIdeal.FlashV

open Cert.KernelIdeal Cert.KernelIdeal.Gen Cert.KernelIdeal.Flash Cert.Flash.Spec
open Idealize.ShloMosaic Idealize.ShloMosaic.TcCoe Idealize.ShloMosaic.ValueIdx
open Idealize.SL Idealize.SL.Sem

/-! ## Layout operations of the body read at an index -/

theorem bc_col_2048 {α : Type} (v : S512x1.Idx → α) (p : Fin 512) (k : Fin 2048) :
    broadcastTo S512x2048 v broadcasts_S512x1_S512x2048 (ix2 p k) = v (ix2 p 0) := by
  refine broadcastTo_apply v _ (ix2 p k) (ix2 p 0) (fun a => ?_)
  match a with
  | ⟨0, _⟩ => rfl
  | ⟨1, _⟩ => rfl

theorem bc_row_2048 {α : Type} (v : S1x2048.Idx → α) (p : Fin 512) (k : Fin 2048) :
    broadcastTo S512x2048 v broadcasts_S1x2048_S512x2048 (ix2 p k) = v (ix2 0 k) := by
  refine broadcastTo_apply v _ (ix2 p k) (ix2 0 k) (fun a => ?_)
  match a with
  | ⟨0, _⟩ => rfl
  | ⟨1, _⟩ => rfl

/-- A vector of 512 entries viewed as a column reads entry p at (p, 0). -/
theorem col_512 {α : Type} (v : S512.Idx → α) (p : Fin 512) :
    shapeCast S512x1 v shapeCasts_S512_S512x1 (ix2 p 0) = v (ix1 p) := by
  refine shapeCast_apply v _ (ix2 p 0) (ix1 p) ?_
  rw [Shape.rowMajor_val_one, Shape.rowMajor_val_two]
  show p.val = p.val * 1 + 0
  omega

/-! ## The masked score -/

theorem pay7_apply (x2 : Vec Ideal S512x1 .f32) (x3 : Vec Ideal S1x2048 .f32) (x0 : Vec Ideal S512x2048 .i32) (p : Fin 512) (k : Fin 2048) :
    k1_pay7 (F := Ideal) x2 x3 x0 (ix2 p k)
      = Scalar.select (IntOp.cmpi .sgt (x0 (ix2 p k)) 0#32) (leaky (x2 (ix2 p 0) + x3 (ix2 0 k))) (Ideal.ofBits .f32 0xD9FFCB9E#32) := by
  unfold k1_pay7
  simp only [select_apply, cmpf_apply, mulf_apply, addf_apply, broadcast_apply, shapeCast_self, bc_col_2048, bc_row_2048]
  rfl

/-! ## The new reference point, the rescaling factor, the tile's exponentials, the new denominator -/
/-- The row maximum of a [512, 2048] tile at row p: the fold of max from the accumulator's word over the row's 2048 lanes. -/
theorem lane_max (src : FVec Ideal S512x2048 .f32) (hφ : FKind.Formats FTy.f32)
    (hacc : (0xFF800000#32 : BitVec 32) = FKind.maximumf.neutral FTy.f32 hφ) (p : Fin 512) :
    multiReduction (F := Ideal) .maximumf [1] S512 src 0xFF800000#32 reduces_S512x2048_S512 hφ hacc (ix1 p)
      = (Finset.univ : Finset (Fin 2048)).fold max (Ideal.ofBits .f32 0xFF800000#32) (fun k => src (ix2 p k)) := by
  refine (Ideal.multiReduction_maximumf_single src 0xFF800000#32 reduces_S512x2048_S512 hφ hacc (ix1 p)).trans ?_
  refine congrArg (fun f : Fin 2048 → EReal => (Finset.univ : Finset (Fin 2048)).fold max (Ideal.ofBits .f32 0xFF800000#32) f) ?_
  funext k
  refine congrArg src (funext fun c => Fin.ext ?_)
  rw [Shape.Reduces.lift_val]
  unfold Shape.Reduces.liftVal
  match c with
  | ⟨0, _⟩ => rfl
  | ⟨1, _⟩ => rfl

/-- The row sum of a [512, 2048] tile at row p: the sum over the row's 2048 lanes. -/
theorem lane_sum_2048 (src : FVec Ideal S512x2048 .f32) (hφ : FKind.Formats FTy.f32)
    (hacc : (0x00000000#32 : BitVec 32) = 0x00000000#32) (p : Fin 512) :
    multiReduction (F := Ideal) .add [1] S512 src 0x00000000#32 reduces_S512x2048_S512 hφ hacc (ix1 p)
      = ∑ k : Fin 2048, src (ix2 p k) := by
  refine (Ideal.multiReduction_add_single src 0x00000000#32 reduces_S512x2048_S512 hφ hacc (ix1 p)).trans ?_
  refine Finset.sum_congr rfl fun k _ => congrArg src (funext fun c => Fin.ext ?_)
  rw [Shape.Reduces.lift_val]
  unfold Shape.Reduces.liftVal
  match c with
  | ⟨0, _⟩ => rfl
  | ⟨1, _⟩ => rfl

/-- The larger of an old reference point and a tile's row maxima, at row p, over any tile. -/
theorem max_col_apply (src : FVec Ideal S512x2048 .f32) (m0 : FVec Ideal S512x1 .f32) (hφ : FKind.Formats FTy.f32)
    (hacc : (0xFF800000#32 : BitVec 32) = FKind.maximumf.neutral FTy.f32 hφ) (p : Fin 512) :
    maximumf m0 (shapeCast S512x1 (multiReduction (F := Ideal) .maximumf [1] S512 src 0xFF800000#32 reduces_S512x2048_S512 hφ hacc) shapeCasts_S512_S512x1) (ix2 p 0)
      = max (m0 (ix2 p 0)) ((Finset.univ : Finset (Fin 2048)).fold max (Ideal.ofBits .f32 0xFF800000#32) (fun k => src (ix2 p k))) := by
  rw [maximumf_apply, col_512, lane_max]

/-- The new reference point as a function: the payload with its bindings substituted. -/
theorem pay8_eq (x2 : Vec Ideal S512x1 .f32) (x3 : Vec Ideal S1x2048 .f32) (x0 : Vec Ideal S512x2048 .i32) (m0 : Vec Ideal S512x1 .f32) :
    k1_pay8 (F := Ideal) x2 x3 x0 m0
      = maximumf m0 (shapeCast S512x1 (multiReduction (F := Ideal) .maximumf [1] S512 (k1_pay7 (F := Ideal) x2 x3 x0) 0xFF800000#32 reduces_S512x2048_S512 (.inl rfl) rfl) shapeCasts_S512_S512x1) := rfl

theorem pay8_apply (x2 : Vec Ideal S512x1 .f32) (x3 : Vec Ideal S1x2048 .f32) (x0 : Vec Ideal S512x2048 .i32) (m0 : Vec Ideal S512x1 .f32) (p : Fin 512) :
    k1_pay8 (F := Ideal) x2 x3 x0 m0 (ix2 p 0)
      = max (m0 (ix2 p 0)) ((Finset.univ : Finset (Fin 2048)).fold max (Ideal.ofBits .f32 0xFF800000#32) (fun k => k1_pay7 (F := Ideal) x2 x3 x0 (ix2 p k))) := by
  rw [pay8_eq]
  exact max_col_apply (k1_pay7 (F := Ideal) x2 x3 x0) m0 _ _ p

theorem pay2_apply (v : FVec Ideal S512x1 .f32) : k1_pay2 (F := Ideal) v = v := by
  unfold k1_pay2; exact shapeCast_self _ _

theorem pay9_apply (x2 : Vec Ideal S512x1 .f32) (x3 : Vec Ideal S1x2048 .f32) (x0 : Vec Ideal S512x2048 .i32) (m0 : Vec Ideal S512x1 .f32) (p : Fin 512) :
    k1_pay9 (F := Ideal) x2 x3 x0 m0 (ix2 p 0) = Ideal.exp (m0 (ix2 p 0) - k1_pay8 (F := Ideal) x2 x3 x0 m0 (ix2 p 0)) := by
  unfold k1_pay9
  rfl

theorem pay10_apply (x2 : Vec Ideal S512x1 .f32) (x3 : Vec Ideal S1x2048 .f32) (x0 : Vec Ideal S512x2048 .i32) (m0 : Vec Ideal S512x1 .f32) (p : Fin 512) (k : Fin 2048) :
    k1_pay10 (F := Ideal) x2 x3 x0 m0 (ix2 p k)
      = Ideal.exp (k1_pay7 (F := Ideal) x2 x3 x0 (ix2 p k) - k1_pay8 (F := Ideal) x2 x3 x0 m0 (ix2 p 0)) := by
  unfold k1_pay10
  show Ideal.exp (k1_pay7 (F := Ideal) x2 x3 x0 (ix2 p k) - broadcastTo S512x2048 (k1_pay8 (F := Ideal) x2 x3 x0 m0) broadcasts_S512x1_S512x2048 (ix2 p k)) = _
  rw [bc_col_2048]

theorem pay11_apply (x2 : Vec Ideal S512x1 .f32) (x3 : Vec Ideal S1x2048 .f32) (x0 : Vec Ideal S512x2048 .i32) (m0 l0 : Vec Ideal S512x1 .f32) (p : Fin 512) :
    k1_pay11 (F := Ideal) x2 x3 x0 m0 l0 (ix2 p 0)
      = k1_pay9 (F := Ideal) x2 x3 x0 m0 (ix2 p 0) * l0 (ix2 p 0) + ∑ k : Fin 2048, k1_pay10 (F := Ideal) x2 x3 x0 m0 (ix2 p k) := by
  unfold k1_pay11
  simp only [shapeCast_self]
  show k1_pay9 (F := Ideal) x2 x3 x0 m0 (ix2 p 0) * l0 (ix2 p 0)
      + shapeCast S512x1 (multiReduction (F := Ideal) .add [1] S512 (k1_pay10 (F := Ideal) x2 x3 x0 m0) 0x00000000#32 reduces_S512x2048_S512 (.inl rfl) rfl) shapeCasts_S512_S512x1 (ix2 p 0) = _
  rw [col_512]
  exact congrArg (k1_pay9 (F := Ideal) x2 x3 x0 m0 (ix2 p 0) * l0 (ix2 p 0) + ·) (lane_sum_2048 (k1_pay10 (F := Ideal) x2 x3 x0 m0) _ _ p)

/-! ## The reset state -/

theorem pay4_apply (i : S512x1.Idx) : k1_pay4 (F := Ideal) i = (⊥ : EReal) := by
  unfold k1_pay4
  simp only [shapeCast_self, broadcast_apply]
  show Ideal.ofBits .f32 0xFF800000#32 = ⊥
  simp [Ideal.ofBits, Ideal.ieee]

theorem pay5_apply (i : S512x1.Idx) : k1_pay5 (F := Ideal) i = (0 : EReal) := by
  unfold k1_pay5
  simp only [shapeCast_self, broadcast_apply]
  exact Ideal.ofBits_zero_f32

theorem pay6_apply (i : S512x128.Idx) : k1_pay6 (F := Ideal) i = (0 : EReal) := by
  unfold k1_pay6
  simp only [shapeCast_self, broadcast_apply]
  exact Ideal.ofBits_zero_f32

end Cert.KernelIdeal.FlashV

end
-- ==== Proof.KiValPay.lean ====
/-
  Two payloads of the attention kernel read at an index, on the extended reals.

  The accumulator's update: at (p, d) it is the old weighted sum rescaled by row p's factor plus the tile's
  contribution ∑ k, weight[p, k] · feature[k, d], the matrix product into the zero accumulator being that sum over the
  tile's 2048 columns. The epilogue: at (p, d) it is the specification's epilogue of row p — the quotient of the
  accumulator by the row's denominator, rectified with slope 0.2, divided by the larger of the row's 2-norm (the square
  root of the lane sum of squares) and 1e−12, plus the bias at lane d. Narrowing to bf16 and same-shape casts are the
  identity on the extended reals; a [512, 1] column broadcast to [512, 128] reads the column at the row, the [512]
  vector cast to a column reads the vector at the row, and the [1, 128] bias row broadcast reads the row at the lane.
-/
import proofs.«407537_j39470749450706_3_alg».proof.Proof.KiRegion1
import proofs.«407537_j39470749450706_3_alg».proof.Proof.Spec
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.KernelIdeal.FlashV

open Cert.KernelIdeal Cert.KernelIdeal.Gen Cert.KernelIdeal.Flash Cert.Flash.Spec
open Idealize.ShloMosaic Idealize.ShloMosaic.TcCoe Idealize.ShloMosaic.ValueIdx

/-- A column [512, 1] broadcast to [512, 128] reads, at (p, d), the column at row p. -/
theorem bc_col_128 {α : Type} (v : S512x1.Idx → α) (p : Fin 512) (d : Fin 128) :
    broadcastTo S512x128 v broadcasts_S512x1_S512x128 (ix2 p d) = v (ix2 p 0) := by
  refine broadcastTo_apply v _ (ix2 p d) (ix2 p 0) (fun a => ?_)
  match a with
  | ⟨0, _⟩ => rfl
  | ⟨1, _⟩ => rfl

theorem lhs_pv_0 (i : S512x128.Idx) (q : dot_S512x2048_S2048x128_S512x128_1_0_0_1_n_n.contr.Idx) :
    (dot_S512x2048_S2048x128_S512x128_1_0_0_1_n_n.lhsIdx i q 0).val = (i 0).val := by
  unfold DotDims.lhsIdx
  rw [dif_neg (show ¬(0 : Fin S512x2048.rank) ∈ dot_S512x2048_S2048x128_S512x128_1_0_0_1_n_n.lhsBatch by decide), dif_pos (show (0 : Fin S512x2048.rank) ∈ dot_S512x2048_S2048x128_S512x128_1_0_0_1_n_n.lhsNonContracting by decide)]
  rfl
theorem lhs_pv_1 (i : S512x128.Idx) (q : dot_S512x2048_S2048x128_S512x128_1_0_0_1_n_n.contr.Idx) :
    (dot_S512x2048_S2048x128_S512x128_1_0_0_1_n_n.lhsIdx i q 1).val = (q ⟨0, by decide⟩).val :=
  dot_S512x2048_S2048x128_S512x128_1_0_0_1_n_n.lhsIdx_val_of_single rfl i q
theorem rhs_pv_0 (i : S512x128.Idx) (q : dot_S512x2048_S2048x128_S512x128_1_0_0_1_n_n.contr.Idx) :
    (dot_S512x2048_S2048x128_S512x128_1_0_0_1_n_n.rhsIdx i q 0).val = (q ⟨0, by decide⟩).val :=
  dot_S512x2048_S2048x128_S512x128_1_0_0_1_n_n.rhsIdx_val_of_single rfl i q
theorem rhs_pv_1 (i : S512x128.Idx) (q : dot_S512x2048_S2048x128_S512x128_1_0_0_1_n_n.contr.Idx) :
    (dot_S512x2048_S2048x128_S512x128_1_0_0_1_n_n.rhsIdx i q 1).val = (i 1).val := by
  unfold DotDims.rhsIdx
  rw [dif_neg (show ¬(1 : Fin S2048x128.rank) ∈ dot_S512x2048_S2048x128_S512x128_1_0_0_1_n_n.rhsBatch by decide), dif_pos (show (1 : Fin S2048x128.rank) ∈ dot_S512x2048_S2048x128_S512x128_1_0_0_1_n_n.rhsNonContracting by decide)]
  rfl

/-- The tile's matrix product into the zero accumulator, at (p, d): the sum over the 2048 columns of the tile. -/
theorem matmul_pv_apply (l : FVec Ideal S512x2048 .bf16) (r : FVec Ideal S2048x128 .bf16) (p : Fin 512) (d : Fin 128) :
    matmul dot_S512x2048_S2048x128_S512x128_1_0_0_1_n_n none l r (constant (F := Ideal) S512x128 .f32 0x00000000#32) (ix2 p d)
      = ∑ k : Fin 2048, l (ix2 p k) * r (ix2 k d) := by
  refine (Ideal.matmul_constant_zero_apply dot_S512x2048_S2048x128_S512x128_1_0_0_1_n_n none l r (ix2 p d)).trans ?_
  rw [← Equiv.sum_comp (contrEquiv1 dot_S512x2048_S2048x128_S512x128_1_0_0_1_n_n 2048 rfl rfl).symm]
  refine Finset.sum_congr rfl fun k _ => ?_
  have hk := contrEquiv1_symm_val dot_S512x2048_S2048x128_S512x128_1_0_0_1_n_n 2048 rfl rfl k
  have el : dot_S512x2048_S2048x128_S512x128_1_0_0_1_n_n.lhsIdx (ix2 p d) ((contrEquiv1 dot_S512x2048_S2048x128_S512x128_1_0_0_1_n_n 2048 rfl rfl).symm k) = ix2 p k := funext fun a => Fin.ext (by
    match a with
    | ⟨0, _⟩ => exact lhs_pv_0 _ _
    | ⟨1, _⟩ => exact (lhs_pv_1 _ _).trans hk)
  have er : dot_S512x2048_S2048x128_S512x128_1_0_0_1_n_n.rhsIdx (ix2 p d) ((contrEquiv1 dot_S512x2048_S2048x128_S512x128_1_0_0_1_n_n 2048 rfl rfl).symm k) = ix2 k d := funext fun a => Fin.ext (by
    match a with
    | ⟨0, _⟩ => exact (rhs_pv_0 _ _).trans hk
    | ⟨1, _⟩ => exact rhs_pv_1 _ _)
  rw [el, er]

/-- (A) The accumulator's update at (p, d): the old weighted sum rescaled by the row's factor, plus the tile's
    contribution ∑ k, weight[p, k] · feature[k, d]. The narrowing to bf16 and the same-shape casts are the identity on the
    extended reals. -/
theorem pay1_apply (v25 : FVec Ideal S512x1 .f32) (v28 : FVec Ideal S512x2048 .f32) (v40 : Vec Ideal S2048x128 .bf16)
    (v43 : Vec Ideal S512x128 .f32) (p : Fin 512) (d : Fin 128) :
    k1_pay1 (F := Ideal) v25 v28 v40 v43 (ix2 p d)
      = v25 (ix2 p 0) * v43 (ix2 p d) + ∑ k : Fin 2048, v28 (ix2 p k) * v40 (ix2 k d) := by
  unfold k1_pay1
  simp only [shapeCast_self]
  rw [addf_apply, mulf_apply, bc_col_128, matmul_pv_apply]
  rfl

/-- The [512] vector cast to a [512, 1] column reads, at (p, 0), the vector at p. -/
theorem cast_col {α : Type} (x : S512.Idx → α) (p : Fin 512) :
    shapeCast S512x1 x shapeCasts_S512_S512x1 (ix2 p 0) = x (ix1 p) := by
  refine shapeCast_apply x _ (ix2 p 0) (ix1 p) ?_
  rw [Shape.rowMajor_val_one, Shape.rowMajor_val_two]
  show p.val = p.val * 1 + 0
  omega

/-- The lane sum of a [512, 128] array at row p: the sum over the row's 128 lanes. -/
theorem lane_sum (src : FVec Ideal S512x128 .f32) (hφ : FKind.Formats FTy.f32)
    (hacc : (0x00000000#32 : BitVec 32) = 0x00000000#32) (p : Fin 512) :
    multiReduction (F := Ideal) .add [1] S512 src 0x00000000#32 reduces_S512x128_S512 hφ hacc (ix1 p)
      = ∑ d' : Fin 128, src (ix2 p d') := by
  refine (Ideal.multiReduction_add_single src 0x00000000#32 reduces_S512x128_S512 hφ hacc (ix1 p)).trans ?_
  refine Finset.sum_congr rfl fun k _ => congrArg src (funext fun c => Fin.ext ?_)
  rw [Shape.Reduces.lift_val]
  unfold Shape.Reduces.liftVal
  match c with
  | ⟨0, _⟩ => rfl
  | ⟨1, _⟩ => rfl

/-- The rectified quotient, as the payload forms it: the accumulator over the broadcast denominator, kept where it is
    at least zero and scaled by the slope elsewhere. -/
def rect (v57 : FVec Ideal S512x128 .f32) (v58 : FVec Ideal S512x1 .f32) : FVec Ideal S512x128 .f32 :=
  select
    (cmpf .oge (divf v57 (broadcastTo S512x128 v58 broadcasts_S512x1_S512x128))
      (broadcast S512x128 (Scalar.ofBits (F := Ideal) .f32 0x00000000#32)))
    (divf v57 (broadcastTo S512x128 v58 broadcasts_S512x1_S512x128))
    (mulf (broadcast S512x128 (Scalar.ofBits (F := Ideal) .f32 0x3E4CCCCD#32))
      (divf v57 (broadcastTo S512x128 v58 broadcasts_S512x1_S512x128)))

/-- At (p, d) the rectified quotient is the rectifier of row p's quotient at lane d. -/
theorem rect_apply (v57 : FVec Ideal S512x128 .f32) (v58 : FVec Ideal S512x1 .f32) (p : Fin 512) (d : Fin 128) :
    rect v57 v58 (ix2 p d) = leaky (Ideal.div (v57 (ix2 p d)) (v58 (ix2 p 0))) := by
  unfold rect leaky
  simp only [select_apply, cmpf_apply, mulf_apply, divf_apply, broadcast_apply, bc_col_128]
  rfl

/-- A square root at an index is the extended reals' square root of the element. -/
theorem sqrt_apply {s : Shape} (v : FVec Ideal s .f32) (i : s.Idx) : sqrt v i = Ideal.sqrt (v i) := rfl

/-- (B) The epilogue at (p, d): row p's quotients rectified, divided by the larger of the row's 2-norm and 1e−12, plus
    the bias at lane d. -/
theorem pay3_apply (v57 : Vec Ideal S512x128 .f32) (v58 : Vec Ideal S512x1 .f32) (v74 : Vec Ideal S1x128 .f32)
    (p : Fin 512) (d : Fin 128) :
    k1_pay3 (F := Ideal) v57 v58 v74 (ix2 p d)
      = Cert.Flash.Spec.epi (fun d' => Ideal.div (v57 (ix2 p d')) (v58 (ix2 p 0))) (fun d' => v74 (ix2 0 d')) d := by
  unfold k1_pay3
  simp only [shapeCast_self]
  change addf (divf (rect v57 v58) (broadcastTo S512x128 (maximumf (sqrt (shapeCast S512x1
      (multiReduction (F := Ideal) .add [1] S512 (mulf (rect v57 v58) (rect v57 v58)) 0x00000000#32 reduces_S512x128_S512 (.inl rfl) rfl)
      shapeCasts_S512_S512x1)) (broadcast S512x1 (Scalar.ofBits (F := Ideal) .f32 0x2B8CBCCC#32))) broadcasts_S512x1_S512x128))
    (broadcastTo S512x128 v74 broadcasts_S1x128_S512x128) (ix2 p d) = _
  rw [addf_apply, divf_apply, bc_col_128, maximumf_apply, broadcast_apply]
  rw [sqrt_apply, cast_col, lane_sum, rect_apply, broadcastTo_1b_ab_apply]
  simp only [mulf_apply, rect_apply]
  unfold epi
  rw [Ideal.ofBits_zero_f32, zero_add]
  rfl

end Cert.KernelIdeal.FlashV

end
-- ==== Proof.LibOnlineSoftmax.lean ====
/-
  Online softmax over the extended reals.

  A row of scores is consumed tile by tile. After each tile the running state is a
  reference point m, a denominator l and a weighted sum a; passing from one
  reference point to the next rescales l and a by the exponential of the difference
  of the two reference points. The quotient a / l at the end is the ordinary
  softmax-weighted sum of the values, whatever real reference points were used:
  softmax does not change when all scores are shifted by one real constant.

  Everything is a real number except the initial reference point, which is the
  bottom element (minus infinity), where the exponential is 0.
-/
import Idealize.ShloMosaic.PureOps.Ideal
import Mathlib.Data.EReal.Basic
import Mathlib.Data.EReal.Operations
import Mathlib.Data.EReal.Inv
import Mathlib.Data.Finset.Fold
import Mathlib.Analysis.SpecialFunctions.Exp
import Mathlib.Algebra.BigOperators.Field
import Mathlib.Algebra.BigOperators.Ring.Finset
import Mathlib.Algebra.Order.BigOperators.Group.Finset

noncomputable section

namespace OnlineSoftmax

open Idealize.ShloMosaic
open scoped BigOperators

/-! ### Coercion of finite sums -/

/-- The inclusion of the reals in the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The exponential of a difference of two reals, computed in the extended reals, is the
    real exponential of the real difference. -/
theorem exp_coe_sub (a b : ℝ) :
    Ideal.exp ((a : EReal) - (b : EReal)) = ((Real.exp (a - b) : ℝ) : EReal) := by
  rw [← EReal.coe_sub, Ideal.exp_coe]

/-! ### The running state -/

variable {K : Type*} [Fintype K]

/-- The running reference point: minus infinity before any tile, then the real `μ q` after
    tile `q`. -/
def mAt (μ : ℕ → ℝ) : ℕ → EReal
  | 0 => ⊥
  | q + 1 => (μ q : EReal)

/-- The running denominator: 0 before any tile; after tile `q` the previous denominator
    rescaled from the old reference point to the new one, plus the sum over the tile of the
    exponentials of the scores taken relative to the new reference point. -/
def lAt (σ : ℕ → K → ℝ) (μ : ℕ → ℝ) : ℕ → EReal
  | 0 => 0
  | q + 1 => Ideal.exp (mAt μ q - mAt μ (q + 1)) * lAt σ μ q
      + ∑ k, Ideal.exp ((σ q k : EReal) - mAt μ (q + 1))

/-- The running weighted sum: 0 before any tile; after tile `q` the previous weighted sum
    rescaled from the old reference point to the new one, plus the sum over the tile of the
    exponentials of the scores relative to the new reference point times the values. -/
def aAt (σ η : ℕ → K → ℝ) (μ : ℕ → ℝ) : ℕ → EReal
  | 0 => 0
  | q + 1 => Ideal.exp (mAt μ q - mAt μ (q + 1)) * aAt σ η μ q
      + ∑ k, Ideal.exp ((σ q k : EReal) - mAt μ (q + 1)) * (η q k : EReal)

variable (σ η : ℕ → K → ℝ) (μ : ℕ → ℝ)

/-- Before any tile the reference point is minus infinity. -/
@[simp] theorem mAt_zero : mAt μ 0 = ⊥ := rfl

/-- After tile `q` the reference point is the real `μ q`. -/
@[simp] theorem mAt_succ (q : ℕ) : mAt μ (q + 1) = (μ q : EReal) := rfl

/-- Before any tile the denominator is 0. -/
@[simp] theorem lAt_zero : lAt σ μ 0 = 0 := rfl

/-- One step of the denominator's recursion. -/
theorem lAt_succ (q : ℕ) :
    lAt σ μ (q + 1) = Ideal.exp (mAt μ q - mAt μ (q + 1)) * lAt σ μ q
      + ∑ k, Ideal.exp ((σ q k : EReal) - mAt μ (q + 1)) := rfl

/-- Before any tile the weighted sum is 0. -/
@[simp] theorem aAt_zero : aAt σ η μ 0 = 0 := rfl

/-- One step of the weighted sum's recursion. -/
theorem aAt_succ (q : ℕ) :
    aAt σ η μ (q + 1) = Ideal.exp (mAt μ q - mAt μ (q + 1)) * aAt σ η μ q
      + ∑ k, Ideal.exp ((σ q k : EReal) - mAt μ (q + 1)) * (η q k : EReal) := rfl

/-! ### Closed forms -/

/-- After `n + 1` tiles the denominator is the real number
    `∑_{q ≤ n} ∑_k exp (σ q k - μ n)`: every score taken relative to the LAST reference point.
    The first step has nothing to rescale (the previous denominator is 0); a later step
    multiplies `exp (σ - μ n)` by `exp (μ n - μ (n+1))`, which is `exp (σ - μ (n+1))`. -/
theorem lAt_succ_eq (n : ℕ) :
    lAt σ μ (n + 1)
      = ((∑ q ∈ Finset.range (n + 1), ∑ k, Real.exp (σ q k - μ n) : ℝ) : EReal) := by
  induction n with
  | zero =>
    rw [lAt_succ, lAt_zero, mul_zero, zero_add, Finset.sum_range_one, coe_sum]
    refine Finset.sum_congr rfl fun k _ => ?_
    rw [mAt_succ, exp_coe_sub]
  | succ n ih =>
    rw [lAt_succ, ih, mAt_succ, mAt_succ, exp_coe_sub, Finset.sum_range_succ _ (n + 1),
      EReal.coe_add, ← EReal.coe_mul]
    congr 1
    · congr 1
      rw [Finset.mul_sum]
      refine Finset.sum_congr rfl fun q _ => ?_
      rw [Finset.mul_sum]
      refine Finset.sum_congr rfl fun k _ => ?_
      rw [← Real.exp_add]
      congr 1
      ring
    · rw [coe_sum]
      refine Finset.sum_congr rfl fun k _ => ?_
      rw [exp_coe_sub]

/-- After `n + 1` tiles the weighted sum is the real number
    `∑_{q ≤ n} ∑_k exp (σ q k - μ n) * η q k`, by the same induction as for the denominator. -/
theorem aAt_succ_eq (n : ℕ) :
    aAt σ η μ (n + 1)
      = ((∑ q ∈ Finset.range (n + 1), ∑ k, Real.exp (σ q k - μ n) * η q k : ℝ) : EReal) := by
  induction n with
  | zero =>
    rw [aAt_succ, aAt_zero, mul_zero, zero_add, Finset.sum_range_one, coe_sum]
    refine Finset.sum_congr rfl fun k _ => ?_
    rw [mAt_succ, exp_coe_sub, EReal.coe_mul]
  | succ n ih =>
    rw [aAt_succ, ih, mAt_succ, mAt_succ, exp_coe_sub, Finset.sum_range_succ _ (n + 1),
      EReal.coe_add, ← EReal.coe_mul]
    congr 1
    · congr 1
      rw [Finset.mul_sum]
      refine Finset.sum_congr rfl fun q _ => ?_
      rw [Finset.mul_sum]
      refine Finset.sum_congr rfl fun k _ => ?_
      rw [← mul_assoc, ← Real.exp_add]
      congr 2
      ring
    · rw [coe_sum]
      refine Finset.sum_congr rfl fun k _ => ?_
      rw [exp_coe_sub, EReal.coe_mul]

/-! ### The quotient -/

section Quotient

variable [Nonempty K]

/-- A double sum of exponentials over at least one tile of a nonempty lane set is positive. -/
theorem sum_exp_pos (n : ℕ) (c : ℝ) :
    0 < ∑ q ∈ Finset.range (n + 1), ∑ k, Real.exp (σ q k - c) := by
  refine Finset.sum_pos (fun q _ => ?_) ⟨0, Finset.mem_range.mpr (Nat.succ_pos n)⟩
  exact Finset.sum_pos (fun k _ => Real.exp_pos _) Finset.univ_nonempty

/-- Shift invariance of softmax over the reals: the weighted sum relative to one reference
    point `c` divided by the denominator relative to `c` is the sum of the softmax weights
    relative to any other reference point `M` times the values. Numerator and denominator both
    carry the common factor `exp (M - c)`, which cancels. -/
theorem real_softmax_shift (n : ℕ) (c M : ℝ) :
    (∑ q ∈ Finset.range (n + 1), ∑ k, Real.exp (σ q k - c) * η q k)
        / (∑ q ∈ Finset.range (n + 1), ∑ k, Real.exp (σ q k - c))
      = ∑ q ∈ Finset.range (n + 1), ∑ k,
          (Real.exp (σ q k - M)
            / (∑ q' ∈ Finset.range (n + 1), ∑ k', Real.exp (σ q' k' - M))) * η q k := by
  have hD : (∑ q' ∈ Finset.range (n + 1), ∑ k', Real.exp (σ q' k' - M)) ≠ 0 :=
    (sum_exp_pos σ n M).ne'
  have hc : Real.exp (M - c) ≠ 0 := (Real.exp_pos _).ne'
  have hexp : ∀ q k, Real.exp (σ q k - c) = Real.exp (M - c) * Real.exp (σ q k - M) := by
    intro q k
    rw [← Real.exp_add]
    congr 1
    ring
  have hnum : (∑ q ∈ Finset.range (n + 1), ∑ k, Real.exp (σ q k - c) * η q k)
      = Real.exp (M - c) * ∑ q ∈ Finset.range (n + 1), ∑ k, Real.exp (σ q k - M) * η q k := by
    rw [Finset.mul_sum]
    refine Finset.sum_congr rfl fun q _ => ?_
    rw [Finset.mul_sum]
    refine Finset.sum_congr rfl fun k _ => ?_
    rw [hexp, mul_assoc]
  have hden : (∑ q ∈ Finset.range (n + 1), ∑ k, Real.exp (σ q k - c))
      = Real.exp (M - c) * ∑ q ∈ Finset.range (n + 1), ∑ k, Real.exp (σ q k - M) := by
    rw [Finset.mul_sum]
    refine Finset.sum_congr rfl fun q _ => ?_
    rw [Finset.mul_sum]
    refine Finset.sum_congr rfl fun k _ => ?_
    rw [hexp]
  rw [hnum, hden, mul_div_mul_left _ _ hc, Finset.sum_div]
  refine Finset.sum_congr rfl fun q _ => ?_
  rw [Finset.sum_div]
  refine Finset.sum_congr rfl fun k _ => ?_
  rw [div_mul_eq_mul_div]

/-- The online quotient is the softmax-weighted sum. After `n + 1` tiles the weighted sum
    divided by the denominator is the real number `∑ (exp (σ - M) / ∑ exp (σ - M)) * η`, for
    every real reference point `M`: both are real by the closed forms, the denominator is
    positive, and the common factor cancels. -/
theorem online_eq_softmax (n : ℕ) (M : ℝ) :
    Ideal.div (aAt σ η μ (n + 1)) (lAt σ μ (n + 1))
      = ((∑ q ∈ Finset.range (n + 1), ∑ k,
            (Real.exp (σ q k - M)
              / (∑ q' ∈ Finset.range (n + 1), ∑ k', Real.exp (σ q' k' - M))) * η q k : ℝ) :
          EReal) := by
  rw [aAt_succ_eq, lAt_succ_eq, Ideal.div_coe (sum_exp_pos σ n (μ n)).ne', ← EReal.coe_mul,
    mul_one_div, real_softmax_shift σ η n (μ n) M]

/-- The ordinary softmax-weighted sum written in the extended reals, term by term: each
    weight is a quotient of extended-real exponentials by the extended-real sum of all of them
    (with a leading `0 +`), times the value. All of it is real, and equals the real softmax sum:
    the denominator is a positive real, so each quotient is the real quotient. -/
theorem softmax_ereal (n : ℕ) (M : ℝ) :
    (∑ q ∈ Finset.range (n + 1), ∑ k,
        Ideal.div (Ideal.exp ((σ q k : EReal) - (M : EReal)))
            (0 + ∑ q' ∈ Finset.range (n + 1), ∑ k', Ideal.exp ((σ q' k' : EReal) - (M : EReal)))
          * (η q k : EReal))
      = ((∑ q ∈ Finset.range (n + 1), ∑ k,
            (Real.exp (σ q k - M)
              / (∑ q' ∈ Finset.range (n + 1), ∑ k', Real.exp (σ q' k' - M))) * η q k : ℝ) :
          EReal) := by
  have hden : (0 + ∑ q' ∈ Finset.range (n + 1), ∑ k', Ideal.exp ((σ q' k' : EReal) - (M : EReal)))
      = ((∑ q' ∈ Finset.range (n + 1), ∑ k', Real.exp (σ q' k' - M) : ℝ) : EReal) := by
    rw [zero_add, coe_sum]
    refine Finset.sum_congr rfl fun q _ => ?_
    rw [coe_sum]
    refine Finset.sum_congr rfl fun k _ => ?_
    rw [exp_coe_sub]
  rw [hden]
  refine Eq.trans ?_ (coe_sum _ _).symm
  refine Finset.sum_congr rfl fun q _ => ?_
  refine Eq.trans ?_ (coe_sum _ _).symm
  refine Finset.sum_congr rfl fun k _ => ?_
  rw [exp_coe_sub, Ideal.div_coe (sum_exp_pos σ n M).ne', ← EReal.coe_mul, ← EReal.coe_mul,
    mul_one_div]

end Quotient

/-! ### Running maxima are real -/

/-- A running maximum of finitely many reals, started from minus infinity, over a nonempty
    index set, is a real: it is below plus infinity because every term and the start are, and
    above minus infinity because some term is. -/
theorem fold_max_real {ι : Type*} (s : Finset ι) (hs : s.Nonempty) (f : ι → ℝ) :
    ∃ r : ℝ, s.fold max (⊥ : EReal) (fun i => (f i : EReal)) = (r : EReal) := by
  have htop : s.fold max (⊥ : EReal) (fun i => (f i : EReal)) ≠ ⊤ := by
    refine ne_of_lt ((Finset.fold_max_lt _).mpr ⟨bot_lt_top, fun x _ => EReal.coe_lt_top _⟩)
  have hbot : s.fold max (⊥ : EReal) (fun i => (f i : EReal)) ≠ ⊥ := by
    obtain ⟨x, hx⟩ := hs
    exact ne_of_gt ((Finset.lt_fold_max _).mpr (Or.inr ⟨x, hx, EReal.bot_lt_coe _⟩))
  exact ⟨_, (EReal.coe_toReal htop hbot).symm⟩

/-- A running maximum of finitely many reals started from a real is a real: it is below plus
    infinity because every term and the start are, and at least the start. -/
theorem fold_max_real' {ι : Type*} (b : ℝ) (s : Finset ι) (f : ι → ℝ) :
    ∃ r : ℝ, s.fold max (b : EReal) (fun i => (f i : EReal)) = (r : EReal) := by
  have htop : s.fold max (b : EReal) (fun i => (f i : EReal)) ≠ ⊤ := by
    refine ne_of_lt ((Finset.fold_max_lt _).mpr ⟨EReal.coe_lt_top _, fun x _ => EReal.coe_lt_top _⟩)
  have hbot : s.fold max (b : EReal) (fun i => (f i : EReal)) ≠ ⊥ :=
    ne_of_gt ((Finset.lt_fold_max _).mpr (Or.inl (EReal.bot_lt_coe _)))
  exact ⟨_, (EReal.coe_toReal htop hbot).symm⟩

end OnlineSoftmax
-- ==== Proof.KiValState.lean ====
/- The attention kernel's running state after the column tiles of a row tile is the online-softmax recursion. For one row
   p of a row tile, with σ q k the masked score of column k of column tile q (a real) and η q k the matching entry
   of one column of h: the reference point after tile q is the running maximum μ q of the tiles' maxima, a real; the
   denominator and the weighted sum after tile q are the recursion's lAt and aAt at q + 1, with those reference
   points. One tile's step is proved from the payloads read at an index; the four tiles of a row tile by recursion
   on the tile, from the reset state (minus infinity, 0, 0). -/
import proofs.«407537_j39470749450706_3_alg».proof.Proof.KiValStep
import proofs.«407537_j39470749450706_3_alg».proof.Proof.KiValPay
import proofs.«407537_j39470749450706_3_alg».proof.Proof.LibOnlineSoftmax

set_option maxRecDepth 16384

noncomputable section

namespace Cert.KernelIdeal.FlashV

open Cert.KernelIdeal Cert.KernelIdeal.Gen Cert.KernelIdeal.Flash Cert.Flash.Spec
open Idealize.ShloMosaic Idealize.ShloMosaic.TcCoe Idealize.ShloMosaic.ValueIdx
open Idealize.SL Idealize.SL.Sem
open OnlineSoftmax
open scoped BigOperators

/-! ## The reference points as reals -/

/-- The word of minus infinity is the bottom element. -/
theorem neg_inf_word : Ideal.ofBits .f32 0xFF800000#32 = (⊥ : EReal) := by
  simp [Ideal.ofBits, Ideal.ieee]

/-- The maximum of tile `q`'s scores, as a real. -/
def tm (σ : ℕ → Fin 2048 → ℝ) (q : ℕ) : ℝ :=
  ((Finset.univ : Finset (Fin 2048)).fold max (⊥ : EReal) (fun k => (σ q k : EReal))).toReal

/-- The reference point after tile `q`: the running maximum of the tiles' maxima. -/
def mu (σ : ℕ → Fin 2048 → ℝ) : ℕ → ℝ
  | 0 => tm σ 0
  | q + 1 => max (mu σ q) (tm σ (q + 1))

/-- A tile's fold of max from minus infinity over its real scores is the real `tm σ q`: the tile is not empty. -/
theorem fold_eq_tm (σ : ℕ → Fin 2048 → ℝ) (q : ℕ) :
    (Finset.univ : Finset (Fin 2048)).fold max (⊥ : EReal) (fun k => (σ q k : EReal)) = (tm σ q : EReal) := by
  obtain ⟨r, hr⟩ := fold_max_real (Finset.univ : Finset (Fin 2048)) Finset.univ_nonempty (σ q)
  unfold tm
  rw [hr, EReal.toReal_coe]

/-- One step of the reference point: the larger of the point before (minus infinity before the first tile) and the
    tile's maximum is the real `mu σ q`. -/
theorem step_m (σ : ℕ → Fin 2048 → ℝ) (q : ℕ) :
    max (mAt (mu σ) q) ((Finset.univ : Finset (Fin 2048)).fold max (⊥ : EReal) (fun k => (σ q k : EReal)))
      = (mu σ q : EReal) := by
  rw [fold_eq_tm]
  cases q with
  | zero => rw [mAt_zero]; exact max_eq_right bot_le
  | succ q =>
    rw [mAt_succ]
    exact (EReal.coe_strictMono.monotone.map_max (a := mu σ q) (b := tm σ (q + 1))).symm

/-! ## One tile's step -/

/-- The new reference point of row `p` is `mu σ q`, when the tile's masked scores of the row are the reals `σ q` and
    the old reference point is the recursion's. -/
theorem pay8_online (x2 : Vec Ideal S512x1 .f32) (x3 : Vec Ideal S1x2048 .f32) (x0 : Vec Ideal S512x2048 .i32)
    (m0 : Vec Ideal S512x1 .f32) (p : Fin 512) (σ : ℕ → Fin 2048 → ℝ) (q : ℕ)
    (hσ : ∀ k, k1_pay7 (F := Ideal) x2 x3 x0 (ix2 p k) = (σ q k : EReal)) (hm : m0 (ix2 p 0) = mAt (mu σ) q) :
    k1_pay8 (F := Ideal) x2 x3 x0 m0 (ix2 p 0) = (mu σ q : EReal) := by
  rw [pay8_apply, hm, neg_inf_word,
    show (fun k => k1_pay7 (F := Ideal) x2 x3 x0 (ix2 p k)) = (fun k => (σ q k : EReal)) from funext hσ]
  exact step_m σ q

/-- ONE STEP, reference point and denominator: from the recursion's state at `q` the step gives its state at
    `q + 1`, in row `p`. -/
theorem stepS_online (i : grid1.Coords) (x0 : Vec Ideal S512x2048 .i32) (x1 : Vec Ideal S8192x128 .bf16)
    (x2 : Vec Ideal S512x1 .f32) (x3 : Vec Ideal S1x2048 .f32) (s : St Ideal) (p : Fin 512)
    (σ : ℕ → Fin 2048 → ℝ) (q : ℕ)
    (hσ : ∀ k, k1_pay7 (F := Ideal) x2 x3 x0 (ix2 p k) = (σ q k : EReal))
    (hm : s.1 (ix2 p 0) = mAt (mu σ) q) (hl : s.2.1 (ix2 p 0) = lAt σ (mu σ) q) :
    (stepS i x0 x1 x2 x3 s).1 (ix2 p 0) = mAt (mu σ) (q + 1)
      ∧ (stepS i x0 x1 x2 x3 s).2.1 (ix2 p 0) = lAt σ (mu σ) (q + 1) := by
  have h8 := pay8_online x2 x3 x0 s.1 p σ q hσ hm
  unfold stepS
  dsimp only
  refine ⟨?_, ?_⟩
  · rw [pay2_apply, h8, mAt_succ]
  · have hsum : ∑ k : Fin 2048, k1_pay10 (F := Ideal) x2 x3 x0 s.1 (ix2 p k)
        = ∑ k : Fin 2048, Ideal.exp ((σ q k : EReal) - (mu σ q : EReal)) :=
      Finset.sum_congr rfl fun k _ => by rw [pay10_apply, h8, hσ]
    rw [pay11_apply, pay9_apply, h8, hm, hl, hsum, lAt_succ, mAt_succ]

/-- ONE STEP, weighted sum: from the recursion's state at `q` the step gives its weighted sum at `q + 1`, in row
    `p` and column `d`, when the slab's column `d` is the reals `η q`. -/
theorem stepS_online_acc (i : grid1.Coords) (x0 : Vec Ideal S512x2048 .i32) (x1 : Vec Ideal S8192x128 .bf16)
    (x2 : Vec Ideal S512x1 .f32) (x3 : Vec Ideal S1x2048 .f32) (s : St Ideal) (p : Fin 512)
    (σ : ℕ → Fin 2048 → ℝ) (q : ℕ)
    (hσ : ∀ k, k1_pay7 (F := Ideal) x2 x3 x0 (ix2 p k) = (σ q k : EReal))
    (hm : s.1 (ix2 p 0) = mAt (mu σ) q)
    (d : Fin 128) (η : ℕ → Fin 2048 → ℝ) (hη : ∀ k, hSlab i x1 (ix2 k d) = (η q k : EReal))
    (ha : s.2.2 (ix2 p d) = aAt σ η (mu σ) q) :
    (stepS i x0 x1 x2 x3 s).2.2 (ix2 p d) = aAt σ η (mu σ) (q + 1) := by
  have h8 := pay8_online x2 x3 x0 s.1 p σ q hσ hm
  unfold stepS
  dsimp only
  have hsum : ∑ k : Fin 2048, k1_pay10 (F := Ideal) x2 x3 x0 s.1 (ix2 p k) * hSlab i x1 (ix2 k d)
      = ∑ k : Fin 2048, Ideal.exp ((σ q k : EReal) - (mu σ q : EReal)) * (η q k : EReal) :=
    Finset.sum_congr rfl fun k _ => by rw [pay10_apply, h8, hσ, hη]
  rw [pay1_apply, pay9_apply, h8, hm, ha, hsum, aAt_succ, mAt_succ]

/-! ## The four tiles of a row tile -/

/-- The grid point of row tile `R`, column tile `q`. -/
def pt (R : Fin 16) (q : Fin 4) : Fin cfg1.N := ⟨4 * R.val + q.val, by have : cfg1.N = 64 := N_1; omega⟩

section Row
variable (V : (c : Dev nD) → (b : Ref sig .tc) → Buf (Elt Ideal) ((c : Thread nD τ).loc b))

/-- The running state depends on the point's number only. -/
theorem scAt1_congr (c : Dev nD) {n n' : ℕ} (e : n = n') (h : n < cfg1.N) (h' : n' < cfg1.N) :
    scAt1 V c n h = scAt1 V c n' h' := by
  subst e; rfl

/-- Reference point and denominator after each column tile of row tile `R`, in row `p`: the recursion's. -/
theorem state_row_aux (c : Dev nD) (R : Fin 16) (p : Fin 512) (σ : ℕ → Fin 2048 → ℝ)
    (hσ : ∀ (q : Fin 4) (k : Fin 2048), k1_pay7 (F := Ideal) (w1B V c (pt R q)) (w2B V c (pt R q)) (adjB V c (pt R q)) (ix2 p k) = (σ q.val k : EReal)) :
    ∀ (n : ℕ) (hn : n < 4),
      (scAt1 V c (pt R ⟨n, hn⟩).val (pt R ⟨n, hn⟩).isLt).1 (ix2 p 0) = mAt (mu σ) (n + 1)
        ∧ (scAt1 V c (pt R ⟨n, hn⟩).val (pt R ⟨n, hn⟩).isLt).2.1 (ix2 p 0) = lAt σ (mu σ) (n + 1)
  | 0, hn => by
    rw [scAt1_first V c (pt R ⟨0, hn⟩) (by show (4 * R.val + 0) % 4 = 0; omega)]
    have hm0 : (resetS (F := Ideal)).1 (ix2 p 0) = mAt (mu σ) 0 := (pay4_apply (ix2 p 0)).trans (mAt_zero _).symm
    have hl0 : (resetS (F := Ideal)).2.1 (ix2 p 0) = lAt σ (mu σ) 0 := (pay5_apply (ix2 p 0)).trans (lAt_zero _ _).symm
    exact stepS_online _ _ _ _ _ resetS p σ 0 (fun k => hσ ⟨0, hn⟩ k) hm0 hl0
  | n + 1, hn => by
    have ih := state_row_aux c R p σ hσ n (by omega)
    rw [scAt1_later V c (pt R ⟨n + 1, hn⟩) (by show ¬(4 * R.val + (n + 1)) % 4 = 0; omega),
      scAt1_congr V c (show (pt R ⟨n + 1, hn⟩).val - 1 = (pt R ⟨n, by omega⟩).val from by
        show 4 * R.val + (n + 1) - 1 = 4 * R.val + n; omega) _ (pt R ⟨n, by omega⟩).isLt]
    exact stepS_online _ _ _ _ _ _ p σ (n + 1) (fun k => hσ ⟨n + 1, hn⟩ k) ih.1 ih.2

/-- FOUR TILES: after column tile `q` of row tile `R` the reference point and the denominator of row `p` are the
    recursion's at `q + 1`. -/
theorem state_row (c : Dev nD) (R : Fin 16) (p : Fin 512) (σ : ℕ → Fin 2048 → ℝ)
    (hσ : ∀ (q : Fin 4) (k : Fin 2048), k1_pay7 (F := Ideal) (w1B V c (pt R q)) (w2B V c (pt R q)) (adjB V c (pt R q)) (ix2 p k) = (σ q.val k : EReal)) :
    ∀ q : Fin 4, (scAt1 V c (pt R q).val (pt R q).isLt).1 (ix2 p 0) = mAt (mu σ) (q.val + 1)
      ∧ (scAt1 V c (pt R q).val (pt R q).isLt).2.1 (ix2 p 0) = lAt σ (mu σ) (q.val + 1) :=
  fun q => state_row_aux V c R p σ hσ q.val q.isLt

/-- Weighted sum after each column tile of row tile `R`, in row `p` and column `d`: the recursion's. -/
theorem state_row_acc_aux (c : Dev nD) (R : Fin 16) (p : Fin 512) (σ : ℕ → Fin 2048 → ℝ)
    (hσ : ∀ (q : Fin 4) (k : Fin 2048), k1_pay7 (F := Ideal) (w1B V c (pt R q)) (w2B V c (pt R q)) (adjB V c (pt R q)) (ix2 p k) = (σ q.val k : EReal))
    (d : Fin 128) (η : ℕ → Fin 2048 → ℝ)
    (hη : ∀ (q : Fin 4) (k : Fin 2048), hSlab (grid1.coords (pt R q)) (hB V c (pt R q)) (ix2 k d) = (η q.val k : EReal)) :
    ∀ (n : ℕ) (hn : n < 4),
      (scAt1 V c (pt R ⟨n, hn⟩).val (pt R ⟨n, hn⟩).isLt).2.2 (ix2 p d) = aAt σ η (mu σ) (n + 1)
  | 0, hn => by
    rw [scAt1_first V c (pt R ⟨0, hn⟩) (by show (4 * R.val + 0) % 4 = 0; omega)]
    have hm0 : (resetS (F := Ideal)).1 (ix2 p 0) = mAt (mu σ) 0 := (pay4_apply (ix2 p 0)).trans (mAt_zero _).symm
    have ha0 : (resetS (F := Ideal)).2.2 (ix2 p d) = aAt σ η (mu σ) 0 := (pay6_apply (ix2 p d)).trans (aAt_zero _ _ _).symm
    exact stepS_online_acc _ _ _ _ _ resetS p σ 0 (fun k => hσ ⟨0, hn⟩ k) hm0 d η (fun k => hη ⟨0, hn⟩ k) ha0
  | n + 1, hn => by
    have ih := state_row_acc_aux c R p σ hσ d η hη n (by omega)
    have im := (state_row_aux V c R p σ hσ n (by omega)).1
    rw [scAt1_later V c (pt R ⟨n + 1, hn⟩) (by show ¬(4 * R.val + (n + 1)) % 4 = 0; omega),
      scAt1_congr V c (show (pt R ⟨n + 1, hn⟩).val - 1 = (pt R ⟨n, by omega⟩).val from by
        show 4 * R.val + (n + 1) - 1 = 4 * R.val + n; omega) _ (pt R ⟨n, by omega⟩).isLt]
    exact stepS_online_acc _ _ _ _ _ _ p σ (n + 1) (fun k => hσ ⟨n + 1, hn⟩ k) im d η (fun k => hη ⟨n + 1, hn⟩ k) ih

/-- FOUR TILES, weighted sum: after column tile `q` of row tile `R` the weighted sum of row `p`, column `d` is the
    recursion's at `q + 1`. -/
theorem state_row_acc (c : Dev nD) (R : Fin 16) (p : Fin 512) (σ : ℕ → Fin 2048 → ℝ)
    (hσ : ∀ (q : Fin 4) (k : Fin 2048), k1_pay7 (F := Ideal) (w1B V c (pt R q)) (w2B V c (pt R q)) (adjB V c (pt R q)) (ix2 p k) = (σ q.val k : EReal))
    (d : Fin 128) (η : ℕ → Fin 2048 → ℝ)
    (hη : ∀ (q : Fin 4) (k : Fin 2048), hSlab (grid1.coords (pt R q)) (hB V c (pt R q)) (ix2 k d) = (η q.val k : EReal)) :
    ∀ q : Fin 4, (scAt1 V c (pt R q).val (pt R q).isLt).2.2 (ix2 p d) = aAt σ η (mu σ) (q.val + 1) :=
  fun q => state_row_acc_aux V c R p σ hσ d η hη q.val q.isLt

end Row

end Cert.KernelIdeal.FlashV

end
-- ==== Proof.KiValOut.lean ====
/- From blocks to the array, for the attention kernel's output. The output array has 8192 rows of 128; the grid point
   t = 4 * (row tile) + (column tile) writes its 512 x 128 block back only at the last column tile (t % 4 = 3), to rows
   512 * (t / 4) … 512 * (t / 4) + 511. So if what each such point leaves in its block is one function G of the array
   index, read at those rows, the array ends holding G: the sixteen written blocks tile the array (row r lies in the
   block of the point 4 * (r / 512) + 3). -/
import proofs.«407537_j39470749450706_3_alg».proof.Proof.KiRegion1
import Idealize.ShloMosaic.Lib.Pipeline.Value
import Idealize.ShloMosaic.Lib.ValueIdx

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

/-- The output window's block index at point `t`: (row tile, 0) = (t / 4, 0). -/
theorem out_index : ∀ t : Fin cfg1.N, win1_5.index t (0 : Fin 2) = t.val / 4 ∧ win1_5.index t (1 : Fin 2) = 0 :=
  (by decide +kernel : ∀ t : Fin grid1.N, _)

/-- An index of the output array is in point `t`'s block iff each coordinate is in the block's range on its axis. -/
theorem out_mem_blk (t : Fin cfg1.N) (i : S8192x128.Idx) :
    i ∈ ((cfg1.win 5).blk t).view.set
      ↔ ∀ a : Fin 2, win1_5.index t a * S512x128.size a ≤ (i a).val
          ∧ (i a).val < win1_5.index t a * S512x128.size a + S512x128.size a := by
  show i ∈ ((View.whole main_v7).slice (win1_5.rect t)).set ↔ _
  rw [View.set_slice_whole, Rect.mem_set_unit]
  exact Iff.rfl

/-- Every index of the output array lies in the block of a point that writes back: row `r` in that of the last column
    tile of row tile `r / 512`. -/
theorem out_cover (i : S8192x128.Idx) :
    ∃ t : Fin cfg1.N, (cfg1.win 5).flush t = true ∧ i ∈ ((cfg1.win 5).blk t).view.set := by
  have hi0 : (i 0).val < 8192 := (i 0).isLt
  have hi1 : (i 1).val < 128 := (i 1).isLt
  have hN : cfg1.N = 64 := N_1
  have ht : 4 * ((i 0).val / 512) + 3 < cfg1.N := by omega
  refine ⟨⟨4 * ((i 0).val / 512) + 3, ht⟩, (flush1_5 _).mpr (by show (4 * ((i 0).val / 512) + 3) % 4 = 3; omega), ?_⟩
  rw [out_mem_blk]
  obtain ⟨e0, e1⟩ := out_index ⟨4 * ((i 0).val / 512) + 3, ht⟩
  have e0' : win1_5.index ⟨4 * ((i 0).val / 512) + 3, ht⟩ (0 : Fin 2) = (4 * ((i 0).val / 512) + 3) / 4 := e0
  intro a
  match a with
  | ⟨0, _⟩ =>
    show win1_5.index ⟨4 * ((i 0).val / 512) + 3, ht⟩ (0 : Fin 2) * 512 ≤ (i 0).val
      ∧ (i 0).val < win1_5.index ⟨4 * ((i 0).val / 512) + 3, ht⟩ (0 : Fin 2) * 512 + 512
    omega
  | ⟨1, _⟩ =>
    show win1_5.index ⟨4 * ((i 0).val / 512) + 3, ht⟩ (1 : Fin 2) * 128 ≤ (i 1).val
      ∧ (i 1).val < win1_5.index ⟨4 * ((i 0).val / 512) + 3, ht⟩ (1 : Fin 2) * 128 + 128
    omega

section Regions
variable (V : (c : Dev nD) → (b : Ref sig .tc) → Buf (Elt F) ((c : Thread nD τ).loc b))

/-- What a last column tile writes back is its block of `G`, when the block it leaves is `G` read at the block's
    rows: element (p, d) of the block of point `t` sits at row 512 * (t / 4) + p, column d of the array. -/
theorem out_flushed (c : Dev nD) (G : S8192x128.Idx → Elt F .f32)
    (hG : ∀ (t : Fin cfg1.N), t.val % 4 = 3 → ∀ (p : Fin 512) (d : Fin 128),
      outAt1 V c t (ix2 p d) = G (ix2 ⟨512 * (t.val / 4) + p.val, by have := t.isLt; have : cfg1.N = 64 := N_1; omega⟩ d))
    (t : Fin cfg1.N) (hf : (cfg1.win 5).flush t = true) :
    (dat1 V c).flushed 5 t = ((cfg1.win 5).blk t).view.read (Elt F) G := by
  have h3 : t.val % 4 = 3 := (flush1_5 t).mp hf
  have hN : t.val < 64 := lt_of_lt_of_eq t.isLt (show cfg1.N = 64 from N_1)
  show (cfg1.win 5).cut (grid1.coords t) ((dat1 V c).after 5 t) = _
  rw [after1_5]
  obtain ⟨e0, e1⟩ := out_index t
  funext j
  have hj0 : (j 0).val < 512 := (j 0).isLt
  have hj1 : (j 1).val < 128 := (j 1).isLt
  show outAt1 V c t ((cfg1.win 5).xinj (grid1.coords t) j) = G (((cfg1.win 5).blk t).view.emb j)
  have hL : (cfg1.win 5).xinj (grid1.coords t) j = ix2 (⟨(j 0).val, hj0⟩ : Fin 512) (⟨(j 1).val, hj1⟩ : Fin 128) := by
    funext a
    match a with
    | ⟨0, _⟩ => rfl
    | ⟨1, _⟩ => rfl
  have hR : ((cfg1.win 5).blk t).view.emb j
      = ix2 (⟨512 * (t.val / 4) + (j 0).val, by omega⟩ : Fin 8192) (⟨(j 1).val, hj1⟩ : Fin 128) := by
    funext a; apply Fin.ext
    match a with
    | ⟨0, _⟩ => show win1_5.index t (0 : Fin 2) * 512 + 1 * (j 0).val = 512 * (t.val / 4) + (j 0).val; omega
    | ⟨1, _⟩ => show win1_5.index t (1 : Fin 2) * 128 + 1 * (j 1).val = (j 1).val; omega
  rw [hL, hR]
  exact hG t h3 _ _

/-- The output array after the launch: `G`, when every last column tile leaves `G`'s rows of its row tile in its
    block. -/
theorem out_final (c : Dev nD) (G : S8192x128.Idx → Elt F .f32)
    (hG : ∀ (t : Fin cfg1.N), t.val % 4 = 3 → ∀ (p : Fin 512) (d : Fin 128),
      outAt1 V c t (ix2 p d) = G (ix2 ⟨512 * (t.val / 4) + p.val, by have := t.isLt; have : cfg1.N = 64 := N_1; omega⟩ d)) :
    (dat1 V c).arrAt 5 cfg1.N = G :=
  (dat1 V c).arrAt_eq_of_cover 5 G (fun t hf => out_flushed V c G hG t hf) out_cover

end Regions

end Cert.KernelIdeal.Flash

end
-- ==== Proof.SpecReal.lean ====
/-
  Under real inputs every quantity of the specification is a real, and the attention-weighted features are the real
  softmax expression over four tiles of 2048 columns.

  A finite single-precision pattern (exponent field not all ones) denotes a real, so the rectifier, the masked logit and
  the row maximum of finitely many reals (folded from −∞ over a nonempty index set) are reals. A sum over the 8192
  columns is the sum over four consecutive tiles of 2048 columns. With the logits σ, the projected features η and the
  row maximum M as reals, the attention-weighted features are ∑ (exp (σ − M) / ∑ exp (σ − M)) · η over the tiles.
-/
import proofs.«407537_j39470749450706_3_alg».proof.Proof.Spec
import proofs.«407537_j39470749450706_3_alg».proof.Proof.LibOnlineSoftmax
import Idealize.ShloMosaic.PureOps.Ideal
import Idealize.ShloMosaic.Lib.ValueIdx
import Mathlib.Data.EReal.Basic
import Mathlib.Data.EReal.Operations
import Mathlib.Algebra.BigOperators.Fin
import Mathlib.Algebra.BigOperators.Group.Finset.Basic
import Mathlib.Logic.Equiv.Fin.Basic

set_option maxRecDepth 16384

noncomputable section

namespace Cert.Flash.SpecReal

open Cert.Flash.Spec Idealize.ShloMosaic Idealize.ShloMosaic.ValueIdx OnlineSoftmax
open scoped BigOperators

/-! ### Reals among the extended reals -/

/-- An extended real that is a real is the inclusion of its real part. -/
theorem eq_coe_toReal {z : EReal} (h : ∃ r : ℝ, z = (r : EReal)) : z = ((z.toReal : ℝ) : EReal) := by
  obtain ⟨r, rfl⟩ := h
  rw [EReal.toReal_coe]

/-- A finite sum of products of reals is the real sum of the products of the real parts. -/
theorem sum_mul_eq {ι : Type*} [Fintype ι] (f g : ι → EReal) (hf : ∀ i, ∃ r : ℝ, f i = (r : EReal))
    (hg : ∀ i, ∃ r : ℝ, g i = (r : EReal)) :
    ∑ i, f i * g i = ((∑ i, (f i).toReal * (g i).toReal : ℝ) : EReal) := by
  rw [coe_sum]
  refine Finset.sum_congr rfl fun i _ => ?_
  obtain ⟨r1, h1⟩ := hf i
  obtain ⟨r2, h2⟩ := hg i
  rw [h1, h2, EReal.toReal_coe, EReal.toReal_coe, EReal.coe_mul]

/-! ### Float words -/

/-- A pattern whose exponent field is not all ones denotes a real: a zero, a subnormal or a normal number. -/
theorem ieee_real (e m : ℕ) {n : ℕ} (b : BitVec n) (h : (b.extractLsb' m e).toNat ≠ 2 ^ e - 1) :
    ∃ r : ℝ, Ideal.ieee e m b = (r : EReal) := by
  unfold Ideal.ieee
  dsimp only
  rw [if_neg h]
  split <;> exact ⟨_, rfl⟩

/-- A single-precision pattern whose exponent field is not 255 denotes a real. -/
theorem f32_real (b : BitVec 32) (h : (b.extractLsb' 23 8).toNat ≠ 255) :
    ∃ r : ℝ, Ideal.ofBits .f32 b = (r : EReal) :=
  ieee_real 8 23 b h

/-- The rectifier's slope 0.2 (exponent field 124) is a real. -/
theorem slope_real : ∃ r : ℝ, Ideal.ofBits .f32 0x3E4CCCCD#32 = (r : EReal) := f32_real _ (by decide)

/-- The mask value −9e15 (exponent field 179) is a real. -/
theorem mask_real : ∃ r : ℝ, Ideal.ofBits .f32 0xD9FFCB9E#32 = (r : EReal) := f32_real _ (by decide)

/-- The norm floor 1e−12 (exponent field 87) is a real. -/
theorem floor_real : ∃ r : ℝ, Ideal.ofBits .f32 0x2B8CBCCC#32 = (r : EReal) := f32_real _ (by decide)

/-- The pattern 0x00000000 denotes zero. -/
theorem zero_word : Ideal.ofBits .f32 0x00000000#32 = (0 : EReal) := by
  simp [Ideal.ofBits, Ideal.ieee]

/-- The pattern 0xFF800000 denotes −∞. -/
theorem ninf_word : Ideal.ofBits .f32 0xFF800000#32 = (⊥ : EReal) := by
  simp [Ideal.ofBits, Ideal.ieee]

/-! ### The specification's quantities are reals -/

/-- The projected features are reals. -/
theorem hMat_real (x : SX.Idx → EReal) (w : SW.Idx → EReal) (hx : ∀ i, ∃ r : ℝ, x i = (r : EReal))
    (hw : ∀ i, ∃ r : ℝ, w i = (r : EReal)) (k : Fin 8192) (d : Fin 128) : ∃ r : ℝ, hMat x w k d = (r : EReal) :=
  ⟨_, sum_mul_eq (fun c : Fin 256 => x (ix2 k c)) (fun c => w (ix2 c d)) (fun _ => hx _) (fun _ => hw _)⟩

/-- The row node's half of the logit is a real. -/
theorem wh1_real (x : SX.Idx → EReal) (w : SW.Idx → EReal) (a : SAv.Idx → EReal) (hx : ∀ i, ∃ r : ℝ, x i = (r : EReal))
    (hw : ∀ i, ∃ r : ℝ, w i = (r : EReal)) (ha : ∀ i, ∃ r : ℝ, a i = (r : EReal)) (r : Fin 8192) :
    ∃ s : ℝ, wh1 x w a r = (s : EReal) :=
  ⟨_, sum_mul_eq (fun d : Fin 128 => hMat x w r d) _ (fun d => hMat_real x w hx hw r d) (fun _ => ha _)⟩

/-- The column node's half of the logit is a real. -/
theorem wh2_real (x : SX.Idx → EReal) (w : SW.Idx → EReal) (a : SAv.Idx → EReal) (hx : ∀ i, ∃ r : ℝ, x i = (r : EReal))
    (hw : ∀ i, ∃ r : ℝ, w i = (r : EReal)) (ha : ∀ i, ∃ r : ℝ, a i = (r : EReal)) (k : Fin 8192) :
    ∃ s : ℝ, wh2 x w a k = (s : EReal) :=
  ⟨_, sum_mul_eq (fun d : Fin 128 => hMat x w k d) _ (fun d => hMat_real x w hx hw k d) (fun _ => ha _)⟩

/-- The rectifier of a real is a real: the real itself, or the slope times it. -/
theorem leaky_real (z : ℝ) : ∃ r : ℝ, leaky (z : EReal) = (r : EReal) := by
  unfold leaky Scalar.select
  split
  · exact ⟨z, rfl⟩
  · obtain ⟨s, hs⟩ := slope_real
    exact ⟨s * z, by rw [hs, EReal.coe_mul]⟩

/-- The masked logit is a real: the rectified sum of two reals, or the mask value. -/
theorem score_real (x : SX.Idx → EReal) (adj : SAdj.Idx → BitVec 32) (w : SW.Idx → EReal) (a : SAv.Idx → EReal)
    (hx : ∀ i, ∃ r : ℝ, x i = (r : EReal)) (hw : ∀ i, ∃ r : ℝ, w i = (r : EReal)) (ha : ∀ i, ∃ r : ℝ, a i = (r : EReal))
    (r k : Fin 8192) : ∃ s : ℝ, score x adj w a r k = (s : EReal) := by
  unfold score Scalar.select
  split
  · obtain ⟨u, hu⟩ := wh1_real x w a hx hw ha r
    obtain ⟨v, hv⟩ := wh2_real x w a hx hw ha k
    rw [hu, hv, ← EReal.coe_add]
    exact leaky_real _
  · exact mask_real

/-- The row's maximum is a real: the maximum of finitely many reals over a nonempty index set. -/
theorem rowMax_real (x : SX.Idx → EReal) (adj : SAdj.Idx → BitVec 32) (w : SW.Idx → EReal) (a : SAv.Idx → EReal)
    (hx : ∀ i, ∃ r : ℝ, x i = (r : EReal)) (hw : ∀ i, ∃ r : ℝ, w i = (r : EReal)) (ha : ∀ i, ∃ r : ℝ, a i = (r : EReal))
    (r : Fin 8192) : ∃ M : ℝ, rowMax x adj w a r = (M : EReal) := by
  unfold rowMax
  rw [ninf_word, bot_sup_eq]
  have e : (fun k => score x adj w a r k) = fun k => (((score x adj w a r k).toReal : ℝ) : EReal) :=
    funext fun k => eq_coe_toReal (score_real x adj w a hx hw ha r k)
  rw [e]
  exact fold_max_real Finset.univ ⟨⟨0, by norm_num⟩, Finset.mem_univ _⟩ _

/-! ### Four tiles of 2048 columns -/

/-- Column k of tile q. -/
def tile (q : ℕ) (k : Fin 2048) : Fin 8192 := ⟨(2048 * q + k.val) % 8192, Nat.mod_lt _ (by norm_num)⟩

/-- For the four tiles the column is 2048 · q + k itself. -/
theorem tile_val (q : ℕ) (hq : q < 4) (k : Fin 2048) : (tile q k).val = 2048 * q + k.val := by
  show (2048 * q + k.val) % 8192 = _
  have := k.isLt
  exact Nat.mod_eq_of_lt (by omega)

/-- A sum over the 8192 columns is the sum over the four tiles of the sums over each tile's 2048 columns: the pair
    (q, k) ↦ 2048 · q + k is a bijection of 4 × 2048 with 8192. -/
theorem sum_tiles {M : Type*} [AddCommMonoid M] (f : Fin 8192 → M) :
    ∑ j : Fin 8192, f j = ∑ q ∈ Finset.range 4, ∑ k : Fin 2048, f (tile q k) := by
  have e : ∀ p : Fin 4 × Fin 2048, (finProdFinEquiv p : Fin 8192) = tile p.1.val p.2 := fun p =>
    Fin.ext (by
      rw [tile_val _ p.1.isLt]
      show p.2.val + 2048 * p.1.val = _
      omega)
  calc ∑ j : Fin 8192, f j
      = ∑ p : Fin 4 × Fin 2048, f (finProdFinEquiv p) := (Equiv.sum_comp (finProdFinEquiv (m := 4) (n := 2048)) f).symm
    _ = ∑ p : Fin 4 × Fin 2048, f (tile p.1.val p.2) := Finset.sum_congr rfl fun p _ => congrArg f (e p)
    _ = ∑ q : Fin 4, ∑ k : Fin 2048, f (tile q.val k) := Fintype.sum_prod_type _
    _ = ∑ q ∈ Finset.range 4, ∑ k : Fin 2048, f (tile q k) :=
        Fin.sum_univ_eq_sum_range (fun q => ∑ k : Fin 2048, f (tile q k)) 4

/-! ### The attention-weighted features as the real softmax expression -/

/-- The masked logit of row r at column k of tile q, as a real. -/
def sig (x : SX.Idx → EReal) (adj : SAdj.Idx → BitVec 32) (w : SW.Idx → EReal) (a : SAv.Idx → EReal) (r : Fin 8192)
    (q : ℕ) (k : Fin 2048) : ℝ :=
  (score x adj w a r (tile q k)).toReal

/-- The projected feature d of the node at column k of tile q, as a real. -/
def eta (x : SX.Idx → EReal) (w : SW.Idx → EReal) (d : Fin 128) (q : ℕ) (k : Fin 2048) : ℝ :=
  (hMat x w (tile q k) d).toReal

/-- The masked logit is the inclusion of its real part (at every tile index). -/
theorem sig_eq (x : SX.Idx → EReal) (adj : SAdj.Idx → BitVec 32) (w : SW.Idx → EReal) (a : SAv.Idx → EReal)
    (hx : ∀ i, ∃ r : ℝ, x i = (r : EReal)) (hw : ∀ i, ∃ r : ℝ, w i = (r : EReal)) (ha : ∀ i, ∃ r : ℝ, a i = (r : EReal))
    (r : Fin 8192) (q : ℕ) (k : Fin 2048) : score x adj w a r (tile q k) = (sig x adj w a r q k : EReal) :=
  eq_coe_toReal (score_real x adj w a hx hw ha r (tile q k))

/-- The same, stated for the four tiles. -/
theorem sig_spec (x : SX.Idx → EReal) (adj : SAdj.Idx → BitVec 32) (w : SW.Idx → EReal) (a : SAv.Idx → EReal)
    (hx : ∀ i, ∃ r : ℝ, x i = (r : EReal)) (hw : ∀ i, ∃ r : ℝ, w i = (r : EReal)) (ha : ∀ i, ∃ r : ℝ, a i = (r : EReal))
    (r : Fin 8192) (q : ℕ) (_hq : q < 4) (k : Fin 2048) :
    score x adj w a r (tile q k) = (sig x adj w a r q k : EReal) :=
  sig_eq x adj w a hx hw ha r q k

/-- The projected feature is the inclusion of its real part (at every tile index). -/
theorem eta_eq (x : SX.Idx → EReal) (w : SW.Idx → EReal) (hx : ∀ i, ∃ r : ℝ, x i = (r : EReal))
    (hw : ∀ i, ∃ r : ℝ, w i = (r : EReal)) (d : Fin 128) (q : ℕ) (k : Fin 2048) :
    hMat x w (tile q k) d = (eta x w d q k : EReal) :=
  eq_coe_toReal (hMat_real x w hx hw (tile q k) d)

/-- The same, stated for the four tiles. -/
theorem eta_spec (x : SX.Idx → EReal) (w : SW.Idx → EReal) (hx : ∀ i, ∃ r : ℝ, x i = (r : EReal))
    (hw : ∀ i, ∃ r : ℝ, w i = (r : EReal)) (d : Fin 128) (q : ℕ) (_hq : q < 4) (k : Fin 2048) :
    hMat x w (tile q k) d = (eta x w d q k : EReal) :=
  eta_eq x w hx hw d q k

/-- The row maximum is the inclusion of its real part. -/
theorem rowMax_spec (x : SX.Idx → EReal) (adj : SAdj.Idx → BitVec 32) (w : SW.Idx → EReal) (a : SAv.Idx → EReal)
    (hx : ∀ i, ∃ r : ℝ, x i = (r : EReal)) (hw : ∀ i, ∃ r : ℝ, w i = (r : EReal)) (ha : ∀ i, ∃ r : ℝ, a i = (r : EReal))
    (r : Fin 8192) : rowMax x adj w a r = (((rowMax x adj w a r).toReal : ℝ) : EReal) :=
  eq_coe_toReal (rowMax_real x adj w a hx hw ha r)

/-- The shifted exponential at column k of tile q, over the real logit and the real row maximum. -/
theorem pExp_tile (x : SX.Idx → EReal) (adj : SAdj.Idx → BitVec 32) (w : SW.Idx → EReal) (a : SAv.Idx → EReal)
    (hx : ∀ i, ∃ r : ℝ, x i = (r : EReal)) (hw : ∀ i, ∃ r : ℝ, w i = (r : EReal)) (ha : ∀ i, ∃ r : ℝ, a i = (r : EReal))
    (r : Fin 8192) (q : ℕ) (k : Fin 2048) :
    pExp x adj w a r (tile q k)
      = Ideal.exp ((sig x adj w a r q k : EReal) - (((rowMax x adj w a r).toReal : ℝ) : EReal)) := by
  unfold pExp
  rw [sig_eq x adj w a hx hw ha r q k, ← rowMax_spec x adj w a hx hw ha r]

/-- The softmax denominator over the four tiles. -/
theorem denom_tiles (x : SX.Idx → EReal) (adj : SAdj.Idx → BitVec 32) (w : SW.Idx → EReal) (a : SAv.Idx → EReal)
    (hx : ∀ i, ∃ r : ℝ, x i = (r : EReal)) (hw : ∀ i, ∃ r : ℝ, w i = (r : EReal)) (ha : ∀ i, ∃ r : ℝ, a i = (r : EReal))
    (r : Fin 8192) :
    denom x adj w a r
      = 0 + ∑ q ∈ Finset.range (3 + 1), ∑ k : Fin 2048,
          Ideal.exp ((sig x adj w a r q k : EReal) - (((rowMax x adj w a r).toReal : ℝ) : EReal)) := by
  unfold denom
  rw [zero_word, sum_tiles]
  refine congrArg (0 + ·) (Finset.sum_congr rfl fun q _ => Finset.sum_congr rfl fun k _ => ?_)
  exact pExp_tile x adj w a hx hw ha r q k

/-- The attention-weighted features: the real softmax-weighted sum of the projected features over the four tiles. -/
theorem hPass_eq (x : SX.Idx → EReal) (adj : SAdj.Idx → BitVec 32) (w : SW.Idx → EReal) (a : SAv.Idx → EReal)
    (hx : ∀ i, ∃ r : ℝ, x i = (r : EReal)) (hw : ∀ i, ∃ r : ℝ, w i = (r : EReal)) (ha : ∀ i, ∃ r : ℝ, a i = (r : EReal))
    (r : Fin 8192) (d : Fin 128) :
    hPass x adj w a r d
      = ((∑ q ∈ Finset.range (3 + 1), ∑ k : Fin 2048,
            (Real.exp (sig x adj w a r q k - (rowMax x adj w a r).toReal)
              / (∑ q' ∈ Finset.range (3 + 1), ∑ k' : Fin 2048,
                  Real.exp (sig x adj w a r q' k' - (rowMax x adj w a r).toReal)))
              * eta x w d q k : ℝ) : EReal) := by
  haveI : Nonempty (Fin 2048) := ⟨⟨0, by norm_num⟩⟩
  refine Eq.trans ?_ (softmax_ereal (sig x adj w a r) (eta x w d) 3 (rowMax x adj w a r).toReal)
  unfold hPass
  rw [sum_tiles, denom_tiles x adj w a hx hw ha r]
  refine Finset.sum_congr rfl fun q _ => Finset.sum_congr rfl fun k _ => ?_
  rw [pExp_tile x adj w a hx hw ha r q k, eta_eq x w hx hw d q k]

end Cert.Flash.SpecReal

end
-- ==== Proof.KiValFinal.lean ====
/- The attention kernel's result is the specification, at the exact extended reals and under finite inputs. For the
   row r = 512 R + p: the masked scores the four column tiles of row tile R meet are the specification's scores at the
   columns 2048 q + k, and the slab of h the column tile reads is the specification's projected features; so the
   running state after the fourth tile is the online recursion over those reals, its quotient is the specification's
   attention-weighted features (softmax is invariant under a shift of the reference point), the epilogue is the
   specification's, and the four-th tiles' output blocks tile the result array. -/
import proofs.«407537_j39470749450706_3_alg».proof.Proof.KiValIn
import proofs.«407537_j39470749450706_3_alg».proof.Proof.KiValStep
import proofs.«407537_j39470749450706_3_alg».proof.Proof.KiValPay
import proofs.«407537_j39470749450706_3_alg».proof.Proof.KiValState
import proofs.«407537_j39470749450706_3_alg».proof.Proof.KiValOut
import proofs.«407537_j39470749450706_3_alg».proof.Proof.SpecReal
import proofs.«407537_j39470749450706_3_alg».proof.Proof.LibOnlineSoftmax

set_option maxRecDepth 16384

noncomputable section

namespace Cert.KernelIdeal.FlashV

open Cert.KernelIdeal Cert.KernelIdeal.Gen Cert.KernelIdeal.Flash Cert.Flash.Spec
open Idealize.ShloMosaic Idealize.ShloMosaic.TcCoe Idealize.ShloMosaic.ValueIdx
open Idealize.SL Idealize.SL.Sem
open OnlineSoftmax Cert.Flash.SpecReal

variable (m : (ℓ : Loc nD τ sig) → Buf (Elt Ideal) ℓ) (ρ : Dev nD → PrngReg) (c : Dev nD)

/-- Row p of row tile R. -/
def rowOf (R : Fin 16) (p : Fin 512) : Fin 8192 := ⟨512 * R.val + p.val, by have := R.isLt; have := p.isLt; omega⟩

theorem pt_val (R : Fin 16) (q : Fin 4) : (pt R q).val = 4 * R.val + q.val := rfl

theorem row_eq (R : Fin 16) (q : Fin 4) (p : Fin 512) :
    (⟨512 * ((pt R q).val / 4) + p.val, row_lt (pt R q) p⟩ : Fin 8192) = rowOf R p :=
  Fin.ext (by show 512 * ((pt R q).val / 4) + p.val = 512 * R.val + p.val; rw [pt_val]; have := q.isLt; omega)

theorem col_eq (R : Fin 16) (q : Fin 4) (k : Fin 2048) :
    (⟨2048 * ((pt R q).val % 4) + k.val, col_lt (pt R q) k⟩ : Fin 8192) = tile q.val k :=
  Fin.ext (by rw [tile_val _ q.isLt]; show 2048 * ((pt R q).val % 4) + k.val = _; rw [pt_val]; have := q.isLt; omega)

/-- The masked score the body computes at (p, k) of column tile q is the specification's at (row, column 2048 q + k). -/
theorem score_tile (R : Fin 16) (p : Fin 512) (q : Fin 4) (k : Fin 2048) :
    k1_pay7 (F := Ideal) (w1B (E2 m ρ) c (pt R q)) (w2B (E2 m ρ) c (pt R q)) (adjB (E2 m ρ) c (pt R q)) (ix2 p k)
      = score (ax m c) (aadj m c) (aw m c) (aa m c) (rowOf R p) (tile q.val k) := by
  rw [pay7_apply, adjB_eq m ρ c, w1B_eq m ρ c, w2B_eq m ρ c, row_eq, col_eq]
  rfl

/-- The slab of h the column tile q reads is the specification's projected features at the columns 2048 q + k. -/
theorem slab_tile (R : Fin 16) (q : Fin 4) (k : Fin 2048) (d : Fin 128) :
    hSlab (grid1.coords (pt R q)) (hB (E2 m ρ) c (pt R q)) (ix2 k d) = hMat (ax m c) (aw m c) (tile q.val k) d := by
  rw [hSlab_eq m ρ c, col_eq]

section Finite
variable (hx : ∀ i, ∃ r : ℝ, ax m c i = (r : EReal)) (hw : ∀ i, ∃ r : ℝ, aw m c i = (r : EReal)) (ha : ∀ i, ∃ r : ℝ, aa m c i = (r : EReal))
include hx hw ha

/-- After the fourth column tile the weighted sum over the denominator is the specification's attention-weighted
    features of the row. -/
theorem hp_eq (R : Fin 16) (p : Fin 512) (d : Fin 128) :
    Ideal.div ((scAt1 (E2 m ρ) c (pt R 3).val (pt R 3).isLt).2.2 (ix2 p d)) ((scAt1 (E2 m ρ) c (pt R 3).val (pt R 3).isLt).2.1 (ix2 p 0))
      = hPass (ax m c) (aadj m c) (aw m c) (aa m c) (rowOf R p) d := by
  have hσ : ∀ (q : Fin 4) (k : Fin 2048), k1_pay7 (F := Ideal) (w1B (E2 m ρ) c (pt R q)) (w2B (E2 m ρ) c (pt R q)) (adjB (E2 m ρ) c (pt R q)) (ix2 p k)
      = (Cert.Flash.SpecReal.sig (ax m c) (aadj m c) (aw m c) (aa m c) (rowOf R p) q.val k : EReal) :=
    fun q k => (score_tile m ρ c R p q k).trans (sig_spec (ax m c) (aadj m c) (aw m c) (aa m c) hx hw ha (rowOf R p) q.val q.isLt k)
  have hη : ∀ (q : Fin 4) (k : Fin 2048), hSlab (grid1.coords (pt R q)) (hB (E2 m ρ) c (pt R q)) (ix2 k d)
      = (eta (ax m c) (aw m c) d q.val k : EReal) :=
    fun q k => (slab_tile m ρ c R q k d).trans (eta_spec (ax m c) (aw m c) hx hw d q.val q.isLt k)
  have hl := (state_row (E2 m ρ) c R p _ hσ 3).2
  have hacc := state_row_acc (E2 m ρ) c R p _ hσ d _ hη 3
  rw [hacc, hl, hPass_eq (ax m c) (aadj m c) (aw m c) (aa m c) hx hw ha (rowOf R p) d]
  exact online_eq_softmax _ _ _ 3 _

/-- The block a last column tile stores is the specification's block of rows. -/
theorem out_block (t : Fin cfg1.N) (h3 : t.val % 4 = 3) (p : Fin 512) (d : Fin 128) :
    outAt1 (E2 m ρ) c t (ix2 p d)
      = Cert.Flash.Spec.out (ax m c) (aadj m c) (aw m c) (aa m c) (ab m c)
          (ix2 ⟨512 * (t.val / 4) + p.val, by have := t.isLt; have : cfg1.N = 64 := N_1; omega⟩ d) := by
  have hN : t.val < 64 := lt_of_lt_of_eq t.isLt (show cfg1.N = 64 from N_1)
  obtain ⟨R, rfl⟩ : ∃ R : Fin 16, t = pt R 3 := ⟨⟨t.val / 4, by omega⟩, Fin.ext (by show t.val = 4 * (t.val / 4) + 3; omega)⟩
  unfold outAt1
  rw [pay3_apply]
  have hf : (fun d' => Ideal.div ((scAt1 (E2 m ρ) c (pt R 3).val (pt R 3).isLt).2.2 (ix2 p d')) ((scAt1 (E2 m ρ) c (pt R 3).val (pt R 3).isLt).2.1 (ix2 p 0)))
      = fun d' => hPass (ax m c) (aadj m c) (aw m c) (aa m c) (rowOf R p) d' :=
    funext fun d' => hp_eq m ρ c hx hw ha R p d'
  have hg : (fun d' => biasB (E2 m ρ) c (pt R 3) (ix2 (0 : Fin 1) d')) = fun d' => ab m c (ix1 d') :=
    funext fun d' => biasB_eq m ρ c (pt R 3) d'
  rw [hf, hg]
  unfold Cert.Flash.Spec.out
  have hr : (⟨512 * ((pt R 3).val / 4) + p.val, by have : (pt R 3).val < 64 := hN; omega⟩ : Fin 8192) = rowOf R p :=
    Fin.ext (by show 512 * ((pt R 3).val / 4) + p.val = 512 * R.val + p.val; rw [pt_val]; show 512 * ((4 * R.val + 3) / 4) + p.val = _; omega)
  rw [hr]

/-- The result array after the attention kernel is the specification. -/
theorem kernel_value :
    (dat1 (E2 m ρ) c).arrAt 5 cfg1.N = Cert.Flash.Spec.out (ax m c) (aadj m c) (aw m c) (aa m c) (ab m c) :=
  out_final (E2 m ρ) c _ (fun t h3 p d => out_block m ρ c hx hw ha t h3 p d)

end Finite

end Cert.KernelIdeal.FlashV

end
-- ==== Proof.RefValue.lean ====
/-
  The reference computes the specification.

  The reference program's result, stage by stage: each of its operations read at an index is the matching
  intermediate of the specification — the projected features, the two halves of the attention logit, the masked
  logit, the row's maximum (the one reduction read here as a fold over the columns), the shifted exponential, the
  softmax denominator, the attention-weighted features and the epilogue (rectify, divide by the bounded 2-norm,
  add the bias). Every equation is between two terms at ONE index; no whole array is compared.
-/
import proofs.«407537_j39470749450706_3_alg».proof.Proof.RefRead
import proofs.«407537_j39470749450706_3_alg».proof.Proof.Spec
import Idealize.ShloMosaic.PureOps.Ideal.Laws
import Idealize.ShloMosaic.PureOps.Reduce
import Idealize.ShloMosaic.Lib.ValueIdx

noncomputable section

open scoped BigOperators

namespace Cert.ReferenceIdeal.RefValue

open Cert.ReferenceIdeal Cert.ReferenceIdeal.Gen Cert.ReferenceIdeal.ReadP Idealize.ShloMosaic Idealize.ShloMosaic.TcCoe Idealize.SL.Sem
  Idealize.ShloMosaic.StableHlo Idealize.ShloMosaic.ValueIdx Cert.Flash.Spec

/-- The comparison of the ideal instance is the order's. -/
theorem cmpf_def (p : CmpFPredicate) (x y : EReal) : FloatOps.cmpf (F := Ideal) (φ := .f32) p x y = Ideal.cmp p x y := rfl

/-! ### The operand indices of the products, by coordinates -/

theorem lidx0 (i : S8192x128.Idx) (c : Fin 256) : lidx_main_v0 i c = ix2 (i 0 : Fin 8192) c :=
  funext fun a => by match a with | ⟨0, _⟩ => rfl | ⟨1, _⟩ => rfl
theorem ridx0 (i : S8192x128.Idx) (c : Fin 256) : ridx_main_v0 i c = ix2 c (i 1 : Fin 128) :=
  funext fun a => by match a with | ⟨0, _⟩ => rfl | ⟨1, _⟩ => rfl
/-- The first half of the attention vector, read through the slice and the product's right index. -/
theorem aidx1 (j : S8192x1.Idx) (d : Fin 128) :
    idx_main_v1 (ridx_main_v2 j d) = ix2 (⟨d.val, by have := d.isLt; omega⟩ : Fin 256) (0 : Fin 1) :=
  funext fun a => by
    match a with
    | ⟨0, _⟩ => rfl
    | ⟨1, _⟩ => exact Fin.ext (by have h : (j 1).val < 1 := (j 1).isLt; show (j 1).val = 0; omega)
/-- The second half of the attention vector, likewise. -/
theorem aidx2 (j : S8192x1.Idx) (d : Fin 128) :
    idx_main_v3 (ridx_main_v4 j d) = ix2 (⟨128 + d.val, by have := d.isLt; omega⟩ : Fin 256) (0 : Fin 1) :=
  funext fun a => by
    match a with
    | ⟨0, _⟩ => rfl
    | ⟨1, _⟩ => exact Fin.ext (by have h : (j 1).val < 1 := (j 1).isLt; show (j 1).val = 0; omega)
/-- The bias, read through its two broadcasts. -/
theorem bidx (i : S8192x128.Idx) : idx_main_v39 (idx_main_v40 i) = ix1 (i 1 : Fin 128) :=
  funext fun a => by match a with | ⟨0, _⟩ => rfl

section Stages

variable (x0 : (⟨S8192x256, .f32⟩ : BufTy).Contents (Elt Ideal)) (x1 : (⟨S8192x8192, .i32⟩ : BufTy).Contents (Elt Ideal))
  (x2 : (⟨S256x128, .f32⟩ : BufTy).Contents (Elt Ideal)) (x3 : (⟨S256x1, .f32⟩ : BufTy).Contents (Elt Ideal))
  (x4 : (⟨S128, .f32⟩ : BufTy).Contents (Elt Ideal))

/-- The first product is the projected features. -/
theorem h_eq (i : S8192x128.Idx) : val_main_v0 (F := Ideal) x0 x2 i = hMat x0 x2 (i 0) (i 1) := by
  rw [val_main_v0_apply]
  simp only [lidx0, ridx0]
  rfl

/-- The product with the first slice is the row node's half of the logit. -/
theorem wh1_eq (j : S8192x1.Idx) : val_main_v2 (F := Ideal) x0 x2 x3 j = wh1 x0 x2 x3 (j 0) := by
  rw [val_main_v2_apply]
  simp only [h_eq, val_main_v1_apply, aidx1]
  rfl

/-- The product with the second slice is the column node's half. -/
theorem wh2_eq (j : S8192x1.Idx) : val_main_v4 (F := Ideal) x0 x2 x3 j = wh2 x0 x2 x3 (j 0) := by
  rw [val_main_v4_apply]
  simp only [h_eq, val_main_v3_apply, aidx2]
  rfl

/-- The masked logit at coordinates. -/
theorem score_ix (r k : Fin 8192) :
    val_main_v16 (F := Ideal) x0 x1 x2 x3 (ix2 r k) = score x0 x1 x2 x3 r k := by
  rw [val_main_v16_apply, val_main_v15_apply, val_main_v14_apply, val_main_c_apply, val_main_v13_apply,
    val_main_v10_apply, val_main_v12_apply, val_main_v11_apply, val_main_cst_0_apply, val_main_v9_apply,
    val_main_cst_apply, val_main_v8_apply, val_main_v6_apply, val_main_v7_apply, val_main_v5_apply, wh1_eq, wh2_eq,
    val_main_call1_v1_apply, val_main_call1_v0_apply, val_main_cst_1_apply]
  simp only [cmpf_def, Ideal.ofBits_def, Ideal.addf_def, Ideal.mulf_def]
  rfl

/-- The masked logit at an index. -/
theorem score_eq (j : S8192x8192.Idx) :
    val_main_v16 (F := Ideal) x0 x1 x2 x3 j = score x0 x1 x2 x3 (j 0) (j 1) :=
  (congrArg (val_main_v16 (F := Ideal) x0 x1 x2 x3) (eq_ix2 j)).trans (score_ix x0 x1 x2 x3 (j 0) (j 1))

/-- The fact the lifts of the row reductions are defined from: reducing 8192 × 8192 along its columns leaves the rows. -/
theorem red : S8192x8192.Reduces [(1 : Fin S8192x8192.rank)] S8192 := by decide

/-- A row's index with a column inserted has those two coordinates. -/
theorem lift_eq (j : S8192.Idx) (k : Fin 8192) : red.lift j k = ix2 (j 0 : Fin 8192) k :=
  funext fun a => by match a with | ⟨0, _⟩ => rfl | ⟨1, _⟩ => rfl

/-- The maximum-reduction, then the maximum with −∞, is the row's maximum. -/
theorem rowMax_eq (j : S8192.Idx) : val_main_v19 (F := Ideal) x0 x1 x2 x3 j = rowMax x0 x1 x2 x3 (j 0) := by
  rw [val_main_v19_apply, val_main_v18_apply, val_main_cst_3_apply]
  unfold val_main_v17
  rw [Host.reduce_eq_fold_single FloatOps.maximumf _ _ reducesTo_S8192x8192_S8192_d1 red h_S_ j, val_main_cst_2_apply]
  have e : (val_main_v16 (F := Ideal) x0 x1 x2 x3 ∘ red.lift j) = fun k : Fin 8192 => score x0 x1 x2 x3 (j 0) k :=
    funext fun k =>
      (congrArg (val_main_v16 (F := Ideal) x0 x1 x2 x3) (lift_eq j k)).trans (score_ix x0 x1 x2 x3 (j 0) k)
  rw [e]
  rfl

/-- The shifted exponential at coordinates. -/
theorem pExp_ix (r k : Fin 8192) :
    val_main_v23 (F := Ideal) x0 x1 x2 x3 (ix2 r k) = pExp x0 x1 x2 x3 r k := by
  rw [val_main_v23_apply, val_main_v22_apply, val_main_v21_apply, val_main_v20_apply, rowMax_eq, score_ix]
  simp only [Ideal.hostUnary_exp_def, Ideal.subf_def]
  rfl

/-- The shifted exponential at an index. -/
theorem pExp_eq (j : S8192x8192.Idx) :
    val_main_v23 (F := Ideal) x0 x1 x2 x3 j = pExp x0 x1 x2 x3 (j 0) (j 1) :=
  (congrArg (val_main_v23 (F := Ideal) x0 x1 x2 x3) (eq_ix2 j)).trans (pExp_ix x0 x1 x2 x3 (j 0) (j 1))

/-- The sum-reduction is the softmax denominator. -/
theorem denom_eq (j : S8192.Idx) : val_main_v24 (F := Ideal) x0 x1 x2 x3 j = denom x0 x1 x2 x3 (j 0) := by
  rw [val_main_v24_apply, val_main_cst_4_apply]
  simp only [pExp_eq, Ideal.ofBits_def]
  rfl

/-- The product of the attention with the projected features. -/
theorem hPass_eq (i : S8192x128.Idx) :
    val_main_v28 (F := Ideal) x0 x1 x2 x3 i = hPass x0 x1 x2 x3 (i 0) (i 1) := by
  rw [val_main_v28_apply]
  simp only [val_main_v27_apply, val_main_v26_apply, val_main_v25_apply, pExp_eq, denom_eq, h_eq, Ideal.hostDivf_def]
  rfl

/-- The rectified attention-weighted features. -/
theorem leakyHp_eq (i : S8192x128.Idx) :
    val_main_v33 (F := Ideal) x0 x1 x2 x3 i = leaky (hPass x0 x1 x2 x3 (i 0) (i 1)) := by
  rw [val_main_v33_apply, val_main_v30_apply, val_main_v32_apply, val_main_v31_apply, val_main_cst_6_apply,
    val_main_v29_apply, val_main_cst_5_apply, hPass_eq]
  simp only [cmpf_def, Ideal.ofBits_def, Ideal.mulf_def]
  rfl

/-- The row's 2-norm, bounded below by the 1e−12 pattern. -/
theorem norm_eq (j : S8192x1.Idx) :
    val_main_v36 (F := Ideal) x0 x1 x2 x3 j
      = max (Ideal.sqrt (Ideal.ofBits .f32 0x00000000#32
          + ∑ d' : Fin 128, leaky (hPass x0 x1 x2 x3 (j 0) d') * leaky (hPass x0 x1 x2 x3 (j 0) d')))
        (Ideal.ofBits .f32 0x2B8CBCCC#32) := by
  rw [val_main_v36_apply, val_main_v34_apply, val_main_call3_v2_apply, val_main_call3_v1_apply,
    val_main_call3_cst_apply, val_main_v35_apply, val_main_cst_7_apply]
  simp only [val_main_call3_v0_apply, leakyHp_eq, Ideal.hostUnary_sqrt_def, Ideal.maximumf_def, Ideal.mulf_def,
    Ideal.ofBits_def]
  rfl

end Stages

/-- The reference's composed term is the specification. -/
theorem ref_eq (x0 : (⟨S8192x256, .f32⟩ : BufTy).Contents (Elt Ideal)) (x1 : (⟨S8192x8192, .i32⟩ : BufTy).Contents (Elt Ideal))
    (x2 : (⟨S256x128, .f32⟩ : BufTy).Contents (Elt Ideal)) (x3 : (⟨S256x1, .f32⟩ : BufTy).Contents (Elt Ideal))
    (x4 : (⟨S128, .f32⟩ : BufTy).Contents (Elt Ideal)) :
    val_main_v41 (F := Ideal) x0 x1 x2 x3 x4 = Cert.Flash.Spec.out x0 x1 x2 x3 x4 := by
  funext i
  rw [val_main_v41_apply, val_main_v38_apply, val_main_v37_apply, norm_eq, leakyHp_eq, val_main_v40_apply,
    val_main_v39_apply, bidx]
  simp only [Ideal.addf_def, Ideal.hostDivf_def]
  rfl

/-- Every weakly fair run of the reference ends with the result array at the specification of the arguments'
    launch contents, the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v41)
        = Cert.Flash.Spec.out (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono
    (fun _ h c => ⟨(h c).1.trans ((val_main_v41_eq m c).trans (ref_eq _ _ _ _ _)), (h c).2⟩)
    (Cert.ReferenceIdeal.ValueP.run (F := Ideal) m ρ)

end Cert.ReferenceIdeal.RefValue

end
-- ==== Proof.Finite.lean ====
/-
  Under the printed precondition every entry of the four float inputs is a real number.

  The precondition is the conjunction, over the four float inputs x, of "every entry of |x| lies strictly below +∞",
  each conjunct a reduction by "and" of the one-bit comparison words over all axes, started at 1. Read at the
  extended reals, |a| is max a (-a), the comparison is the order's strict "less than", and the pattern 0x7F800000
  denotes ⊤. So the claim that the predicate is 1 says max a (-a) < ⊤ for every entry a of every float input, and an
  extended real with that property is neither ⊥ (whose negation is ⊤) nor ⊤: it is a real.
-/
import proofs.«407537_j39470749450706_3_alg».proof.Pre_finite_inputs
import proofs.«407537_j39470749450706_3_alg».proof.Proof.Gen.Pre_finite_inputs
import Idealize.ShloMosaic.PureOps.Ideal
import Idealize.ShloMosaic.Lib.ReduceAll
import Idealize.ShloMosaic.Lib.ValueIdx
import Mathlib.Data.EReal.Basic

noncomputable section

namespace Cert.Flash.Finite

open Idealize.ShloMosaic Idealize.ShloMosaic.ValueIdx
open Cert.Pre_finite_inputs

/-- An extended real whose absolute value max a (-a) lies strictly below ⊤ is a real: at ⊥ the negation is ⊤, at ⊤
    the value itself is. -/
theorem real_of_abs_lt_top (a : EReal) (h : max a (-a) < ⊤) : ∃ r : ℝ, a = (r : EReal) := by
  induction a using EReal.rec with
  | bot => simp at h
  | coe r => exact ⟨r, rfl⟩
  | top => simp at h

/-- A one-bit word made from a truth value is 1 exactly when the value is true. -/
theorem ofBool_eq_one (b : Bool) : BitVec.ofBool b = 1#1 ↔ b = true := by cases b <;> decide

/-- The single-precision pattern 0x7F800000 denotes +∞. -/
theorem inf_word : Ideal.ofBits .f32 0x7F800000#32 = (⊤ : EReal) := by
  simp [Ideal.ofBits, Ideal.ieee]

/-- One entry of one conjunct: where the comparison word of |x| against the broadcast +∞ is 1, the entry is a real. -/
theorem entry_real {s : Shape} (hb : S_.BroadcastsInDim s ![]) (x : FVec Ideal s .f32) (i : s.Idx)
    (h : cmpf .olt (Host.absf x) (broadcastInDim s ![] hb (constant S_ .f32 0x7F800000#32)) i = 1#1) :
    ∃ r : ℝ, x i = (r : EReal) := by
  -- at the index the comparison is the order's, |x i| is max (x i) (-(x i)), and the broadcast scalar is the constant
  change Ideal.cmp .olt (max (x i) (-(x i))) (Ideal.ofBits .f32 0x7F800000#32) = 1#1 at h
  rw [inf_word] at h
  refine real_of_abs_lt_top _ ?_
  simpa [Ideal.cmp, ofBool_eq_one] using h

/-- The scalar shape has one index. -/
instance scalarIdx_subsingleton : Subsingleton S_.Idx := ⟨fun a b => funext fun d => d.elim0⟩

/-- The precondition decoded: every entry of x0, x2, x3 and x4 is a real (x1 holds integers and is not constrained). -/
theorem finite_of_pre (x0 : FVec Ideal Cert.Pre_finite_inputs.S8192x256 .f32) (x1 : IVec Cert.Pre_finite_inputs.S8192x8192 32)
    (x2 : FVec Ideal Cert.Pre_finite_inputs.S256x128 .f32) (x3 : FVec Ideal Cert.Pre_finite_inputs.S256x1 .f32)
    (x4 : FVec Ideal Cert.Pre_finite_inputs.S128 .f32)
    (h : Cert.Pre_finite_inputs.fn (F := Ideal) x0 x1 x2 x3 x4 = fun _ => 1#1) :
    (∀ i, ∃ r : ℝ, x0 i = (r : EReal)) ∧ (∀ i, ∃ r : ℝ, x2 i = (r : EReal)) ∧ (∀ i, ∃ r : ℝ, x3 i = (r : EReal))
      ∧ (∀ i, ∃ r : ℝ, x4 i = (r : EReal)) := by
  have e := congrFun h ix0
  dsimp only [fn, fn_part1] at e
  -- the result word is ((all0 ∧ all2) ∧ all3) ∧ all4, each conjunct an "and" over every entry
  change IntOp.andi (IntOp.andi (IntOp.andi _ _) _) _ = 1#1 at e
  obtain ⟨e, h4⟩ := IntOp.andi_eq_one.1 e
  obtain ⟨e, h3⟩ := IntOp.andi_eq_one.1 e
  obtain ⟨h0, h2⟩ := IntOp.andi_eq_one.1 e
  exact ⟨fun i => entry_real _ x0 i (Host.reduce_andi_all _ _ _ _ ix0 h0 i),
    fun i => entry_real _ x2 i (Host.reduce_andi_all _ _ _ _ ix0 h2 i),
    fun i => entry_real _ x3 i (Host.reduce_andi_all _ _ _ _ ix0 h3 i),
    fun i => entry_real _ x4 i (Host.reduce_andi_all _ _ _ _ ix0 h4 i)⟩

section Each

variable (x0 : FVec Ideal Cert.Pre_finite_inputs.S8192x256 .f32) (x1 : IVec Cert.Pre_finite_inputs.S8192x8192 32)
  (x2 : FVec Ideal Cert.Pre_finite_inputs.S256x128 .f32) (x3 : FVec Ideal Cert.Pre_finite_inputs.S256x1 .f32)
  (x4 : FVec Ideal Cert.Pre_finite_inputs.S128 .f32)
  (h : Cert.Pre_finite_inputs.fn (F := Ideal) x0 x1 x2 x3 x4 = fun _ => 1#1)

include h

/-- Every entry of the first input is a real. -/
theorem x0_real : ∀ i, ∃ r : ℝ, x0 i = (r : EReal) := (finite_of_pre x0 x1 x2 x3 x4 h).1

/-- Every entry of the third input is a real. -/
theorem x2_real : ∀ i, ∃ r : ℝ, x2 i = (r : EReal) := (finite_of_pre x0 x1 x2 x3 x4 h).2.1

/-- Every entry of the fourth input is a real. -/
theorem x3_real : ∀ i, ∃ r : ℝ, x3 i = (r : EReal) := (finite_of_pre x0 x1 x2 x3 x4 h).2.2.1

/-- Every entry of the fifth input is a real. -/
theorem x4_real : ∀ i, ∃ r : ℝ, x4 i = (r : EReal) := (finite_of_pre x0 x1 x2 x3 x4 h).2.2.2

end Each

end Cert.Flash.Finite

end
-- ==== Proof.lean ====
/- A graph-attention layer: h = x·weight; attention logits leaky(h·a₁ ⊕ (h·a₂)ᵀ) masked by the adjacency; a row
   softmax; the attention-weighted features; a leaky rectifier; row-wise L2 normalisation; plus bias. The kernel
   computes the softmax-weighted sum "online": per row tile it walks four column tiles keeping a running reference
   point m, a running denominator l = Σ exp (score − m) and a running weighted sum acc = Σ exp (score − m)·h, rescaling
   both by exp (m_old − m_new) whenever the reference point moves, and divides acc by l at the end. Over the reals this
   quotient does not depend on the reference points at all (a softmax is invariant under a common shift of its
   scores), so it equals the reference's exp (score − rowmax)/Σ exp (score − rowmax) weighted sum; the first tile
   starts from m = −∞, where exp gives 0 and the old (zero) state drops out. Everything is a real number because the
   float inputs are finite, which is what the shift and the rescaling need.

   The three frames: the two kernel programs run through their two launches and six host operations with every
   argument array unchanged (the attention kernel's invariant carries its three scratch buffers at the running state);
   the reference is a host program whose run is read back. The idealization rewrote nothing. The value claim joins the
   kernel's run, whose result array is the attention kernel's write-backs read as one array, and the reference's run
   at one specification of the layer. -/
import proofs.«407537_j39470749450706_3_alg».proof.Defs
import proofs.«407537_j39470749450706_3_alg».proof.Proof.KbRun
import proofs.«407537_j39470749450706_3_alg».proof.Proof.KiRun
import proofs.«407537_j39470749450706_3_alg».proof.Proof.KiValFinal
import proofs.«407537_j39470749450706_3_alg».proof.Proof.RefValue
import proofs.«407537_j39470749450706_3_alg».proof.Proof.Finite

noncomputable section

namespace Cert.Proof

open Idealize.ShloMosaic Idealize.ShloMosaic.TcCoe Idealize.SL.Sem

/-- The word-level kernel program runs and leaves its arguments unchanged. -/
theorem frame_k : Cert.frame_Kernel := fun m ρ _ => Cert.Kernel.Flash.frame (F := Bits) m ρ

/-- So does its reading at the exact extended reals. -/
theorem frame_ki : Cert.frame_KernelIdeal := fun m ρ _ => Cert.KernelIdeal.Flash.frame (F := Ideal) m ρ

/-- The reference is a host program: its run read back, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs end with the layer's specification of the (agreeing, finite) arguments in their result arrays. -/
theorem algebraic : Cert.algebraic_KernelIdeal_ReferenceIdeal := by
  intro m ρ m' ρ' hpre hagree
  have hfin := fun c => Cert.Flash.Finite.finite_of_pre _ _ _ _ _ (hpre c)
  refine ⟨fun c => Cert.Flash.Spec.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun _ h c => ⟨(h c).1.trans ?_, (h c).2⟩)
      (Cert.KernelIdeal.Flash.run_value (F := Ideal) m ρ)
    exact Cert.KernelIdeal.FlashV.kernel_value m ρ c (hfin c).1 (hfin c).2.1 (hfin c).2.2.1
  · refine (θ_run Cert.ReferenceIdeal.defs _ _).mono (fun _ h c => ⟨?_, (h c).2⟩)
      (Cert.ReferenceIdeal.RefValue.ref_run m' ρ')
    rw [(h c).1, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
